-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x256x256 : Shape := ⟨4, ![8, 8, 256, 256]⟩
abbrev S65536x110 : Shape := ⟨2, ![65536, 110]⟩
abbrev S110x65536 : Shape := ⟨2, ![110, 65536]⟩
abbrev S_ : Shape := ⟨0, ![]⟩

class Facts : Prop where
  bcast_S_S8x8x256x256 : S_.BroadcastsInDim S8x8x256x256 (![] : Fin 0 → Fin S8x8x256x256.rank)
  reducesTo_S8x8x256x256_S_d0_1_2_3 : S8x8x256x256.ReducesTo [0, 1, 2, 3] S_
  h_S_ : 0 < S_.numel
  bcast_S_S65536x110 : S_.BroadcastsInDim S65536x110 (![] : Fin 0 → Fin S65536x110.rank)
  reducesTo_S65536x110_S_d0_1 : S65536x110.ReducesTo [0, 1] S_
  bcast_S_S110x65536 : S_.BroadcastsInDim S110x65536 (![] : Fin 0 → Fin S110x65536.rank)
  reducesTo_S110x65536_S_d0_1 : S110x65536.ReducesTo [0, 1] S_

variable [Facts]

def fn_part1 {F : FTy → Type} [FloatOps F] (main_v13 : IVec S_ 1) (main_v16 : IVec S110x65536 1) : IVec S_ 1 :=
  let main_c_5 : IVec S_ 1 := constantI S_ 1 1#1
  let main_v17 : IVec S_ 1 := (fun x v => Host.reduce IntOp.andi x v reducesTo_S110x65536_S_d0_1 h_S_) main_v16 main_c_5
  let main_v18 : IVec S_ 1 := andi main_v13 main_v17
  main_v18

def fn {F : FTy → Type} [FloatOps F] (main_arg0 : FVec F S8x8x256x256 .f32) (main_arg1 : FVec F S8x8x256x256 .f32) (main_arg2 : IVec S8x8x256x256 32) (main_arg3 : FVec F S65536x110 .f32) (main_arg4 : FVec F S110x65536 .f32) : IVec S_ 1 :=
  let main_v0 : FVec F S8x8x256x256 .f32 := Host.absf main_arg0
  let main_cst : FVec F S_ .f32 := constant S_ .f32 0x7F800000#32
  let main_v1 : FVec F S8x8x256x256 .f32 := broadcastInDim S8x8x256x256 ![] bcast_S_S8x8x256x256 main_cst
  let main_v2 : IVec S8x8x256x256 1 := cmpf .olt main_v0 main_v1
  let main_c : IVec S_ 1 := constantI S_ 1 1#1
  let main_v3 : IVec S_ 1 := (fun x v => Host.reduce IntOp.andi x v reducesTo_S8x8x256x256_S_d0_1_2_3 h_S_) main_v2 main_c
  let main_v4 : FVec F S8x8x256x256 .f32 := Host.absf main_arg1
  let main_cst_0 : FVec F S_ .f32 := constant S_ .f32 0x7F800000#32
  let main_v5 : FVec F S8x8x256x256 .f32 := broadcastInDim S8x8x256x256 ![] bcast_S_S8x8x256x256 main_cst_0
  let main_v6 : IVec S8x8x256x256 1 := cmpf .olt main_v4 main_v5
  let main_c_1 : IVec S_ 1 := constantI S_ 1 1#1
  let main_v7 : IVec S_ 1 := (fun x v => Host.reduce IntOp.andi x v reducesTo_S8x8x256x256_S_d0_1_2_3 h_S_) main_v6 main_c_1
  let main_v8 : IVec S_ 1 := andi main_v3 main_v7
  let main_v9 : FVec F S65536x110 .f32 := Host.absf main_arg3
  let main_cst_2 : FVec F S_ .f32 := constant S_ .f32 0x7F800000#32
  let main_v10 : FVec F S65536x110 .f32 := broadcastInDim S65536x110 ![] bcast_S_S65536x110 main_cst_2
  let main_v11 : IVec S65536x110 1 := cmpf .olt main_v9 main_v10
  let main_c_3 : IVec S_ 1 := constantI S_ 1 1#1
  let main_v12 : IVec S_ 1 := (fun x v => Host.reduce IntOp.andi x v reducesTo_S65536x110_S_d0_1 h_S_) main_v11 main_c_3
  let main_v13 : IVec S_ 1 := andi main_v8 main_v12
  let main_v14 : FVec F S110x65536 .f32 := Host.absf main_arg4
  let main_cst_4 : FVec F S_ .f32 := constant S_ .f32 0x7F800000#32
  let main_v15 : FVec F S110x65536 .f32 := broadcastInDim S110x65536 ![] bcast_S_S110x65536 main_cst_4
  let main_v16 : IVec S110x65536 1 := cmpf .olt main_v14 main_v15
  fn_part1 (F := F) main_v13 main_v16
-- ==== Kernel.lean ====
abbrev S8x8x256x256 : Shape := ⟨4, ![8, 8, 256, 256]⟩
abbrev S65536x110 : Shape := ⟨2, ![65536, 110]⟩
abbrev S110x65536 : Shape := ⟨2, ![110, 65536]⟩
abbrev S64x65536 : Shape := ⟨2, ![64, 65536]⟩
abbrev S64x110 : Shape := ⟨2, ![64, 110]⟩
abbrev S110x4096 : Shape := ⟨2, ![110, 4096]⟩
abbrev S64x4096 : Shape := ⟨2, ![64, 4096]⟩
abbrev S1x1 : Shape := ⟨2, ![1, 1]⟩
abbrev S4096x110 : Shape := ⟨2, ![4096, 110]⟩
abbrev S64 : Shape := ⟨1, ![64]⟩
abbrev S64x1 : Shape := ⟨2, ![64, 1]⟩
abbrev S1 : Shape := ⟨1, ![1]⟩
abbrev S_ : Shape := ⟨0, ![]⟩

abbrev nBuf : Space → Nat
  | .hbm => 14
  | .vmem => 20
  | .smem => 0
  | _ => 0

abbrev bufTy : (tb : Table) → Fin (tcTables nBuf tb) → BufTy
  | .hbm, ⟨0, _⟩ => ⟨S8x8x256x256, .f32⟩
  | .hbm, ⟨1, _⟩ => ⟨S8x8x256x256, .f32⟩
  | .hbm, ⟨2, _⟩ => ⟨S8x8x256x256, .i32⟩
  | .hbm, ⟨3, _⟩ => ⟨S65536x110, .f32⟩
  | .hbm, ⟨4, _⟩ => ⟨S110x65536, .f32⟩
  | .hbm, ⟨5, _⟩ => ⟨S64x65536, .f32⟩
  | .hbm, ⟨6, _⟩ => ⟨S64x65536, .f32⟩
  | .hbm, ⟨7, _⟩ => ⟨S64x65536, .i32⟩
  | .hbm, ⟨8, _⟩ => ⟨S64x110, .f32⟩
  | .hbm, ⟨9, _⟩ => ⟨S64x110, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S110x4096, .f32⟩
  | .local _ .vmem, ⟨1, _⟩ => ⟨S110x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .i32⟩
  | .local _ .vmem, ⟨7, _⟩ => ⟨S64x4096, .i32⟩
  | .local _ .vmem, ⟨8, _⟩ => ⟨S64x110, .f32⟩
  | .local _ .vmem, ⟨9, _⟩ => ⟨S64x110, .f32⟩
  | .local _ .vmem, ⟨10, _⟩ => ⟨S64x110, .f32⟩
  | .local _ .vmem, ⟨11, _⟩ => ⟨S64x110, .f32⟩
  | .local _ .vmem, ⟨12, _⟩ => ⟨S64x110, .f32⟩
  | .local _ .vmem, ⟨13, _⟩ => ⟨S64x110, .f32⟩
  | .local _ .vmem, ⟨14, _⟩ => ⟨S4096x110, .f32⟩
  | .local _ .vmem, ⟨15, _⟩ => ⟨S4096x110, .f32⟩
  | .local _ .vmem, ⟨16, _⟩ => ⟨S64x4096, .i32⟩
  | .local _ .vmem, ⟨17, _⟩ => ⟨S64x4096, .i32⟩
  | .local _ .vmem, ⟨18, _⟩ => ⟨S1x1, .f32⟩
  | .local _ .vmem, ⟨19, _⟩ => ⟨S1x1, .f32⟩
  | _, _ => ⟨S8x8x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc1_sem0_0 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v28 : BitVec 1 := Scalar.cmpi .eq arg0 c15_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S110x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x110 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x110 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v29 : BitVec 1 := Scalar.cmpi .eq arg0 c15_i32
  let v30 : BitVec 32 := Scalar.extui v29
  let c0_i32_15 : BitVec 32 := 0#32
  let v31 : BitVec 1 := Scalar.cmpi .ne v30 c0_i32_15
  v31

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x110 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S64x110 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x110 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S64x4096 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  shapeCasts_S8x8x256x256_S64x65536 : S8x8x256x256.ShapeCasts S64x65536
  inb_S64x110_S64x110_0_0 : ∀ a, (![0, 0] : Fin 2 → Nat) a + S64x110.size a ≤ S64x110.size a
  h_S64x110 : 0 < S64x110.numel
  shapeCasts_S64x110_S64x110 : S64x110.ShapeCasts S64x110
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  bitsLt_bf16_f32 : FTy.bits .bf16 < FTy.bits .f32
  inb_S110x4096_S110x4096_0_0 : ∀ a, (![0, 0] : Fin 2 → Nat) a + S110x4096.size a ≤ S110x4096.size a
  h_S110x4096 : 0 < S110x4096.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x110_S4096x110_0_0 : ∀ a, (![0, 0] : Fin 2 → Nat) a + S4096x110.size a ≤ S4096x110.size a
  h_S4096x110 : 0 < S4096x110.numel
  reduces_S64x4096_S64 : S64x4096.Reduces [1] S64
  shapeCasts_S64_S64x1 : S64.ShapeCasts S64x1
  reduces_S64x1_S1 : S64x1.Reduces [0] S1
  shapeCasts_S1_S1x1 : S1.ShapeCasts S1x1
  shapeCasts_S1x1_S_ : S1x1.ShapeCasts S_
  dot_S64x4096_S110x4096_S64x110_1_1_0_0_n_n_wf : DotDims.WF S64x4096 S110x4096 S64x110 [1] [1] [0] [0] [] []
  dot_S64x110_S4096x110_S64x4096_1_1_0_0_n_n_wf : DotDims.WF S64x110 S4096x110 S64x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S110x4096.size a ≤ S110x65536.size a
  hwx0_0 : ∀ i : grid0.Coords, EltTy.bits .f32 = 32 ∨ (Rect.block (s := S110x65536) S110x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S64x65536.size a
  hwx0_1 : ∀ i : grid0.Coords, EltTy.bits .f32 = 32 ∨ (Rect.block (s := S64x65536) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S64x65536.size a
  hwx0_2 : ∀ i : grid0.Coords, EltTy.bits .f32 = 32 ∨ (Rect.block (s := S64x65536) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S64x65536.size a
  hwx0_3 : ∀ i : grid0.Coords, EltTy.bits .i32 = 32 ∨ (Rect.block (s := S64x65536) S64x4096.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x110.size a ≤ S64x110.size a
  hwx0_4 : ∀ i : grid0.Coords, EltTy.bits .f32 = 32 ∨ (Rect.block (s := S64x110) S64x110.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x110.size a ≤ S64x110.size a
  hwx0_5 : ∀ i : grid0.Coords, EltTy.bits .f32 = 32 ∨ (Rect.block (s := S64x110) S64x110.size (cc0_transform_5 i) (hinb0_5 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x110.size a ≤ S64x110.size a
  hwx1_0 : ∀ i : grid1.Coords, EltTy.bits .f32 = 32 ∨ (Rect.block (s := S64x110) S64x110.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x110.size a ≤ S64x110.size a
  hwx1_1 : ∀ i : grid1.Coords, EltTy.bits .f32 = 32 ∨ (Rect.block (s := S64x110) S64x110.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x110.size a ≤ S65536x110.size a
  hwx1_2 : ∀ i : grid1.Coords, EltTy.bits .f32 = 32 ∨ (Rect.block (s := S65536x110) S4096x110.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S64x4096.size a ≤ S64x65536.size a
  hwx1_3 : ∀ i : grid1.Coords, EltTy.bits .i32 = 32 ∨ (Rect.block (s := S64x65536) S64x4096.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)

variable [Facts₀]

def dot_S64x4096_S110x4096_S64x110_1_1_0_0_n_n : DotDims S64x4096 S110x4096 S64x110 where
  lhsContracting := [1]
  rhsContracting := [1]
  lhsNonContracting := [0]
  rhsNonContracting := [0]
  lhsBatch := []
  rhsBatch := []
  wf := dot_S64x4096_S110x4096_S64x110_1_1_0_0_n_n_wf
def dot_S64x110_S4096x110_S64x4096_1_1_0_0_n_n : DotDims S64x110 S4096x110 S64x4096 where
  lhsContracting := [1]
  rhsContracting := [1]
  lhsNonContracting := [0]
  rhsNonContracting := [0]
  lhsBatch := []
  rhsBatch := []
  wf := dot_S64x110_S4096x110_S64x4096_1_1_0_0_n_n_wf

abbrev win0_0 : Pipeline.Window sig grid0 :=
  Pipeline.Window.ofSpec (Memref.whole main_arg4) S110x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S64x110.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S64x110.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v3_0) S64x110.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S64x110.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S4096x110.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S8x8x256x256 : Shape := ⟨4, ![8, 8, 256, 256]⟩
abbrev S65536x110 : Shape := ⟨2, ![65536, 110]⟩
abbrev S110x65536 : Shape := ⟨2, ![110, 65536]⟩
abbrev S8x8x65536 : Shape := ⟨3, ![8, 8, 65536]⟩
abbrev S8x8x110 : Shape := ⟨3, ![8, 8, 110]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8x8x256x256, .f32⟩
  | .hbm, ⟨1, _⟩ => ⟨S8x8x256x256, .f32⟩
  | .hbm, ⟨2, _⟩ => ⟨S8x8x256x256, .i32⟩
  | .hbm, ⟨3, _⟩ => ⟨S65536x110, .f32⟩
  | .hbm, ⟨4, _⟩ => ⟨S110x65536, .f32⟩
  | .hbm, ⟨5, _⟩ => ⟨S8x8x65536, .i32⟩
  | .hbm, ⟨6, _⟩ => ⟨S8x8x65536, .f32⟩
  | .hbm, ⟨7, _⟩ => ⟨S8x8x65536, .f32⟩
  | .hbm, ⟨8, _⟩ => ⟨S8x8x65536, .f32⟩
  | .hbm, ⟨9, _⟩ => ⟨S8x8x65536, .f32⟩
  | .hbm, ⟨10, _⟩ => ⟨S8x8x65536, .f32⟩
  | .hbm, ⟨11, _⟩ => ⟨S8x8x110, .f32⟩
  | .hbm, ⟨12, _⟩ => ⟨S8x8x110, .f32⟩
  | .hbm, ⟨13, _⟩ => ⟨S8x8x65536, .f32⟩
  | .hbm, ⟨14, _⟩ => ⟨S8x8x65536, .f32⟩
  | .hbm, ⟨15, _⟩ => ⟨S8x8x65536, .f32⟩
  | .hbm, ⟨16, _⟩ => ⟨S8x8x65536, .f32⟩
  | .hbm, ⟨17, _⟩ => ⟨S8x8x65536, .f32⟩
  | .hbm, ⟨18, _⟩ => ⟨S8x8x65536, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S8x8x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  shapeCasts_S8x8x256x256_S8x8x65536 : S8x8x256x256.ShapeCasts S8x8x65536
  reducesTo_S8x8x65536_S_d0_1_2 : S8x8x65536.ReducesTo [0, 1, 2] S_
  h_S_ : 0 < S_.numel
  dot_S8x8x65536_S110x65536_S8x8x110_2_1_01_0_n_n_wf : DotDims.WF S8x8x65536 S110x65536 S8x8x110 [2] [1] [0, 1] [0] [] []
  dot_S8x8x110_S65536x110_S8x8x65536_2_1_01_0_n_n_wf : DotDims.WF S8x8x110 S65536x110 S8x8x65536 [2] [1] [0, 1] [0] [] []

variable [Facts₀]

def dot_S8x8x65536_S110x65536_S8x8x110_2_1_01_0_n_n : DotDims S8x8x65536 S110x65536 S8x8x110 where
  lhsContracting := [2]
  rhsContracting := [1]
  lhsNonContracting := [0, 1]
  rhsNonContracting := [0]
  lhsBatch := []
  rhsBatch := []
  wf := dot_S8x8x65536_S110x65536_S8x8x110_2_1_01_0_n_n_wf
def dot_S8x8x110_S65536x110_S8x8x65536_2_1_01_0_n_n : DotDims S8x8x110 S65536x110 S8x8x65536 where
  lhsContracting := [2]
  rhsContracting := [1]
  lhsNonContracting := [0, 1]
  rhsNonContracting := [0]
  lhsBatch := []
  rhsBatch := []
  wf := dot_S8x8x110_S65536x110_S8x8x65536_2_1_01_0_n_n_wf

class Facts : Prop extends Facts₀ where

variable [Facts]
-- ==== Proof.K.Shared.lean ====
/- What the two kernels' runs share: each body's two branch conditions as facts about the grid point (the first
   branch is taken exactly at point 0, the second exactly at point 15), where an output window is idle and where it is
   written back, the staging and scratch memrefs by name, and the class invariant with the scratch buffers owned. -/
import proofs.«149681_j46213848105408_1_alg».proof.Proof.Gen.Kernel.Launch
import proofs.«149681_j46213848105408_1_alg».proof.Proof.Gen.Kernel.Skeleton
import proofs.«149681_j46213848105408_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Region 0 (the projection): conditions -/

/-- The reset branch of the projection body is taken: the grid coordinate is 0. -/
abbrev first0 (i : grid0.Coords) : Prop := (Scalar.cmpi .ne (Scalar.extui (Scalar.cmpi .eq (BitVec.ofNat 32 (i 0).val) 0#32)) 0#32) = 1#1
theorem first0_iff : ∀ t : Fin cfg0.N, first0 (grid0.coords t) ↔ t.val = 0 :=
  (by decide +kernel : ∀ t : Fin grid0.N, first0 (grid0.coords t) ↔ t.val = 0)
/-- The write-out branch is taken: the grid coordinate is 15. -/
abbrev last0 (i : grid0.Coords) : Prop := k0_cond2 i = 1#1
theorem last0_iff : ∀ t : Fin cfg0.N, last0 (grid0.coords t) ↔ t.val = 15 :=
  (by decide +kernel : ∀ t : Fin grid0.N, last0 (grid0.coords t) ↔ t.val = 15)

/-! ## Region 0: where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, ¬last0 (grid0.coords t) → cfg0.idle 4 (grid0.coords t) = true := by decide +kernel
theorem idle0_5 : ∀ t : Fin cfg0.N, ¬last0 (grid0.coords t) → cfg0.idle 5 (grid0.coords t) = true := by decide +kernel
theorem noFlush0_4 : ∀ t : Fin cfg0.N, ¬last0 (grid0.coords t) → (cfg0.win 4).flush t = false := by decide +kernel
theorem noFlush0_5 : ∀ t : Fin cfg0.N, ¬last0 (grid0.coords t) → (cfg0.win 5).flush t = false := by decide +kernel
theorem live0_4 : ∀ t : Fin cfg0.N, last0 (grid0.coords t) → cfg0.idle 4 (grid0.coords t) = false := by decide +kernel
theorem live0_5 : ∀ t : Fin cfg0.N, last0 (grid0.coords t) → cfg0.idle 5 (grid0.coords t) = false := by decide +kernel

/-! ## Region 0: the memrefs the body is called with -/

abbrev ms0_0 (t : Fin cfg0.N) : Memref sig .tc .vmem S110x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x4096 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x110 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x110 .f32 := win0_5.stage (cfg0.slots t 5)
abbrev hs0_5 (t : Fin cfg0.N) : (ms0_5 t).IsWhole := hstage0_5 ((cfg0.slots t 5).cast nbuf0_5)
/-- The two accumulators of the projection: whole scoped buffers of the kernel's own. -/
abbrev scM0_0 : Memref sig .tc .vmem S64x110 .f32 := Memref.whole cc0_scratch0
abbrev scM0_1 : Memref sig .tc .vmem S64x110 .f32 := Memref.whole cc0_scratch1
abbrev VS0_0 : View sig .tc .vmem S64x110 .f32 := scM0_0.view
abbrev VS0_1 : View sig .tc .vmem S64x110 .f32 := scM0_1.view
abbrev VO0_4 : View sig .tc .vmem S64x110 .f32 := (Memref.whole cc0_stg4_0 : Memref sig .tc .vmem S64x110 .f32).view
abbrev VO0_5 : View sig .tc .vmem S64x110 .f32 := (Memref.whole cc0_stg5_0 : Memref sig .tc .vmem S64x110 .f32).view

/-! ## Region 1 (the reconstruction): conditions, idle points, memrefs -/

abbrev first1 (i : grid1.Coords) : Prop := (Scalar.cmpi .ne (Scalar.extui (Scalar.cmpi .eq (BitVec.ofNat 32 (i 0).val) 0#32)) 0#32) = 1#1
theorem first1_iff : ∀ t : Fin cfg1.N, first1 (grid1.coords t) ↔ t.val = 0 :=
  (by decide +kernel : ∀ t : Fin grid1.N, first1 (grid1.coords t) ↔ t.val = 0)
abbrev last1 (i : grid1.Coords) : Prop := k1_cond2 i = 1#1
theorem last1_iff : ∀ t : Fin cfg1.N, last1 (grid1.coords t) ↔ t.val = 15 :=
  (by decide +kernel : ∀ t : Fin grid1.N, last1 (grid1.coords t) ↔ t.val = 15)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, ¬last1 (grid1.coords t) → cfg1.idle 4 (grid1.coords t) = true := by decide +kernel
theorem noFlush1_4 : ∀ t : Fin cfg1.N, ¬last1 (grid1.coords t) → (cfg1.win 4).flush t = false := by decide +kernel
theorem live1_4 : ∀ t : Fin cfg1.N, last1 (grid1.coords t) → cfg1.idle 4 (grid1.coords t) = false := by decide +kernel

abbrev ms1_0 (t : Fin cfg1.N) : Memref sig .tc .vmem S64x110 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x110 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x110 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x4096 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The running total of the reconstruction: a whole scoped buffer of the kernel's own. -/
abbrev scM1_0 : Memref sig .tc .vmem S1x1 .f32 := Memref.whole cc1_scratch0
abbrev VS1_0 : View sig .tc .vmem S1x1 .f32 := scM1_0.view
abbrev VO1_4 : View sig .tc .vmem S1x1 .f32 := (Memref.whole cc1_stg4_0 : Memref sig .tc .vmem S1x1 .f32).view

end Cert.Kernel.Fr

end
-- ==== Proof.K.Run0A.lean ====
/- The projection body at the grid's first point: both accumulators are reset to zero and then take the first
   tile's products; the two result windows are left untouched. What the accumulators end holding is recorded as the
   pieces the run leaves in them. -/
import proofs.«149681_j46213848105408_1_alg».proof.Proof.K.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point where the reset branch is taken and the write-out branch is not: the inputs' buffers are read and
    kept, the result buffers are handed back as they came, and each accumulator — whatever it held — ends with the
    listed pieces written. -/
noncomputable def kernelRun0_A (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : first0 i) (hc1 : ¬last0 i)
    (x0 : Vec F S110x4096 .f32) (x1 : Vec F S64x4096 .f32) (x2 : Vec F S64x4096 .f32) (x3 : Vec F S64x4096 .i32) :
    Σ' (LS0 : List (View.Piece (Elt F) S64x110 .f32)), { LS1 : List (View.Piece (Elt F) S64x110 .f32) //
      ∀ (xi4 xi5 : Vec F S64x110 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__project_kernel i arg1 harg1 arg2 harg2 arg3 harg3 arg4 harg4 arg5 harg5 arg6 harg6 arg7 harg7 arg8 harg8) K } := by
  refine ⟨?_, ?_, fun xi4 xi5 E K => ?run⟩
  case run =>
    simp only [cc0__project_kernel_eq_skeleton]; unfold cc0__project_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; iexact HS0
    iexists _; iexact HS1

end Cert.Kernel.Fr

end
-- ==== Proof.K.Run0B.lean ====
/- The projection body at a middle point (neither the first nor the last): each accumulator, holding what the point
   before left, takes this tile's products on top; the two result windows are left untouched. -/
import proofs.«149681_j46213848105408_1_alg».proof.Proof.K.Run0A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point where neither branch is taken: the inputs' buffers are read and kept, the result buffers are handed
    back as they came, and each accumulator, entered at `xs·`, ends with the listed pieces written. -/
noncomputable def kernelRun0_B (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : ¬last0 i)
    (x0 : Vec F S110x4096 .f32) (x1 : Vec F S64x4096 .f32) (x2 : Vec F S64x4096 .f32) (x3 : Vec F S64x4096 .i32)
    (xs0 xs1 : Vec F S64x110 .f32) :
    Σ' (LS0 : List (View.Piece (Elt F) S64x110 .f32)), { LS1 : List (View.Piece (Elt F) S64x110 .f32) //
      ∀ (xi4 xi5 : Vec F S64x110 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__project_kernel i arg1 harg1 arg2 harg2 arg3 harg3 arg4 harg4 arg5 harg5 arg6 harg6 arg7 harg7 arg8 harg8) K } := by
  refine ⟨?_, ?_, fun xi4 xi5 E K => ?run⟩
  case run =>
    simp only [cc0__project_kernel_eq_skeleton]; unfold cc0__project_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; iexact HS0
    iexists _; iexact HS1

end Cert.Kernel.Fr

end
-- ==== Proof.K.Run0C.lean ====
/- The projection body at the grid's last point: each accumulator takes the last tile's products and is then copied
   whole into its result window. -/
import proofs.«149681_j46213848105408_1_alg».proof.Proof.K.Run0B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point where the reset branch is not taken and the write-out branch is: the inputs' buffers are read and
    kept; each accumulator, entered at `xs·`, and each result buffer, whatever it held, end with the listed pieces
    written. -/
noncomputable def kernelRun0_C (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i)
    (x0 : Vec F S110x4096 .f32) (x1 : Vec F S64x4096 .f32) (x2 : Vec F S64x4096 .f32) (x3 : Vec F S64x4096 .i32)
    (xs0 xs1 : Vec F S64x110 .f32) :
    Σ' (L4 : List (View.Piece (Elt F) S64x110 .f32)) (L5 : List (View.Piece (Elt F) S64x110 .f32)) (LS0 : List (View.Piece (Elt F) S64x110 .f32)), { LS1 : List (View.Piece (Elt F) S64x110 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__project_kernel i arg1 harg1 arg2 harg2 arg3 harg3 arg4 harg4 arg5 harg5 arg6 harg6 arg7 harg7 arg8 harg8) K } := by
  refine ⟨?_, ?_, ?_, ?_, fun E K => ?run⟩
  case run =>
    simp only [cc0__project_kernel_eq_skeleton]; unfold cc0__project_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    isplitl [HS0]
    · iexists _; iexact HS0
    iexists _; iexact HS1

end Cert.Kernel.Fr

end
-- ==== Proof.K.Data0.lean ====
/- Region 0 (the projection) as a pipeline with two accumulators carried from point to point: what each accumulator
   holds after every grid point (by recursion on the point: the first point's run, then each later point's run over
   what the point before left), the invariant that carries them between points, what each window's buffer holds after
   the body, and the body's obligation at every point, by the three cases first / middle / last. All of it at any
   contents `V` the region may be entered from. -/
import proofs.«149681_j46213848105408_1_alg».proof.Proof.K.Run0C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the runs' pieces cover -/

theorem scover0_A_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : first0 i) (hc1 : ¬last0 i) (x0 : Vec F S110x4096 .f32) (x1 : Vec F S64x4096 .f32) (x2 : Vec F S64x4096 .f32) (x3 : Vec F S64x4096 .i32) (y : S64x110.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S64x110.size (by sl_kernel_rfl) y
theorem scover0_A_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : first0 i) (hc1 : ¬last0 i) (x0 : Vec F S110x4096 .f32) (x1 : Vec F S64x4096 .f32) (x2 : Vec F S64x4096 .f32) (x3 : Vec F S64x4096 .i32) (y : S64x110.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S64x110.size (by sl_kernel_rfl) y
theorem scover0_B_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : ¬last0 i) (x0 : Vec F S110x4096 .f32) (x1 : Vec F S64x4096 .f32) (x2 : Vec F S64x4096 .f32) (x3 : Vec F S64x4096 .i32) (xs0 xs1 : Vec F S64x110 .f32) (y : S64x110.Idx) :
    ∃ pc ∈ (kernelRun0_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).1 S64x110.size (by sl_kernel_rfl) y
theorem scover0_B_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : ¬last0 i) (x0 : Vec F S110x4096 .f32) (x1 : Vec F S64x4096 .f32) (x2 : Vec F S64x4096 .f32) (x3 : Vec F S64x4096 .i32) (xs0 xs1 : Vec F S64x110 .f32) (y : S64x110.Idx) :
    ∃ pc ∈ (kernelRun0_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.1 S64x110.size (by sl_kernel_rfl) y
theorem cover0_C_4 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) (y : S64x110.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S64x110.size (by sl_kernel_rfl) y
theorem cover0_C_5 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) (y : S64x110.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S64x110.size (by sl_kernel_rfl) y
theorem scover0_C_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) (y : S64x110.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S64x110.size (by sl_kernel_rfl) y
theorem scover0_C_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) (y : S64x110.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S64x110.size (by sl_kernel_rfl) y

/-! ## What each case leaves: the pieces read back -/

/-- The first accumulator after the first point. -/
def sout0_A_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : first0 i) (hc1 : ¬last0 i) (x0 : Vec F S110x4096 .f32) (x1 : Vec F S64x4096 .f32) (x2 : Vec F S64x4096 .f32) (x3 : Vec F S64x4096 .i32) : Vec F S64x110 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).1)
/-- The second accumulator after the first point. -/
def sout0_A_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : first0 i) (hc1 : ¬last0 i) (x0 : Vec F S110x4096 .f32) (x1 : Vec F S64x4096 .f32) (x2 : Vec F S64x4096 .f32) (x3 : Vec F S64x4096 .i32) : Vec F S64x110 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3).2.1)
/-- The first accumulator after a middle point. -/
def sout0_B_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : ¬last0 i) (x0 : Vec F S110x4096 .f32) (x1 : Vec F S64x4096 .f32) (x2 : Vec F S64x4096 .f32) (x3 : Vec F S64x4096 .i32) (xs0 xs1 : Vec F S64x110 .f32) : Vec F S64x110 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0 xs1).1)
/-- The second accumulator after a middle point. -/
def sout0_B_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : ¬last0 i) (x0 : Vec F S110x4096 .f32) (x1 : Vec F S64x4096 .f32) (x2 : Vec F S64x4096 .f32) (x3 : Vec F S64x4096 .i32) (xs0 xs1 : Vec F S64x110 .f32) : Vec F S64x110 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 xs0 xs1).2.1)
/-- The first result window's buffer after the last point. -/
def out0_C_4 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) : Vec F S64x110 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs0 xs1).1)
/-- The second result window's buffer after the last point. -/
def out0_C_5 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) : Vec F S64x110 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs0 xs1).2.1)
/-- The first accumulator after the last point. -/
def sout0_C_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) : Vec F S64x110 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0 xs1).2.2.1)
/-- The second accumulator after the last point. -/
def sout0_C_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) : Vec F S64x110 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 xs0 xs1).2.2.2.1)

/-- A result window's buffer at a point that stores nothing into it: a placeholder nothing consults (the window is
    neither written back there nor read at the next point). -/
def idle0_4v : Vec F S64x110 .f32 := VO0_4.read (Elt F) (VO0_4.writes (Elt F) VO0_4.junk [])
def idle0_5v : Vec F S64x110 .f32 := VO0_5.read (Elt F) (VO0_5.writes (Elt F) VO0_5.junk [])

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the buffers hold after each point -/

/-- After point `n`: the two result windows' buffers, then the two accumulators. Point 0 is the first-point run; a
    later point runs over what the point before left in the accumulators, and at point 15 also fills the result
    windows. -/
def outsAt0 (c : Dev nD) : (n : ℕ) → n < cfg0.N → Vec F S64x110 .f32 × Vec F S64x110 .f32 × Vec F S64x110 .f32 × Vec F S64x110 .f32
  | 0, hn => (idle0_4v, idle0_5v,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((first0_iff ⟨0, hn⟩).mpr rfl) (fun h => absurd (show (0 : ℕ) = 15 from (last0_iff ⟨0, hn⟩).mp h) (by decide)) (iblk0 V c 0 ⟨0, hn⟩) (iblk0 V c 1 ⟨0, hn⟩) (iblk0 V c 2 ⟨0, hn⟩) (iblk0 V c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((first0_iff ⟨0, hn⟩).mpr rfl) (fun h => absurd (show (0 : ℕ) = 15 from (last0_iff ⟨0, hn⟩).mp h) (by decide)) (iblk0 V c 0 ⟨0, hn⟩) (iblk0 V c 1 ⟨0, hn⟩) (iblk0 V c 2 ⟨0, hn⟩) (iblk0 V c 3 ⟨0, hn⟩))
  | n + 1, hn =>
    if h1 : n + 1 = 15 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
    else
      (idle0_4v, idle0_5v,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((first0_iff ⟨n + 1, hn⟩).mp h)) (fun h => h1 ((last0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((first0_iff ⟨n + 1, hn⟩).mp h)) (fun h => h1 ((last0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

/-- What the point before `t` left in the two accumulators. -/
abbrev prev0_0 (c : Dev nD) (t : Fin cfg0.N) : Vec F S64x110 .f32 := (outsAt0 V c (t.val - 1) (Nat.lt_of_le_of_lt (Nat.sub_le _ _) t.isLt)).2.2.1
abbrev prev0_1 (c : Dev nD) (t : Fin cfg0.N) : Vec F S64x110 .f32 := (outsAt0 V c (t.val - 1) (Nat.lt_of_le_of_lt (Nat.sub_le _ _) t.isLt)).2.2.2

theorem outsAt0_A (c : Dev nD) (t : Fin cfg0.N) (h0 : t.val = 0) (h1 : ¬t.val = 15) :
    outsAt0 V c t.val t.isLt = (idle0_4v, idle0_5v,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((first0_iff t).mpr h0) (fun h => h1 ((last0_iff t).mp h)) (iblk0 V c 0 t) (iblk0 V c 1 t) (iblk0 V c 2 t) (iblk0 V c 3 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((first0_iff t).mpr h0) (fun h => h1 ((last0_iff t).mp h)) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 15) :
    outsAt0 V c t.val t.isLt = (idle0_4v, idle0_5v,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) (fun h => h1 ((last0_iff t).mp h)) (iblk0 V c 0 t) (iblk0 V c 1 t) (iblk0 V c 2 t) (iblk0 V c 3 t) (prev0_0 V c t) (prev0_1 V c t),
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) (fun h => h1 ((last0_iff t).mp h)) (iblk0 V c 0 t) (iblk0 V c 1 t) (iblk0 V c 2 t) (iblk0 V c 3 t) (prev0_0 V c t) (prev0_1 V c t)) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 15) :
    outsAt0 V c t.val t.isLt =
     (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) ((last0_iff t).mpr h1) (iblk0 V c 0 t) (iblk0 V c 1 t) (iblk0 V c 2 t) (iblk0 V c 3 t) (prev0_0 V c t) (prev0_1 V c t),
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) ((last0_iff t).mpr h1) (iblk0 V c 0 t) (iblk0 V c 1 t) (iblk0 V c 2 t) (iblk0 V c 3 t) (prev0_0 V c t) (prev0_1 V c t),
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) ((last0_iff t).mpr h1) (iblk0 V c 0 t) (iblk0 V c 1 t) (iblk0 V c 2 t) (iblk0 V c 3 t) (prev0_0 V c t) (prev0_1 V c t),
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) ((last0_iff t).mpr h1) (iblk0 V c 0 t) (iblk0 V c 1 t) (iblk0 V c 2 t) (iblk0 V c 3 t) (prev0_0 V c t) (prev0_1 V c t)) := by
  obtain ⟨n, hn⟩ := t
  cases n with
  | zero => exact absurd rfl h0
  | succ n => exact (dif_pos h1).trans rfl

/-! ## The invariant between points -/

/-- The scoped buffers that are neither a staging buffer of this region nor one of its accumulators (the other
    region's staging buffers and running total), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- The class invariant with the two accumulators owned as memrefs at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-- Before point `n`: at the start the class invariant (the accumulators at anything); afterwards each accumulator at
    what point `n - 1` left in it, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 (F := F) c) ∗ (∃ r, prngReg c r)) := by
  cases n with
  | zero => exact absurd rfl hz
  | succ n => rfl

/-! ## The pipeline's proof data -/

/-- The proof data of the projection's pipeline on core `c`: the arrays as the region finds them; after the body at
    point `t` each input's buffer at its block and the result windows' at `outsAt0`; the invariant carrying the
    accumulators; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end

end Cert.Kernel.Fr

end
-- ==== Proof.K.Body0.lean ====
/- Region 0 (the projection): the body's obligation at every grid point. The point is the first (the accumulators come
   at anything and leave at the first tile's products), a middle one (they come at what the point before left), or the
   last (they are also copied into the result windows); the two result windows are idle except at the last point. -/
import proofs.«149681_j46213848105408_1_alg».proof.Proof.K.Data0

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`: the invariant, the core's dues, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- And what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point: the inputs' buffers hold their blocks; which case the point is in is decided by its
    position; the invariant hands the body the accumulators (at anything at the first point, at what the point before
    left afterwards) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  by_cases hz : t.val = 0
  · have hl : ¬t.val = 15 := by omega
    rw [Dat.leavesExact_idle (dat0 V c) 4 t (idle0_4 t (fun h => hl ((last0_iff t).mp h))) (noFlush0_4 t (fun h => hl ((last0_iff t).mp h))),
      Dat.leavesExact_idle (dat0 V c) 5 t (idle0_5 t (fun h => hl ((last0_iff t).mp h))) (noFlush0_5 t (fun h => hl ((last0_iff t).mp h)))]
    rw [outsAt0_A V c t hz hl]
    unfold sout0_A_0 sout0_A_1; (try dsimp only)
    rw [PhiS0_castSucc V c t, PhiS0_zero V c _ _ hz, PhiA0_eq]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((first0_iff t).mpr hz) (fun h => hl ((last0_iff t).mp h)) (iblk0 V c 0 t) (iblk0 V c 1 t) (iblk0 V c 2 t) (iblk0 V c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases hl : t.val = 15
    · rw [show (dat0 V c).leavesExact 4 t = owns (c : Thread nD τ) (ms0_4 t) fullShare ((dat0 V c).after 4 t) from by
        unfold Dat.leavesExact; rw [live0_4 t ((last0_iff t).mpr hl)], after0_4]
      rw [show (dat0 V c).leavesExact 5 t = owns (c : Thread nD τ) (ms0_5 t) fullShare ((dat0 V c).after 5 t) from by
        unfold Dat.leavesExact; rw [live0_5 t ((last0_iff t).mpr hl)], after0_5]
      rw [outsAt0_C V c t hz hl]
      unfold out0_C_4 out0_C_5 sout0_C_0 sout0_C_1; (try dsimp only)
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => hz ((first0_iff t).mp h)) ((last0_iff t).mpr hl) (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _ _)
    · rw [Dat.leavesExact_idle (dat0 V c) 4 t (idle0_4 t (fun h => hl ((last0_iff t).mp h))) (noFlush0_4 t (fun h => hl ((last0_iff t).mp h))),
        Dat.leavesExact_idle (dat0 V c) 5 t (idle0_5 t (fun h => hl ((last0_iff t).mp h))) (noFlush0_5 t (fun h => hl ((last0_iff t).mp h)))]
      rw [outsAt0_B V c t hz hl]
      unfold sout0_B_0 sout0_B_1; (try dsimp only)
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => hz ((first0_iff t).mp h)) (fun h => hl ((last0_iff t).mp h)) (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_first (c : Dev nD) : (dat0 V c).Φ 0 = Pipeline.ΦA spec0 c := rfl

/-- After the last point the invariant gives the class invariant back: what the accumulators hold is forgotten. -/
theorem Phi0_last (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end

end Cert.Kernel.Fr

end
-- ==== Proof.K.Run1A.lean ====
/- The reconstruction body at the grid's first point: the running total is reset to zero and then takes the first
   tile's sum of squared differences; the result window is left untouched. -/
import proofs.«149681_j46213848105408_1_alg».proof.Proof.K.Shared

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point where the reset branch is taken and the write-out branch is not: the inputs' buffers are read and
    kept, the result buffer is handed back as it came, and the running total — whatever it held — ends with the
    listed pieces written. -/
noncomputable def kernelRun1_A (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : first1 i) (hc1 : ¬last1 i)
    (x0 : Vec F S64x110 .f32) (x1 : Vec F S64x110 .f32) (x2 : Vec F S4096x110 .f32) (x3 : Vec F S64x4096 .i32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4
            ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4
                ∗ (∃ f, arg6.view.loc (c : Thread nD τ) ↦[arg6.view.set]{fullShare} arg6.view.writes (Elt F) f LS0)) -∗ K ⟨⟩))
          ⊢ wp frame (wpE (defs₀ (F := F)) Variants.none c none) E (cc1__reconstruct_kernel i arg1 harg1 arg2 harg2 arg3 harg3 arg4 harg4 arg5 harg5 arg6 harg6) K } := by
  refine ⟨?_, fun xi4 E K => ?run⟩
  case run =>
    simp only [cc1__reconstruct_kernel_eq_skeleton]; unfold cc1__reconstruct_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Fr

end
-- ==== Proof.K.Run1B.lean ====
/- The reconstruction body at a middle point: the running total, holding what the point before left, takes this
   tile's sum of squared differences on top; the result window is left untouched. -/
import proofs.«149681_j46213848105408_1_alg».proof.Proof.K.Run1A

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point where neither branch is taken: the inputs' buffers are read and kept, the result buffer is handed
    back as it came, and the running total, entered at `xs0`, ends with the listed pieces written. -/
noncomputable def kernelRun1_B (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : ¬last1 i)
    (x0 : Vec F S64x110 .f32) (x1 : Vec F S64x110 .f32) (x2 : Vec F S4096x110 .f32) (x3 : Vec F S64x4096 .i32) (xs0 : Vec F S1x1 .f32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4
            ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4
                ∗ (∃ f, arg6.view.loc (c : Thread nD τ) ↦[arg6.view.set]{fullShare} arg6.view.writes (Elt F) f LS0)) -∗ K ⟨⟩))
          ⊢ wp frame (wpE (defs₀ (F := F)) Variants.none c none) E (cc1__reconstruct_kernel i arg1 harg1 arg2 harg2 arg3 harg3 arg4 harg4 arg5 harg5 arg6 harg6) K } := by
  refine ⟨?_, fun xi4 E K => ?run⟩
  case run =>
    simp only [cc1__reconstruct_kernel_eq_skeleton]; unfold cc1__reconstruct_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.Kernel.Fr

end
-- ==== Proof.K.Run1C.lean ====
/- The reconstruction body at the grid's last point: the running total takes the last tile's sum and is then copied
   into the result window. -/
import proofs.«149681_j46213848105408_1_alg».proof.Proof.K.Run1B

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- At a point where the reset branch is not taken and the write-out branch is: the inputs' buffers are read and
    kept; the running total, entered at `xs0`, and the result buffer, whatever it held, end with the listed pieces
    written. -/
noncomputable def kernelRun1_C (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : last1 i)
    (x0 : Vec F S64x110 .f32) (x1 : Vec F S64x110 .f32) (x2 : Vec F S4096x110 .f32) (x3 : Vec F S64x4096 .i32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0)) -∗ K ⟨⟩))
          ⊢ wp frame (wpE (defs₀ (F := F)) Variants.none c none) E (cc1__reconstruct_kernel i arg1 harg1 arg2 harg2 arg3 harg3 arg4 harg4 arg5 harg5 arg6 harg6) K } := by
  refine ⟨?_, ?_, fun E K => ?run⟩
  case run =>
    simp only [cc1__reconstruct_kernel_eq_skeleton]; unfold cc1__reconstruct_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3
    obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact HS0

end Cert.Kernel.Fr

end
-- ==== Proof.K.Data1.lean ====
/- Region 1 (the reconstruction) as a pipeline with one running total carried from point to point: what the total
   holds after every grid point, the invariant that carries it, what each window's buffer holds after the body. All of
   it at any contents `V` the region may be entered from. -/
import proofs.«149681_j46213848105408_1_alg».proof.Proof.K.Run1C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What the runs' pieces cover, and the pieces read back -/

theorem scover1_A_0 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : first1 i) (hc1 : ¬last1 i) (x0 : Vec F S64x110 .f32) (x1 : Vec F S64x110 .f32) (x2 : Vec F S4096x110 .f32) (x3 : Vec F S64x4096 .i32) (y : S1x1.Idx) :
    ∃ pc ∈ (kernelRun1_A c i arg1 harg1 arg2 harg2 arg3 harg3 arg4 harg4 arg5 harg5 arg6 harg6 hc0 hc1 x0 x1 x2 x3).1, y ∈ pc.1.set :=
  View.cover_of_tiledL (kernelRun1_A c i arg1 harg1 arg2 harg2 arg3 harg3 arg4 harg4 arg5 harg5 arg6 harg6 hc0 hc1 x0 x1 x2 x3).1 S1x1.size (by sl_kernel_rfl) y
theorem scover1_B_0 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : ¬last1 i) (x0 : Vec F S64x110 .f32) (x1 : Vec F S64x110 .f32) (x2 : Vec F S4096x110 .f32) (x3 : Vec F S64x4096 .i32) (xs0 : Vec F S1x1 .f32) (y : S1x1.Idx) :
    ∃ pc ∈ (kernelRun1_B c i arg1 harg1 arg2 harg2 arg3 harg3 arg4 harg4 arg5 harg5 arg6 harg6 hc0 hc1 x0 x1 x2 x3 xs0).1, y ∈ pc.1.set :=
  View.cover_of_tiledL (kernelRun1_B c i arg1 harg1 arg2 harg2 arg3 harg3 arg4 harg4 arg5 harg5 arg6 harg6 hc0 hc1 x0 x1 x2 x3 xs0).1 S1x1.size (by sl_kernel_rfl) y
theorem cover1_C_4 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : last1 i) (x0 : Vec F S64x110 .f32) (x1 : Vec F S64x110 .f32) (x2 : Vec F S4096x110 .f32) (x3 : Vec F S64x4096 .i32) (xs0 : Vec F S1x1 .f32) (y : S1x1.Idx) :
    ∃ pc ∈ (kernelRun1_C c i arg1 harg1 arg2 harg2 arg3 harg3 arg4 harg4 arg5 harg5 arg6 harg6 hc0 hc1 x0 x1 x2 x3 xs0).1, y ∈ pc.1.set :=
  View.cover_of_tiledL (kernelRun1_C c i arg1 harg1 arg2 harg2 arg3 harg3 arg4 harg4 arg5 harg5 arg6 harg6 hc0 hc1 x0 x1 x2 x3 xs0).1 S1x1.size (by sl_kernel_rfl) y
theorem scover1_C_0 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : last1 i) (x0 : Vec F S64x110 .f32) (x1 : Vec F S64x110 .f32) (x2 : Vec F S4096x110 .f32) (x3 : Vec F S64x4096 .i32) (xs0 : Vec F S1x1 .f32) (y : S1x1.Idx) :
    ∃ pc ∈ (kernelRun1_C c i arg1 harg1 arg2 harg2 arg3 harg3 arg4 harg4 arg5 harg5 arg6 harg6 hc0 hc1 x0 x1 x2 x3 xs0).2.1, y ∈ pc.1.set :=
  View.cover_of_tiledL (kernelRun1_C c i arg1 harg1 arg2 harg2 arg3 harg3 arg4 harg4 arg5 harg5 arg6 harg6 hc0 hc1 x0 x1 x2 x3 xs0).2.1 S1x1.size (by sl_kernel_rfl) y

/-- The running total after the first point. -/
def sout1_A_0 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : first1 i) (hc1 : ¬last1 i) (x0 : Vec F S64x110 .f32) (x1 : Vec F S64x110 .f32) (x2 : Vec F S4096x110 .f32) (x3 : Vec F S64x4096 .i32) : Vec F S1x1 .f32 :=
  VS1_0.read (Elt F) (VS1_0.writes (Elt F) VS1_0.junk (kernelRun1_A c i arg1 harg1 arg2 harg2 arg3 harg3 arg4 harg4 arg5 harg5 arg6 harg6 hc0 hc1 x0 x1 x2 x3).1)
/-- The running total after a middle point. -/
def sout1_B_0 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : ¬last1 i) (x0 : Vec F S64x110 .f32) (x1 : Vec F S64x110 .f32) (x2 : Vec F S4096x110 .f32) (x3 : Vec F S64x4096 .i32) (xs0 : Vec F S1x1 .f32) : Vec F S1x1 .f32 :=
  VS1_0.read (Elt F) (VS1_0.writes (Elt F) VS1_0.junk (kernelRun1_B c i arg1 harg1 arg2 harg2 arg3 harg3 arg4 harg4 arg5 harg5 arg6 harg6 hc0 hc1 x0 x1 x2 x3 xs0).1)
/-- The result window's buffer after the last point. -/
def out1_C_4 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : last1 i) (x0 : Vec F S64x110 .f32) (x1 : Vec F S64x110 .f32) (x2 : Vec F S4096x110 .f32) (x3 : Vec F S64x4096 .i32) (xs0 : Vec F S1x1 .f32) : Vec F S1x1 .f32 :=
  VO1_4.read (Elt F) (VO1_4.writes (Elt F) VO1_4.junk (kernelRun1_C c i arg1 harg1 arg2 harg2 arg3 harg3 arg4 harg4 arg5 harg5 arg6 harg6 hc0 hc1 x0 x1 x2 x3 xs0).1)
/-- The running total after the last point. -/
def sout1_C_0 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : last1 i) (x0 : Vec F S64x110 .f32) (x1 : Vec F S64x110 .f32) (x2 : Vec F S4096x110 .f32) (x3 : Vec F S64x4096 .i32) (xs0 : Vec F S1x1 .f32) : Vec F S1x1 .f32 :=
  VS1_0.read (Elt F) (VS1_0.writes (Elt F) VS1_0.junk (kernelRun1_C c i arg1 harg1 arg2 harg2 arg3 harg3 arg4 harg4 arg5 harg5 arg6 harg6 hc0 hc1 x0 x1 x2 x3 xs0).2.1)

/-- The result window's buffer at a point that stores nothing into it: a placeholder nothing consults. -/
def idle1_4v : Vec F S1x1 .f32 := VO1_4.read (Elt F) (VO1_4.writes (Elt F) VO1_4.junk [])

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- After point `n`: the result window's buffer, then the running total. -/
def outsAt1 (c : Dev nD) : (n : ℕ) → n < cfg1.N → Vec F S1x1 .f32 × Vec F S1x1 .f32
  | 0, hn => (idle1_4v, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((first1_iff ⟨0, hn⟩).mpr rfl) (fun h => absurd (show (0 : ℕ) = 15 from (last1_iff ⟨0, hn⟩).mp h) (by decide)) (iblk1 V c 0 ⟨0, hn⟩) (iblk1 V c 1 ⟨0, hn⟩) (iblk1 V c 2 ⟨0, hn⟩) (iblk1 V c 3 ⟨0, hn⟩))
  | n + 1, hn =>
    if h1 : n + 1 = 15 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => Nat.succ_ne_zero n ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => Nat.succ_ne_zero n ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
    else
      (idle1_4v, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => Nat.succ_ne_zero n ((first1_iff ⟨n + 1, hn⟩).mp h)) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- What the point before `t` left in the running total. -/
abbrev prev1_0 (c : Dev nD) (t : Fin cfg1.N) : Vec F S1x1 .f32 := (outsAt1 V c (t.val - 1) (Nat.lt_of_le_of_lt (Nat.sub_le _ _) t.isLt)).2

theorem outsAt1_A (c : Dev nD) (t : Fin cfg1.N) (h0 : t.val = 0) (h1 : ¬t.val = 15) :
    outsAt1 V c t.val t.isLt = (idle1_4v,
      sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((first1_iff t).mpr h0) (fun h => h1 ((last1_iff t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 15) :
    outsAt1 V c t.val t.isLt = (idle1_4v,
      sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((first1_iff t).mp h)) (fun h => h1 ((last1_iff t).mp h)) (iblk1 V c 0 t) (iblk1 V c 1 t) (iblk1 V c 2 t) (iblk1 V c 3 t) (prev1_0 V c t)) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 15) :
    outsAt1 V c t.val t.isLt =
     (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((first1_iff t).mp h)) ((last1_iff t).mpr h1) (iblk1 V c 0 t) (iblk1 V c 1 t) (iblk1 V c 2 t) (iblk1 V c 3 t) (prev1_0 V c t),
      sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((first1_iff t).mp h)) ((last1_iff t).mpr h1) (iblk1 V c 0 t) (iblk1 V c 1 t) (iblk1 V c 2 t) (iblk1 V c 3 t) (prev1_0 V c t)) := by
  obtain ⟨n, hn⟩ := t
  cases n with
  | zero => exact absurd rfl h0
  | succ n => exact (dif_pos h1).trans rfl

/-! ## The invariant between points -/

/-- The scoped buffers that are neither a staging buffer of this region nor its running total (the other region's
    staging buffers and accumulators), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant with the running total owned as a memref at some contents. -/
theorem PhiA1_eq (c : Dev nD) :
    (Pipeline.ΦA spec1 c : sProp 𝕄)
      = iprop(iprop(rest1 (F := F) c ∗ (∃ d, owns (c : Thread nD τ) scM1_0 fullShare d)) ∗ (∃ r, prngReg c r)) := by
  unfold Pipeline.ΦA rest1; rw [scopedRest1_eq]; simp only [scM1_0, owns_whole]
  refine equiv_iff.mp ⟨?_, ?_⟩
  · show (_ : sProp 𝕄) ⊢ (_ : sProp 𝕄)
    iintro ⟨⟨R1, R2, R3, R4, R5, R6, R7, R8, R9, R10, R11, R12, HS⟩, Hg⟩
    isplitl [R1 R2 R3 R4 R5 R6 R7 R8 R9 R10 R11 R12 HS]
    · isplitl [R1 R2 R3 R4 R5 R6 R7 R8 R9 R10 R11 R12]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        iexact R12
      iexact HS
    iexact Hg
  · show (_ : sProp 𝕄) ⊢ (_ : sProp 𝕄)
    iintro ⟨⟨⟨R1, R2, R3, R4, R5, R6, R7, R8, R9, R10, R11, R12⟩, HS⟩, Hg⟩
    isplitl [R1 R2 R3 R4 R5 R6 R7 R8 R9 R10 R11 R12 HS]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      iexact HS
    iexact Hg

/-- Before point `n`: at the start the class invariant; afterwards the running total at what point `n - 1` left. -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end

end Cert.Kernel.Fr

end
-- ==== Proof.K.Body1.lean ====
/- Region 1 (the reconstruction): the body's obligation at every grid point. The point is the first (the running total
   comes at anything and leaves at the first tile's sum), a middle one (it comes at what the point before left), or the
   last (it is also copied into the result window); the result window is idle except at the last point. -/
import proofs.«149681_j46213848105408_1_alg».proof.Proof.K.Data1

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`: the invariant, the core's dues, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- And what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' buffers hold their blocks; which case the point is in is decided by its
    position; the invariant hands the body the running total (at anything at the first point, at what the point
    before left afterwards) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  by_cases hz : t.val = 0
  · have hl : ¬t.val = 15 := by omega
    rw [Dat.leavesExact_idle (dat1 V c) 4 t (idle1_4 t (fun h => hl ((last1_iff t).mp h))) (noFlush1_4 t (fun h => hl ((last1_iff t).mp h)))]
    rw [outsAt1_A V c t hz hl]
    unfold sout1_A_0; (try dsimp only)
    rw [PhiS1_castSucc V c t, PhiS1_zero V c _ _ hz, PhiA1_eq]
    iintro ⟨⟨⟨Hrest, HS0⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((first1_iff t).mpr hz) (fun h => hl ((last1_iff t).mp h)) (iblk1 V c 0 t) (iblk1 V c 1 t) (iblk1 V c 2 t) (iblk1 V c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hrest Hg]
    · isplitl [HS0 Hrest]
      · isplitl [Hrest]; · iexact Hrest
        unfold owns; iexists _; isplitr
        swap; · iexact HS0
        ipureintro; exact View.read_writes_of_cover _ _ _ _ _ (scover1_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases hl : t.val = 15
    · rw [show (dat1 V c).leavesExact 4 t = owns (c : Thread nD τ) (ms1_4 t) fullShare ((dat1 V c).after 4 t) from by
        unfold Dat.leavesExact; rw [live1_4 t ((last1_iff t).mpr hl)], after1_4]
      rw [outsAt1_C V c t hz hl]
      unfold out1_C_4 sout1_C_0; (try dsimp only)
      rw [PhiS1_castSucc V c t, PhiS1_pos V c _ _ hz]
      iintro ⟨⟨⟨Hrest, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => hz ((first1_iff t).mp h)) ((last1_iff t).mpr hl) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [Hrest]; · iexact Hrest
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idle1_4 t (fun h => hl ((last1_iff t).mp h))) (noFlush1_4 t (fun h => hl ((last1_iff t).mp h)))]
      rw [outsAt1_B V c t hz hl]
      unfold sout1_B_0; (try dsimp only)
      rw [PhiS1_castSucc V c t, PhiS1_pos V c _ _ hz]
      iintro ⟨⟨⟨Hrest, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => hz ((first1_iff t).mp h)) (fun h => hl ((last1_iff t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [Hrest]; · iexact Hrest
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_first (c : Dev nD) : (dat1 V c).Φ 0 = Pipeline.ΦA spec1 c := rfl

/-- After the last point the invariant gives the class invariant back: what the running total holds is forgotten. -/
theorem Phi1_last (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨Hrest, HS0⟩, Hg⟩
  isplitl [HS0 Hrest]
  · isplitl [Hrest]; · iexact Hrest
    iexists _; iexact HS0
  iexact Hg

end

end Cert.Kernel.Fr

end
-- ==== Proof.K.Launch.lean ====
/- The launch. @main is four stretches in order: three reshapes of the arguments, the projection region, the
   reconstruction region (entered straight from the projection's exit), and the closing host operations that read the
   one-cell result as a scalar and divide it by a constant. The unscoped buffers' contents at each boundary are a fold
   from the launch memory; each region is entered with its arrays split out of the unscoped buffers and left with them
   put back at what its write-backs leave; at the end every unscoped buffer is read against the final state. -/
import proofs.«149681_j46213848105408_1_alg».proof.Proof.K.Body0
import proofs.«149681_j46213848105408_1_alg».proof.Proof.K.Body1
import proofs.«149681_j46213848105408_1_alg».proof.Proof.Gen.Kernel.Regions
import Idealize.ShloMosaic.Lib.Pipeline.RegionsLoop
import Idealize.ShloMosaic.Lib.Pipeline.FrameSuffix

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the unscoped buffers hold between the four stretches of @main -/

/-- Core `c`'s buffers at launch. -/
abbrev W0 : Dev nD → Valuation τ sig (Elt F) := fun c b => m (c, b)
/-- After the three reshapes: what the projection region is entered from. -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- After the projection region: its six arrays at what the write-backs leave (the four inputs as entered, the two
    results written at the last point), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references: what the reconstruction region is entered from (no host
    operation stands between the two regions). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reconstruction region: its five arrays at what the write-backs leave (the one-cell result written at the
    last point), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing host operations (the reshape to a scalar, the constant, the division): what @main returns from. -/
abbrev W4 : Dev nD → Valuation τ sig (Elt F) := fun c => StableHlo.after hostOps2 (W3 m c)

/-! ## Single buffers read back through the fold -/

/-- The three reshaped operands hold the arguments' contents under the row-major reading of the flat shape. -/
theorem V1_main_v0 (c : Dev nD) : V1 m c main_v0 = shapeCast S64x65536 (m ((c : Thread nD τ).loc main_arg0)) shapeCasts_S8x8x256x256_S64x65536 := by
  show StableHlo.after hostOps0 (fun b => m (c, b)) (Proc.devRef .tc main_v0) = _
  after_results; rfl
theorem V1_main_v1 (c : Dev nD) : V1 m c main_v1 = shapeCast S64x65536 (m ((c : Thread nD τ).loc main_arg1)) shapeCasts_S8x8x256x256_S64x65536 := by
  show StableHlo.after hostOps0 (fun b => m (c, b)) (Proc.devRef .tc main_v1) = _
  after_results; rfl
theorem V1_main_v2 (c : Dev nD) : V1 m c main_v2 = shapeCast S64x65536 (m ((c : Thread nD τ).loc main_arg2)) shapeCasts_S8x8x256x256_S64x65536 := by
  show StableHlo.after hostOps0 (fun b => m (c, b)) (Proc.devRef .tc main_v2) = _
  after_results; rfl
/-- No reshape writes the table the projection reads. -/
theorem V1_main_arg4 (c : Dev nD) : V1 m c main_arg4 = m ((c : Thread nD τ).loc main_arg4) :=
  StableHlo.after_of_writes_sub hostOps0 _ hostOps0_writes (by decide)

/-- The reconstruction region finds the projection's two results at what its write-backs left, -/
theorem V2_main_v3_0 (c : Dev nD) : V2 m c main_v3_0 = (dat0 (V1 m) c).arrAt 4 cfg0.N := W2_arr m c 4
theorem V2_main_v3_1 (c : Dev nD) : V2 m c main_v3_1 = (dat0 (V1 m) c).arrAt 5 cfg0.N := W2_arr m c 5
/-- the reshaped integer operand as the projection found it (an input window's array is never written), -/
theorem V2_main_v2 (c : Dev nD) : V2 m c main_v2 = V1 m c main_v2 :=
  (W2_arr m c 3).trans (((dat0 (V1 m) c).arrAt_in 3 rfl _).trans (A_eq0 (V1 m) c 3))
/-- and the second table as launched (no array of the projection, no reshape's result). -/
theorem V2_main_arg3 (c : Dev nD) : V2 m c main_arg3 = m ((c : Thread nD τ).loc main_arg3) :=
  (W2_of_ne m c main_arg3 (by decide)).trans (StableHlo.after_of_writes_sub hostOps0 _ hostOps0_writes (by decide))

/-! ### The arguments end as launched: no host operation writes one, and a region either reads it through an input
    window or does not touch it -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := (W3_arr m c 2).trans (((dat1 (V2 m) c).arrAt_in 2 rfl _).trans (A_eq1 (V2 m) c 2))
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := (W2_arr m c 0).trans (((dat0 (V1 m) c).arrAt_in 0 rfl _).trans (A_eq0 (V1 m) c 0))
    _ = W0 m c (Proc.devRef .tc main_arg4) := StableHlo.after_of_writes_sub hostOps0 _ hostOps0_writes (by decide)
    _ = m ((c : Thread nD τ).loc main_arg4) := rfl

/-- The returned scalar: the reconstruction's one-cell result read as a scalar, divided by the constant. -/
theorem W4_main_v6 (c : Dev nD) : W4 m c (Proc.devRef .tc main_v6)
    = Host.divf (shapeCast S_ ((dat1 (V2 m) c).arrAt 4 cfg1.N) shapeCasts_S1x1_S_) (constant S_ .f32 0x4A800000#32) := by
  have e : W4 m c (Proc.devRef .tc main_v6)
      = Host.divf (shapeCast S_ (W3 m c (Proc.devRef .tc main_v4)) shapeCasts_S1x1_S_) (constant S_ .f32 0x4A800000#32) := by
    show StableHlo.after hostOps2 (W3 m c) (Proc.devRef .tc main_v6) = _
    after_results; rfl
  rw [e, show W3 m c (Proc.devRef .tc main_v4) = (dat1 (V2 m) c).arrAt 4 cfg1.N from W3_arr m c 4]

/-! ## The proof data family and the thread state -/

/-- Both pipelines' proof data, each at the contents its region is entered from: a literal `match`, so that the data
    at a numeral reduce to the printed configuration's. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state and its dues, at
    nothing. -/
abbrev R (c : Dev nD) : sProp 𝕄 := iprop((∃ r, prngReg c r) ∗ ∃ W, owes (c : Thread nD τ) (0 : CellTallies nD τ sig Unit) W)
/-- A stretch of host operations over the unscoped references from the contents `W`, `R` riding along: it leaves them
    at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some
    state. -/
abbrev Tₙ (c : Dev nD) : sProp 𝕄 := iprop(StableHlo.held (c : Thread nD τ) (Pipeline.ucRefs τ sig) (W4 m c) ∗ ∃ r, prngReg c r)

/-! ## The regions as segments -/

-- a library lemma stated over a pinned configuration unifies with the printed one only when unification may unfold
-- plain definitions in a metavariable's type
set_option backward.isDefEq.respectTransparency.types false in
/-- REGION 0 over the thread state: entered from every unscoped buffer at `W1`, left at `W2`. Its arrays are split
    out of the unscoped buffers and put back at the exit contents; the generator register goes into the invariant and
    comes back; what the accumulators hold at the end is forgotten (the invariant after the last point gives the class
    invariant back); nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (V1 m) c]; unfold Pipeline.ΦA
    iintro ⟨Hp, -, Hr⟩
    isplitl [Hr]; · iexact Hr
    iexact Hp
  hout c := by
    rw [Pipeline.ownSems0_none]
    have hlast : (pdats m 0 c).Φ (Fin.last _) ⊢ (Pipeline.ΦA spec0 c : sProp 𝕄) := Phi0_last (V1 m) c
    refine hlast.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- REGION 1 over the thread state: entered from every unscoped buffer at `W2`, left at `W3`. Its arrays are split
    out of the unscoped buffers and put back at the exit contents; the generator register goes into the invariant and
    comes back; what the accumulators hold at the end is forgotten (the invariant after the last point gives the class
    invariant back); nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (V2 m) c]; unfold Pipeline.ΦA
    iintro ⟨Hp, -, Hr⟩
    isplitl [Hr]; · iexact Hr
    iexact Hp
  hout c := by
    rw [Pipeline.ownSems0_none]
    have hlast : (pdats m 1 c).Φ (Fin.last _) ⊢ (Pipeline.ΦA spec1 c : sProp 𝕄) := Phi1_last (V2 m) c
    refine hlast.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: the reshapes, the projection, the reconstruction, the closing host operations. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main on the TensorCores terminates, and
    in every final state each unscoped buffer holds what the fold through the four segments says (`W4`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ (∃ r, prngReg c r)
        ∗ ∃ W, owes (c : Thread nD τ) (0 : CellTallies nD τ sig Unit) W) ⊢ (_ : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Fr

end
-- ==== Proof.KI.Shared.lean ====
/- What the two kernels' runs share: each body's two branch conditions as facts about the grid point (the first
   branch is taken exactly at point 0, the second exactly at point 15), where an output window is idle and where it is
   written back, the staging and scratch memrefs by name, and the class invariant with the scratch buffers owned. -/
import proofs.«149681_j46213848105408_1_alg».proof.Proof.Gen.KernelIdeal.Launch
import proofs.«149681_j46213848105408_1_alg».proof.Proof.Gen.KernelIdeal.Skeleton
import proofs.«149681_j46213848105408_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Region 0 (the projection): conditions -/

/-- The reset branch of the projection body is taken: the grid coordinate is 0. -/
abbrev first0 (i : grid0.Coords) : Prop := (Scalar.cmpi .ne (Scalar.extui (Scalar.cmpi .eq (BitVec.ofNat 32 (i 0).val) 0#32)) 0#32) = 1#1
theorem first0_iff : ∀ t : Fin cfg0.N, first0 (grid0.coords t) ↔ t.val = 0 :=
  (by decide +kernel : ∀ t : Fin grid0.N, first0 (grid0.coords t) ↔ t.val = 0)
/-- The write-out branch is taken: the grid coordinate is 15. -/
abbrev last0 (i : grid0.Coords) : Prop := k0_cond2 i = 1#1
theorem last0_iff : ∀ t : Fin cfg0.N, last0 (grid0.coords t) ↔ t.val = 15 :=
  (by decide +kernel : ∀ t : Fin grid0.N, last0 (grid0.coords t) ↔ t.val = 15)

/-! ## Region 0: where the windows are idle -/

theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel
theorem live0_3 : ∀ t : Fin cfg0.N, cfg0.idle 3 (grid0.coords t) = false := by decide +kernel
theorem idle0_4 : ∀ t : Fin cfg0.N, ¬last0 (grid0.coords t) → cfg0.idle 4 (grid0.coords t) = true := by decide +kernel
theorem idle0_5 : ∀ t : Fin cfg0.N, ¬last0 (grid0.coords t) → cfg0.idle 5 (grid0.coords t) = true := by decide +kernel
theorem noFlush0_4 : ∀ t : Fin cfg0.N, ¬last0 (grid0.coords t) → (cfg0.win 4).flush t = false := by decide +kernel
theorem noFlush0_5 : ∀ t : Fin cfg0.N, ¬last0 (grid0.coords t) → (cfg0.win 5).flush t = false := by decide +kernel
theorem live0_4 : ∀ t : Fin cfg0.N, last0 (grid0.coords t) → cfg0.idle 4 (grid0.coords t) = false := by decide +kernel
theorem live0_5 : ∀ t : Fin cfg0.N, last0 (grid0.coords t) → cfg0.idle 5 (grid0.coords t) = false := by decide +kernel

/-! ## Region 0: the memrefs the body is called with -/

abbrev ms0_0 (t : Fin cfg0.N) : Memref sig .tc .vmem S110x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S64x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S64x4096 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S64x110 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x110 .f32 := win0_5.stage (cfg0.slots t 5)
abbrev hs0_5 (t : Fin cfg0.N) : (ms0_5 t).IsWhole := hstage0_5 ((cfg0.slots t 5).cast nbuf0_5)
/-- The two accumulators of the projection: whole scoped buffers of the kernel's own. -/
abbrev scM0_0 : Memref sig .tc .vmem S64x110 .f32 := Memref.whole cc0_scratch0
abbrev scM0_1 : Memref sig .tc .vmem S64x110 .f32 := Memref.whole cc0_scratch1
abbrev VS0_0 : View sig .tc .vmem S64x110 .f32 := scM0_0.view
abbrev VS0_1 : View sig .tc .vmem S64x110 .f32 := scM0_1.view
abbrev VO0_4 : View sig .tc .vmem S64x110 .f32 := (Memref.whole cc0_stg4_0 : Memref sig .tc .vmem S64x110 .f32).view
abbrev VO0_5 : View sig .tc .vmem S64x110 .f32 := (Memref.whole cc0_stg5_0 : Memref sig .tc .vmem S64x110 .f32).view

/-! ## Region 1 (the reconstruction): conditions, idle points, memrefs -/

abbrev first1 (i : grid1.Coords) : Prop := (Scalar.cmpi .ne (Scalar.extui (Scalar.cmpi .eq (BitVec.ofNat 32 (i 0).val) 0#32)) 0#32) = 1#1
theorem first1_iff : ∀ t : Fin cfg1.N, first1 (grid1.coords t) ↔ t.val = 0 :=
  (by decide +kernel : ∀ t : Fin grid1.N, first1 (grid1.coords t) ↔ t.val = 0)
abbrev last1 (i : grid1.Coords) : Prop := k1_cond2 i = 1#1
theorem last1_iff : ∀ t : Fin cfg1.N, last1 (grid1.coords t) ↔ t.val = 15 :=
  (by decide +kernel : ∀ t : Fin grid1.N, last1 (grid1.coords t) ↔ t.val = 15)

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem idle1_4 : ∀ t : Fin cfg1.N, ¬last1 (grid1.coords t) → cfg1.idle 4 (grid1.coords t) = true := by decide +kernel
theorem noFlush1_4 : ∀ t : Fin cfg1.N, ¬last1 (grid1.coords t) → (cfg1.win 4).flush t = false := by decide +kernel
theorem live1_4 : ∀ t : Fin cfg1.N, last1 (grid1.coords t) → cfg1.idle 4 (grid1.coords t) = false := by decide +kernel

abbrev ms1_0 (t : Fin cfg1.N) : Memref sig .tc .vmem S64x110 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S64x110 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4096x110 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S64x4096 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
/-- The running total of the reconstruction: a whole scoped buffer of the kernel's own. -/
abbrev scM1_0 : Memref sig .tc .vmem S1x1 .f32 := Memref.whole cc1_scratch0
abbrev VS1_0 : View sig .tc .vmem S1x1 .f32 := scM1_0.view
abbrev VO1_4 : View sig .tc .vmem S1x1 .f32 := (Memref.whole cc1_stg4_0 : Memref sig .tc .vmem S1x1 .f32).view

end Cert.KernelIdeal.Fr

end
-- ==== Proof.KI.Run0A.lean ====
/- The projection body at the grid's first point: both accumulators are reset to zero and then take the first
   tile's products; the two result windows are left untouched. What the accumulators end holding is recorded as the
   pieces the run leaves in them. -/
import proofs.«149681_j46213848105408_1_alg».proof.Proof.KI.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point where the reset branch is taken and the write-out branch is not: the inputs' buffers are read and
    kept, the result buffers are handed back as they came, and each accumulator — whatever it held — ends with the
    listed pieces written. -/
noncomputable def kernelRun0_A (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : first0 i) (hc1 : ¬last0 i)
    (x0 : Vec F S110x4096 .f32) (x1 : Vec F S64x4096 .f32) (x2 : Vec F S64x4096 .f32) (x3 : Vec F S64x4096 .i32) :
    Σ' (LS0 : List (View.Piece (Elt F) S64x110 .f32)), { LS1 : List (View.Piece (Elt F) S64x110 .f32) //
      ∀ (xi4 xi5 : Vec F S64x110 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__project_kernel i arg1 harg1 arg2 harg2 arg3 harg3 arg4 harg4 arg5 harg5 arg6 harg6 arg7 harg7 arg8 harg8) K } := by
  refine ⟨?_, ?_, fun xi4 xi5 E K => ?run⟩
  case run =>
    simp only [cc0__project_kernel_eq_skeleton]; unfold cc0__project_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; iexact HS0
    iexists _; iexact HS1

end Cert.KernelIdeal.Fr

end
-- ==== Proof.KI.Run0B.lean ====
/- The projection body at a middle point (neither the first nor the last): each accumulator, holding what the point
   before left, takes this tile's products on top; the two result windows are left untouched. -/
import proofs.«149681_j46213848105408_1_alg».proof.Proof.KI.Run0A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point where neither branch is taken: the inputs' buffers are read and kept, the result buffers are handed
    back as they came, and each accumulator, entered at `xs·`, ends with the listed pieces written. -/
noncomputable def kernelRun0_B (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : ¬last0 i)
    (x0 : Vec F S110x4096 .f32) (x1 : Vec F S64x4096 .f32) (x2 : Vec F S64x4096 .f32) (x3 : Vec F S64x4096 .i32)
    (xs0 xs1 : Vec F S64x110 .f32) :
    Σ' (LS0 : List (View.Piece (Elt F) S64x110 .f32)), { LS1 : List (View.Piece (Elt F) S64x110 .f32) //
      ∀ (xi4 xi5 : Vec F S64x110 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4 ∗ owns (c : Thread nD τ) arg6 fullShare xi5
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4 ∗ owns (c : Thread nD τ) arg6 fullShare xi5
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__project_kernel i arg1 harg1 arg2 harg2 arg3 harg3 arg4 harg4 arg5 harg5 arg6 harg6 arg7 harg7 arg8 harg8) K } := by
  refine ⟨?_, ?_, fun xi4 xi5 E K => ?run⟩
  case run =>
    simp only [cc0__project_kernel_eq_skeleton]; unfold cc0__project_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hf5
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [HS0]
    · iexists _; iexact HS0
    iexists _; iexact HS1

end Cert.KernelIdeal.Fr

end
-- ==== Proof.KI.Run0C.lean ====
/- The projection body at the grid's last point: each accumulator takes the last tile's products and is then copied
   whole into its result window. -/
import proofs.«149681_j46213848105408_1_alg».proof.Proof.KI.Run0B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point where the reset branch is not taken and the write-out branch is: the inputs' buffers are read and
    kept; each accumulator, entered at `xs·`, and each result buffer, whatever it held, end with the listed pieces
    written. -/
noncomputable def kernelRun0_C (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i)
    (x0 : Vec F S110x4096 .f32) (x1 : Vec F S64x4096 .f32) (x2 : Vec F S64x4096 .f32) (x3 : Vec F S64x4096 .i32)
    (xs0 xs1 : Vec F S64x110 .f32) :
    Σ' (L4 : List (View.Piece (Elt F) S64x110 .f32)) (L5 : List (View.Piece (Elt F) S64x110 .f32)) (LS0 : List (View.Piece (Elt F) S64x110 .f32)), { LS1 : List (View.Piece (Elt F) S64x110 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d)
            ∗ owns (c : Thread nD τ) arg7 fullShare xs0 ∗ owns (c : Thread nD τ) arg8 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f LS0)
                ∗ (∃ f, arg8.view.loc (c : Thread nD τ) ↦[arg8.view.set]{fullShare} arg8.view.writes (Elt F) f LS1)) -∗ K ⟨⟩))
          ⊢ wp frame (wpE (defs₀ (F := F)) Variants.none c none) E (cc0__project_kernel i arg1 harg1 arg2 harg2 arg3 harg3 arg4 harg4 arg5 harg5 arg6 harg6 arg7 harg7 arg8 harg8) K } := by
  refine ⟨?_, ?_, ?_, ?_, fun E K => ?run⟩
  case run =>
    simp only [cc0__project_kernel_eq_skeleton]; unfold cc0__project_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3
    obtain rfl := harg7.eq_unread hfs0; obtain rfl := harg8.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    isplitl [H5]
    · iexists _; iexact H5
    isplitl [HS0]
    · iexists _; iexact HS0
    iexists _; iexact HS1

end Cert.KernelIdeal.Fr

end
-- ==== Proof.KI.Data0.lean ====
/- Region 0 (the projection) as a pipeline with two accumulators carried from point to point: what each accumulator
   holds after every grid point (by recursion on the point: the first point's run, then each later point's run over
   what the point before left), the invariant that carries them between points, what each window's buffer holds after
   the body, and the body's obligation at every point, by the three cases first / middle / last. All of it at any
   contents `V` the region may be entered from. -/
import proofs.«149681_j46213848105408_1_alg».proof.Proof.KI.Run0C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the runs' pieces cover -/

theorem scover0_A_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : first0 i) (hc1 : ¬last0 i) (x0 : Vec F S110x4096 .f32) (x1 : Vec F S64x4096 .f32) (x2 : Vec F S64x4096 .f32) (x3 : Vec F S64x4096 .i32) (y : S64x110.Idx) :
    ∃ pc ∈ (kernelRun0_A c i arg1 harg1 arg2 harg2 arg3 harg3 arg4 harg4 arg5 harg5 arg6 harg6 arg7 harg7 arg8 harg8 hc0 hc1 x0 x1 x2 x3).1, y ∈ pc.1.set :=
  View.cover_of_tiledL (kernelRun0_A c i arg1 harg1 arg2 harg2 arg3 harg3 arg4 harg4 arg5 harg5 arg6 harg6 arg7 harg7 arg8 harg8 hc0 hc1 x0 x1 x2 x3).1 S64x110.size (by sl_kernel_rfl) y
theorem scover0_A_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : first0 i) (hc1 : ¬last0 i) (x0 : Vec F S110x4096 .f32) (x1 : Vec F S64x4096 .f32) (x2 : Vec F S64x4096 .f32) (x3 : Vec F S64x4096 .i32) (y : S64x110.Idx) :
    ∃ pc ∈ (kernelRun0_A c i arg1 harg1 arg2 harg2 arg3 harg3 arg4 harg4 arg5 harg5 arg6 harg6 arg7 harg7 arg8 harg8 hc0 hc1 x0 x1 x2 x3).2.1, y ∈ pc.1.set :=
  View.cover_of_tiledL (kernelRun0_A c i arg1 harg1 arg2 harg2 arg3 harg3 arg4 harg4 arg5 harg5 arg6 harg6 arg7 harg7 arg8 harg8 hc0 hc1 x0 x1 x2 x3).2.1 S64x110.size (by sl_kernel_rfl) y
theorem scover0_B_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : ¬last0 i) (x0 : Vec F S110x4096 .f32) (x1 : Vec F S64x4096 .f32) (x2 : Vec F S64x4096 .f32) (x3 : Vec F S64x4096 .i32) (xs0 xs1 : Vec F S64x110 .f32) (y : S64x110.Idx) :
    ∃ pc ∈ (kernelRun0_B c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).1 S64x110.size (by sl_kernel_rfl) y
theorem scover0_B_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : ¬last0 i) (x0 : Vec F S110x4096 .f32) (x1 : Vec F S64x4096 .f32) (x2 : Vec F S64x4096 .f32) (x3 : Vec F S64x4096 .i32) (xs0 xs1 : Vec F S64x110 .f32) (y : S64x110.Idx) :
    ∃ pc ∈ (kernelRun0_B c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_B c i arg1 harg1 arg2 harg2 arg3 harg3 arg4 harg4 arg5 harg5 arg6 harg6 arg7 harg7 arg8 harg8 hc0 hc1 x0 x1 x2 x3 xs0 xs1).2.1 S64x110.size (by sl_kernel_rfl) y
theorem cover0_C_4 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) (y : S64x110.Idx) :
    ∃ pc ∈ (kernelRun0_C c i arg1 harg1 arg2 harg2 arg3 harg3 arg4 harg4 arg5 harg5 arg6 harg6 arg7 harg7 arg8 harg8 hc0 hc1 x0 x1 x2 x3 xs0 xs1).1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).1 S64x110.size (by sl_kernel_rfl) y
theorem cover0_C_5 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) (y : S64x110.Idx) :
    ∃ pc ∈ (kernelRun0_C c i arg1 harg1 arg2 harg2 arg3 harg3 arg4 harg4 arg5 harg5 arg6 harg6 arg7 harg7 arg8 harg8 hc0 hc1 x0 x1 x2 x3 xs0 xs1).2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.1 S64x110.size (by sl_kernel_rfl) y
theorem scover0_C_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) (y : S64x110.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.1 S64x110.size (by sl_kernel_rfl) y
theorem scover0_C_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) (y : S64x110.Idx) :
    ∃ pc ∈ (kernelRun0_C c i arg1 harg1 arg2 harg2 arg3 harg3 arg4 harg4 arg5 harg5 arg6 harg6 arg7 harg7 arg8 harg8 hc0 hc1 x0 x1 x2 x3 xs0 xs1).2.2.2.1, y ∈ pc.1.set :=
  View.cover_of_tiledL (kernelRun0_C c i arg1 harg1 arg2 harg2 arg3 harg3 arg4 harg4 arg5 harg5 arg6 harg6 arg7 harg7 arg8 harg8 hc0 hc1 x0 x1 x2 x3 xs0 xs1).2.2.2.1 S64x110.size (by sl_kernel_rfl) y

/-! ## What each case leaves: the pieces read back -/

/-- The first accumulator after the first point. -/
def sout0_A_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : first0 i) (hc1 : ¬last0 i) (x0 : Vec F S110x4096 .f32) (x1 : Vec F S64x4096 .f32) (x2 : Vec F S64x4096 .f32) (x3 : Vec F S64x4096 .i32) : Vec F S64x110 .f32 :=
  VS0_0.read (Elt F) (VS0_0.writes (Elt F) VS0_0.junk (kernelRun0_A c i arg1 harg1 arg2 harg2 arg3 harg3 arg4 harg4 arg5 harg5 arg6 harg6 arg7 harg7 arg8 harg8 hc0 hc1 x0 x1 x2 x3).1)
/-- The second accumulator after the first point. -/
def sout0_A_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : first0 i) (hc1 : ¬last0 i) (x0 : Vec F S110x4096 .f32) (x1 : Vec F S64x4096 .f32) (x2 : Vec F S64x4096 .f32) (x3 : Vec F S64x4096 .i32) : Vec F S64x110 .f32 :=
  VS0_1.read (Elt F) (VS0_1.writes (Elt F) VS0_1.junk (kernelRun0_A c i arg1 harg1 arg2 harg2 arg3 harg3 arg4 harg4 arg5 harg5 arg6 harg6 arg7 harg7 arg8 harg8 hc0 hc1 x0 x1 x2 x3).2.1)
/-- The first accumulator after a middle point. -/
def sout0_B_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : ¬last0 i) (x0 : Vec F S110x4096 .f32) (x1 : Vec F S64x4096 .f32) (x2 : Vec F S64x4096 .f32) (x3 : Vec F S64x4096 .i32) (xs0 xs1 : Vec F S64x110 .f32) : Vec F S64x110 .f32 :=
  VS0_0.read (Elt F) (VS0_0.writes (Elt F) VS0_0.junk (kernelRun0_B c i arg1 harg1 arg2 harg2 arg3 harg3 arg4 harg4 arg5 harg5 arg6 harg6 arg7 harg7 arg8 harg8 hc0 hc1 x0 x1 x2 x3 xs0 xs1).1)
/-- The second accumulator after a middle point. -/
def sout0_B_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : ¬last0 i) (x0 : Vec F S110x4096 .f32) (x1 : Vec F S64x4096 .f32) (x2 : Vec F S64x4096 .f32) (x3 : Vec F S64x4096 .i32) (xs0 xs1 : Vec F S64x110 .f32) : Vec F S64x110 .f32 :=
  VS0_1.read (Elt F) (VS0_1.writes (Elt F) VS0_1.junk (kernelRun0_B c i arg1 harg1 arg2 harg2 arg3 harg3 arg4 harg4 arg5 harg5 arg6 harg6 arg7 harg7 arg8 harg8 hc0 hc1 x0 x1 x2 x3 xs0 xs1).2.1)
/-- The first result window's buffer after the last point. -/
def out0_C_4 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) : Vec F S64x110 .f32 :=
  VO0_4.read (Elt F) (VO0_4.writes (Elt F) VO0_4.junk (kernelRun0_C c i arg1 harg1 arg2 harg2 arg3 harg3 arg4 harg4 arg5 harg5 arg6 harg6 arg7 harg7 arg8 harg8 hc0 hc1 x0 x1 x2 x3 xs0 xs1).1)
/-- The second result window's buffer after the last point. -/
def out0_C_5 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) : Vec F S64x110 .f32 :=
  VO0_5.read (Elt F) (VO0_5.writes (Elt F) VO0_5.junk (kernelRun0_C c i arg1 harg1 arg2 harg2 arg3 harg3 arg4 harg4 arg5 harg5 arg6 harg6 arg7 harg7 arg8 harg8 hc0 hc1 x0 x1 x2 x3 xs0 xs1).2.1)
/-- The first accumulator after the last point. -/
def sout0_C_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) : Vec F S64x110 .f32 :=
  VS0_0.read (Elt F) (VS0_0.writes (Elt F) VS0_0.junk (kernelRun0_C c i arg1 harg1 arg2 harg2 arg3 harg3 arg4 harg4 arg5 harg5 arg6 harg6 arg7 harg7 arg8 harg8 hc0 hc1 x0 x1 x2 x3 xs0 xs1).2.2.1)
/-- The second accumulator after the last point. -/
def sout0_C_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) : Vec F S64x110 .f32 :=
  VS0_1.read (Elt F) (VS0_1.writes (Elt F) VS0_1.junk (kernelRun0_C c i arg1 harg1 arg2 harg2 arg3 harg3 arg4 harg4 arg5 harg5 arg6 harg6 arg7 harg7 arg8 harg8 hc0 hc1 x0 x1 x2 x3 xs0 xs1).2.2.2.1)

/-- A result window's buffer at a point that stores nothing into it: a placeholder nothing consults (the window is
    neither written back there nor read at the next point). -/
def idle0_4v : Vec F S64x110 .f32 := VO0_4.read (Elt F) (VO0_4.writes (Elt F) VO0_4.junk [])
def idle0_5v : Vec F S64x110 .f32 := VO0_5.read (Elt F) (VO0_5.writes (Elt F) VO0_5.junk [])

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## What the buffers hold after each point -/

/-- After point `n`: the two result windows' buffers, then the two accumulators. Point 0 is the first-point run; a
    later point runs over what the point before left in the accumulators, and at point 15 also fills the result
    windows. -/
def outsAt0 (c : Dev nD) : (n : ℕ) → n < cfg0.N → Vec F S64x110 .f32 × Vec F S64x110 .f32 × Vec F S64x110 .f32 × Vec F S64x110 .f32
  | 0, hn => (idle0_4v, idle0_5v,
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((first0_iff ⟨0, hn⟩).mpr rfl) (fun h => absurd (show (0 : ℕ) = 15 from (last0_iff ⟨0, hn⟩).mp h) (by decide)) (iblk0 V c 0 ⟨0, hn⟩) (iblk0 V c 1 ⟨0, hn⟩) (iblk0 V c 2 ⟨0, hn⟩) (iblk0 V c 3 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) scM0_1 (Memref.isWhole_whole _) ((first0_iff ⟨0, hn⟩).mpr rfl) (fun h => absurd (show (0 : ℕ) = 15 from (last0_iff ⟨0, hn⟩).mp h) (by decide)) (iblk0 V c 0 ⟨0, hn⟩) (iblk0 V c 1 ⟨0, hn⟩) (iblk0 V c 2 ⟨0, hn⟩) (iblk0 V c 3 ⟨0, hn⟩))
  | n + 1, hn =>
    if h1 : n + 1 = 15 then
      (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((first0_iff ⟨n + 1, hn⟩).mp h)) ((last0_iff ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)
    else
      (idle0_4v, idle0_5v,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((first0_iff ⟨n + 1, hn⟩).mp h)) (fun h => h1 ((last0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2,
       sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) scM0_1 (Memref.isWhole_whole _) (fun h => Nat.succ_ne_zero n ((first0_iff ⟨n + 1, hn⟩).mp h)) (fun h => h1 ((last0_iff ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2.2.1 (outsAt0 c n (Nat.lt_of_succ_lt hn)).2.2.2)

/-- What the point before `t` left in the two accumulators. -/
abbrev prev0_0 (c : Dev nD) (t : Fin cfg0.N) : Vec F S64x110 .f32 := (outsAt0 V c (t.val - 1) (Nat.lt_of_le_of_lt (Nat.sub_le _ _) t.isLt)).2.2.1
abbrev prev0_1 (c : Dev nD) (t : Fin cfg0.N) : Vec F S64x110 .f32 := (outsAt0 V c (t.val - 1) (Nat.lt_of_le_of_lt (Nat.sub_le _ _) t.isLt)).2.2.2

theorem outsAt0_A (c : Dev nD) (t : Fin cfg0.N) (h0 : t.val = 0) (h1 : ¬t.val = 15) :
    outsAt0 V c t.val t.isLt = (idle0_4v, idle0_5v,
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((first0_iff t).mpr h0) (fun h => h1 ((last0_iff t).mp h)) (iblk0 V c 0 t) (iblk0 V c 1 t) (iblk0 V c 2 t) (iblk0 V c 3 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((first0_iff t).mpr h0) (fun h => h1 ((last0_iff t).mp h)) (iblk0 V c 0 t) (iblk0 V c 1 t) (iblk0 V c 2 t) (iblk0 V c 3 t)) := by
  obtain ⟨n, hn⟩ := t
  cases n with
  | zero => exact rfl
  | succ n => exact absurd h0 (Nat.succ_ne_zero n)

theorem outsAt0_B (c : Dev nD) (t : Fin cfg0.N) (h0 : ¬t.val = 0) (h1 : ¬t.val = 15) :
    outsAt0 V c t.val t.isLt = (idle0_4v, idle0_5v,
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) (fun h => h1 ((last0_iff t).mp h)) (iblk0 V c 0 t) (iblk0 V c 1 t) (iblk0 V c 2 t) (iblk0 V c 3 t) (prev0_0 V c t) (prev0_1 V c t),
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) (fun h => h1 ((last0_iff t).mp h)) (iblk0 V c 0 t) (iblk0 V c 1 t) (iblk0 V c 2 t) (iblk0 V c 3 t) (prev0_0 V c t) (prev0_1 V c t)) := by
  obtain ⟨n, hn⟩ := t
  cases n with
  | zero => exact absurd rfl h0
  | succ n => exact (dif_neg h1).trans rfl

theorem outsAt0_C (c : Dev nD) (t : Fin cfg0.N) (h0 : ¬t.val = 0) (h1 : t.val = 15) :
    outsAt0 V c t.val t.isLt =
     (out0_C_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) ((last0_iff t).mpr h1) (iblk0 V c 0 t) (iblk0 V c 1 t) (iblk0 V c 2 t) (iblk0 V c 3 t) (prev0_0 V c t) (prev0_1 V c t),
      out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) ((last0_iff t).mpr h1) (iblk0 V c 0 t) (iblk0 V c 1 t) (iblk0 V c 2 t) (iblk0 V c 3 t) (prev0_0 V c t) (prev0_1 V c t),
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) ((last0_iff t).mpr h1) (iblk0 V c 0 t) (iblk0 V c 1 t) (iblk0 V c 2 t) (iblk0 V c 3 t) (prev0_0 V c t) (prev0_1 V c t),
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) ((last0_iff t).mpr h1) (iblk0 V c 0 t) (iblk0 V c 1 t) (iblk0 V c 2 t) (iblk0 V c 3 t) (prev0_0 V c t) (prev0_1 V c t)) := by
  obtain ⟨n, hn⟩ := t
  cases n with
  | zero => exact absurd rfl h0
  | succ n => exact (dif_pos h1).trans rfl

/-! ## The invariant between points -/

/-- The scoped buffers that are neither a staging buffer of this region nor one of its accumulators (the other
    region's staging buffers and running total), each whole at some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_scratch0), ((c : Thread nD τ).loc cc1_scratch0) ↦{fullShare} f))

/-- The class invariant with the two accumulators owned as memrefs at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-- Before point `n`: at the start the class invariant (the accumulators at anything); afterwards each accumulator at
    what point `n - 1` left in it, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2) ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2) ∗ rest0 (F := F) c) ∗ (∃ r, prngReg c r)) := by
  cases n with
  | zero => exact absurd rfl hz
  | succ n => rfl

/-! ## The pipeline's proof data -/

/-- The proof data of the projection's pipeline on core `c`: the arrays as the region finds them; after the body at
    point `t` each input's buffer at its block and the result windows' at `outsAt0`; the invariant carrying the
    accumulators; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
    | ⟨5, _⟩ => (outsAt0 V c t.val t.isLt).2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]
theorem after0_5 (c : Dev nD) (t : Fin cfg0.N) : (dat0 V c).after 5 t = (outsAt0 V c t.val t.isLt).2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

end

end Cert.KernelIdeal.Fr

end
-- ==== Proof.KI.Body0.lean ====
/- Region 0 (the projection): the body's obligation at every grid point. The point is the first (the accumulators come
   at anything and leave at the first tile's products), a middle one (they come at what the point before left), or the
   last (they are also copied into the result windows); the two result windows are idle except at the last point. -/
import proofs.«149681_j46213848105408_1_alg».proof.Proof.KI.Data0

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`: the invariant, the core's dues, each window's current buffer. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

/-- And what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 4800000 in
/-- The body at any point: the inputs' buffers hold their blocks; which case the point is in is decided by its
    position; the invariant hands the body the accumulators (at anything at the first point, at what the point before
    left afterwards) and takes them back at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  rw [show (dat0 V c).leavesExact 2 t = owns (c : Thread nD τ) (ms0_2 t) fullShare ((dat0 V c).after 2 t) from by
    unfold Dat.leavesExact; rw [live0_2 t], after0_2]
  rw [show (dat0 V c).leavesExact 3 t = owns (c : Thread nD τ) (ms0_3 t) fullShare ((dat0 V c).after 3 t) from by
    unfold Dat.leavesExact; rw [live0_3 t], after0_3]
  by_cases hz : t.val = 0
  · have hl : ¬t.val = 15 := by omega
    rw [Dat.leavesExact_idle (dat0 V c) 4 t (idle0_4 t (fun h => hl ((last0_iff t).mp h))) (noFlush0_4 t (fun h => hl ((last0_iff t).mp h))),
      Dat.leavesExact_idle (dat0 V c) 5 t (idle0_5 t (fun h => hl ((last0_iff t).mp h))) (noFlush0_5 t (fun h => hl ((last0_iff t).mp h)))]
    rw [outsAt0_A V c t hz hl]
    unfold sout0_A_0 sout0_A_1; (try dsimp only)
    rw [PhiS0_castSucc V c t, PhiS0_zero V c _ _ hz, PhiA0_eq]
    iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((first0_iff t).mpr hz) (fun h => hl ((last0_iff t).mp h)) (iblk0 V c 0 t) (iblk0 V c 1 t) (iblk0 V c 2 t) (iblk0 V c 3 t)).2.2 _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, ⟨%es0, HS0⟩, ⟨%es1, HS1⟩⟩
    isplitl [HS0 HS1 Hrest Hg]
    · isplitl [HS0 HS1 Hrest]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _)
        isplitl [HS1]
        · unfold owns; iexists _; isplitr
          swap; · iexact HS1
          ipureintro; exact View.read_writes_of_cover _ _ _ _ _ (scover0_A_1 c _ _ _ _ _ _ _ _ _ _ _ _ _ _ _ _ _ _ _ _ _ _ _)
        iexact Hrest
      iexact Hg
    isplitl [Ho]; · iexact Ho
    isplitl [H0]; · iexact H0
    isplitl [H1]; · iexact H1
    isplitl [H2]; · iexact H2
    isplitl [H3]; · iexact H3
    isplitl [H4]; · iexists _; iexact H4
    iexists _; iexact H5
  · by_cases hl : t.val = 15
    · rw [show (dat0 V c).leavesExact 4 t = owns (c : Thread nD τ) (ms0_4 t) fullShare ((dat0 V c).after 4 t) from by
        unfold Dat.leavesExact; rw [live0_4 t ((last0_iff t).mpr hl)], after0_4]
      rw [show (dat0 V c).leavesExact 5 t = owns (c : Thread nD τ) (ms0_5 t) fullShare ((dat0 V c).after 5 t) from by
        unfold Dat.leavesExact; rw [live0_5 t ((last0_iff t).mpr hl)], after0_5]
      rw [outsAt0_C V c t hz hl]
      unfold out0_C_4 out0_C_5 sout0_C_0 sout0_C_1; (try dsimp only)
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ _ _ (fun h => hz ((first0_iff t).mp h)) ((last0_iff t).mpr hl) (iblk0 V c 0 t) (iblk0 V c 1 t) (iblk0 V c 2 t) (iblk0 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover0_C_4 c _ _ _ _ _ _ _ _ _ _ _ _ _ _ _ _ _ _ _ _ _ _ _ _ _)
      unfold owns; iexists _; isplitr
      swap; · iexact H5
      ipureintro; exact View.read_writes_of_cover _ _ _ _ _ (cover0_C_5 c _ _ _ _ _ _ _ _ _ _ _ _ _ _ _ _ _ _ _ _ _ _ _ _ _)
    · rw [Dat.leavesExact_idle (dat0 V c) 4 t (idle0_4 t (fun h => hl ((last0_iff t).mp h))) (noFlush0_4 t (fun h => hl ((last0_iff t).mp h))),
        Dat.leavesExact_idle (dat0 V c) 5 t (idle0_5 t (fun h => hl ((last0_iff t).mp h))) (noFlush0_5 t (fun h => hl ((last0_iff t).mp h)))]
      rw [outsAt0_B V c t hz hl]
      unfold sout0_B_0 sout0_B_1; (try dsimp only)
      rw [PhiS0_castSucc V c t, PhiS0_pos V c _ _ hz]
      iintro ⟨⟨⟨HS0, HS1, Hrest⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ (fun h => hz ((first0_iff t).mp h)) (fun h => hl ((last0_iff t).mp h)) (iblk0 V c 0 t) (iblk0 V c 1 t) (iblk0 V c 2 t) (iblk0 V c 3 t) _ _).2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HS0 HS1 Hrest Hg]
      · isplitl [HS0 HS1 Hrest]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _)
          iexact Hrest
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem Phi0_first (c : Dev nD) : (dat0 V c).Φ 0 = Pipeline.ΦA spec0 c := rfl

/-- After the last point the invariant gives the class invariant back: what the accumulators hold is forgotten. -/
theorem Phi0_last (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl,
    PhiS0_pos V c _ _ (by rw [Fin.val_last]; have : cfg0.N = 16 := N_0; omega), PhiA0_eq]
  iintro ⟨⟨HS0, HS1, Hrest⟩, Hg⟩
  isplitl [HS0 HS1 Hrest]
  · isplitl [HS0]; · iexists _; iexact HS0
    isplitl [HS1]; · iexists _; iexact HS1
    iexact Hrest
  iexact Hg

end

end Cert.KernelIdeal.Fr

end
-- ==== Proof.KI.Run1A.lean ====
/- The reconstruction body at the grid's first point: the running total is reset to zero and then takes the first
   tile's sum of squared differences; the result window is left untouched. -/
import proofs.«149681_j46213848105408_1_alg».proof.Proof.KI.Shared

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point where the reset branch is taken and the write-out branch is not: the inputs' buffers are read and
    kept, the result buffer is handed back as it came, and the running total — whatever it held — ends with the
    listed pieces written. -/
noncomputable def kernelRun1_A (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : first1 i) (hc1 : ¬last1 i)
    (x0 : Vec F S64x110 .f32) (x1 : Vec F S64x110 .f32) (x2 : Vec F S4096x110 .f32) (x3 : Vec F S64x4096 .i32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4
            ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4
                ∗ (∃ f, arg6.view.loc (c : Thread nD τ) ↦[arg6.view.set]{fullShare} arg6.view.writes (Elt F) f LS0)) -∗ K ⟨⟩))
          ⊢ wp frame (wpE (defs₀ (F := F)) Variants.none c none) E (cc1__reconstruct_kernel i arg1 harg1 arg2 harg2 arg3 harg3 arg4 harg4 arg5 harg5 arg6 harg6) K } := by
  refine ⟨?_, fun xi4 E K => ?run⟩
  case run =>
    simp only [cc1__reconstruct_kernel_eq_skeleton]; unfold cc1__reconstruct_kernel_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg1.eq_unread hf0; obtain rfl := harg2.eq_unread hf1; obtain rfl := harg3.eq_unread hf2; obtain rfl := harg4.eq_unread hf3
    obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Fr

end
-- ==== Proof.KI.Run1B.lean ====
/- The reconstruction body at a middle point: the running total, holding what the point before left, takes this
   tile's sum of squared differences on top; the result window is left untouched. -/
import proofs.«149681_j46213848105408_1_alg».proof.Proof.KI.Run1A

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point where neither branch is taken: the inputs' buffers are read and kept, the result buffer is handed
    back as it came, and the running total, entered at `xs0`, ends with the listed pieces written. -/
noncomputable def kernelRun1_B (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : ¬last1 i)
    (x0 : Vec F S64x110 .f32) (x1 : Vec F S64x110 .f32) (x2 : Vec F S4096x110 .f32) (x3 : Vec F S64x4096 .i32) (xs0 : Vec F S1x1 .f32) :
    { LS0 : List (View.Piece (Elt F) S1x1 .f32) //
      ∀ (xi4 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare xi4
            ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare xi4
                ∗ (∃ f, arg6.view.loc (c : Thread nD τ) ↦[arg6.view.set]{fullShare} arg6.view.writes (Elt F) f LS0)) -∗ K ⟨⟩))
          ⊢ wp frame (wpE (defs₀ (F := F)) Variants.none c none) E (cc1__reconstruct_kernel i arg1 harg1 arg2 harg2 arg3 harg3 arg4 harg4 arg5 harg5 arg6 harg6) K } := by
  refine ⟨?_, fun xi4 E K => ?run⟩
  case run =>
    simp only [cc1__reconstruct_kernel_eq_skeleton]; unfold cc1__reconstruct_kernel_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg1.eq_unread hf0; obtain rfl := harg2.eq_unread hf1; obtain rfl := harg3.eq_unread hf2; obtain rfl := harg4.eq_unread hf3
    obtain rfl := harg5.eq_unread hf4; obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS0

end Cert.KernelIdeal.Fr

end
-- ==== Proof.KI.Run1C.lean ====
/- The reconstruction body at the grid's last point: the running total takes the last tile's sum and is then copied
   into the result window. -/
import proofs.«149681_j46213848105408_1_alg».proof.Proof.KI.Run1B

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At a point where the reset branch is not taken and the write-out branch is: the inputs' buffers are read and
    kept; the running total, entered at `xs0`, and the result buffer, whatever it held, end with the listed pieces
    written. -/
noncomputable def kernelRun1_C (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : last1 i)
    (x0 : Vec F S64x110 .f32) (x1 : Vec F S64x110 .f32) (x2 : Vec F S4096x110 .f32) (x3 : Vec F S64x4096 .i32) (xs0 : Vec F S1x1 .f32) :
    Σ' (L4 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d)
            ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f LS0)) -∗ K ⟨⟩))
          ⊢ wp frame (wpE (defs₀ (F := F)) Variants.none c none) E (cc1__reconstruct_kernel i arg1 harg1 arg2 harg2 arg3 harg3 arg4 harg4 arg5 harg5 arg6 harg6) K } := by
  refine ⟨?_, ?_, fun E K => ?run⟩
  case run =>
    simp only [cc1__reconstruct_kernel_eq_skeleton]; unfold cc1__reconstruct_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3
    obtain rfl := harg6.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; iexact H4
    iexists _; iexact HS0

end Cert.KernelIdeal.Fr

end
-- ==== Proof.KI.Data1.lean ====
/- Region 1 (the reconstruction) as a pipeline with one running total carried from point to point: what the total
   holds after every grid point, the invariant that carries it, what each window's buffer holds after the body. All of
   it at any contents `V` the region may be entered from. -/
import proofs.«149681_j46213848105408_1_alg».proof.Proof.KI.Run1C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What the runs' pieces cover, and the pieces read back -/

theorem scover1_A_0 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : first1 i) (hc1 : ¬last1 i) (x0 : Vec F S64x110 .f32) (x1 : Vec F S64x110 .f32) (x2 : Vec F S4096x110 .f32) (x3 : Vec F S64x4096 .i32) (y : S1x1.Idx) :
    ∃ pc ∈ (kernelRun1_A c i arg1 harg1 arg2 harg2 arg3 harg3 arg4 harg4 arg5 harg5 arg6 harg6 hc0 hc1 x0 x1 x2 x3).1, y ∈ pc.1.set :=
  View.cover_of_tiledL (kernelRun1_A c i arg1 harg1 arg2 harg2 arg3 harg3 arg4 harg4 arg5 harg5 arg6 harg6 hc0 hc1 x0 x1 x2 x3).1 S1x1.size (by sl_kernel_rfl) y
theorem scover1_B_0 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : ¬last1 i) (x0 : Vec F S64x110 .f32) (x1 : Vec F S64x110 .f32) (x2 : Vec F S4096x110 .f32) (x3 : Vec F S64x4096 .i32) (xs0 : Vec F S1x1 .f32) (y : S1x1.Idx) :
    ∃ pc ∈ (kernelRun1_B c i arg1 harg1 arg2 harg2 arg3 harg3 arg4 harg4 arg5 harg5 arg6 harg6 hc0 hc1 x0 x1 x2 x3 xs0).1, y ∈ pc.1.set :=
  View.cover_of_tiledL (kernelRun1_B c i arg1 harg1 arg2 harg2 arg3 harg3 arg4 harg4 arg5 harg5 arg6 harg6 hc0 hc1 x0 x1 x2 x3 xs0).1 S1x1.size (by sl_kernel_rfl) y
theorem cover1_C_4 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : last1 i) (x0 : Vec F S64x110 .f32) (x1 : Vec F S64x110 .f32) (x2 : Vec F S4096x110 .f32) (x3 : Vec F S64x4096 .i32) (xs0 : Vec F S1x1 .f32) (y : S1x1.Idx) :
    ∃ pc ∈ (kernelRun1_C c i arg1 harg1 arg2 harg2 arg3 harg3 arg4 harg4 arg5 harg5 arg6 harg6 hc0 hc1 x0 x1 x2 x3 xs0).1, y ∈ pc.1.set :=
  View.cover_of_tiledL (kernelRun1_C c i arg1 harg1 arg2 harg2 arg3 harg3 arg4 harg4 arg5 harg5 arg6 harg6 hc0 hc1 x0 x1 x2 x3 xs0).1 S1x1.size (by sl_kernel_rfl) y
theorem scover1_C_0 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : last1 i) (x0 : Vec F S64x110 .f32) (x1 : Vec F S64x110 .f32) (x2 : Vec F S4096x110 .f32) (x3 : Vec F S64x4096 .i32) (xs0 : Vec F S1x1 .f32) (y : S1x1.Idx) :
    ∃ pc ∈ (kernelRun1_C c i arg1 harg1 arg2 harg2 arg3 harg3 arg4 harg4 arg5 harg5 arg6 harg6 hc0 hc1 x0 x1 x2 x3 xs0).2.1, y ∈ pc.1.set :=
  View.cover_of_tiledL (kernelRun1_C c i arg1 harg1 arg2 harg2 arg3 harg3 arg4 harg4 arg5 harg5 arg6 harg6 hc0 hc1 x0 x1 x2 x3 xs0).2.1 S1x1.size (by sl_kernel_rfl) y

/-- The running total after the first point. -/
def sout1_A_0 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : first1 i) (hc1 : ¬last1 i) (x0 : Vec F S64x110 .f32) (x1 : Vec F S64x110 .f32) (x2 : Vec F S4096x110 .f32) (x3 : Vec F S64x4096 .i32) : Vec F S1x1 .f32 :=
  VS1_0.read (Elt F) (VS1_0.writes (Elt F) VS1_0.junk (kernelRun1_A c i arg1 harg1 arg2 harg2 arg3 harg3 arg4 harg4 arg5 harg5 arg6 harg6 hc0 hc1 x0 x1 x2 x3).1)
/-- The running total after a middle point. -/
def sout1_B_0 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : ¬last1 i) (x0 : Vec F S64x110 .f32) (x1 : Vec F S64x110 .f32) (x2 : Vec F S4096x110 .f32) (x3 : Vec F S64x4096 .i32) (xs0 : Vec F S1x1 .f32) : Vec F S1x1 .f32 :=
  VS1_0.read (Elt F) (VS1_0.writes (Elt F) VS1_0.junk (kernelRun1_B c i arg1 harg1 arg2 harg2 arg3 harg3 arg4 harg4 arg5 harg5 arg6 harg6 hc0 hc1 x0 x1 x2 x3 xs0).1)
/-- The result window's buffer after the last point. -/
def out1_C_4 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : last1 i) (x0 : Vec F S64x110 .f32) (x1 : Vec F S64x110 .f32) (x2 : Vec F S4096x110 .f32) (x3 : Vec F S64x4096 .i32) (xs0 : Vec F S1x1 .f32) : Vec F S1x1 .f32 :=
  VO1_4.read (Elt F) (VO1_4.writes (Elt F) VO1_4.junk (kernelRun1_C c i arg1 harg1 arg2 harg2 arg3 harg3 arg4 harg4 arg5 harg5 arg6 harg6 hc0 hc1 x0 x1 x2 x3 xs0).1)
/-- The running total after the last point. -/
def sout1_C_0 (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : last1 i) (x0 : Vec F S64x110 .f32) (x1 : Vec F S64x110 .f32) (x2 : Vec F S4096x110 .f32) (x3 : Vec F S64x4096 .i32) (xs0 : Vec F S1x1 .f32) : Vec F S1x1 .f32 :=
  VS1_0.read (Elt F) (VS1_0.writes (Elt F) VS1_0.junk (kernelRun1_C c i arg1 harg1 arg2 harg2 arg3 harg3 arg4 harg4 arg5 harg5 arg6 harg6 hc0 hc1 x0 x1 x2 x3 xs0).2.1)

/-- The result window's buffer at a point that stores nothing into it: a placeholder nothing consults. -/
def idle1_4v : Vec F S1x1 .f32 := VO1_4.read (Elt F) (VO1_4.writes (Elt F) VO1_4.junk [])

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- After point `n`: the result window's buffer, then the running total. -/
def outsAt1 (c : Dev nD) : (n : ℕ) → n < cfg1.N → Vec F S1x1 .f32 × Vec F S1x1 .f32
  | 0, hn => (idle1_4v, sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1_0 (Memref.isWhole_whole _) ((first1_iff ⟨0, hn⟩).mpr rfl) (fun h => absurd (show (0 : ℕ) = 15 from (last1_iff ⟨0, hn⟩).mp h) (by decide)) (iblk1 V c 0 ⟨0, hn⟩) (iblk1 V c 1 ⟨0, hn⟩) (iblk1 V c 2 ⟨0, hn⟩) (iblk1 V c 3 ⟨0, hn⟩))
  | n + 1, hn =>
    if h1 : n + 1 = 15 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => Nat.succ_ne_zero n ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
       sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => Nat.succ_ne_zero n ((first1_iff ⟨n + 1, hn⟩).mp h)) ((last1_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
    else
      (idle1_4v, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1_0 (Memref.isWhole_whole _) (fun h => Nat.succ_ne_zero n ((first1_iff ⟨n + 1, hn⟩).mp h)) (fun h => h1 ((last1_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

/-- What the point before `t` left in the running total. -/
abbrev prev1_0 (c : Dev nD) (t : Fin cfg1.N) : Vec F S1x1 .f32 := (outsAt1 V c (t.val - 1) (Nat.lt_of_le_of_lt (Nat.sub_le _ _) t.isLt)).2

theorem outsAt1_A (c : Dev nD) (t : Fin cfg1.N) (h0 : t.val = 0) (h1 : ¬t.val = 15) :
    outsAt1 V c t.val t.isLt = (idle1_4v,
      sout1_A_0 c (grid1.coords t) (ms1_0 t) (hs1_0 t) (ms1_1 t) (hs1_1 t) (ms1_2 t) (hs1_2 t) (ms1_3 t) (hs1_3 t) (ms1_4 t) (hs1_4 t) scM1_0 (Memref.isWhole_whole _) ((first1_iff t).mpr h0) (fun h => h1 ((last1_iff t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 15) :
    outsAt1 V c t.val t.isLt = (idle1_4v,
      sout1_B_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((first1_iff t).mp h)) (fun h => h1 ((last1_iff t).mp h)) (iblk1 V c 0 t) (iblk1 V c 1 t) (iblk1 V c 2 t) (iblk1 V c 3 t) (prev1_0 V c t)) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 15) :
    outsAt1 V c t.val t.isLt =
     (out1_C_4 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((first1_iff t).mp h)) ((last1_iff t).mpr h1) (iblk1 V c 0 t) (iblk1 V c 1 t) (iblk1 V c 2 t) (iblk1 V c 3 t) (prev1_0 V c t),
      sout1_C_0 c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((first1_iff t).mp h)) ((last1_iff t).mpr h1) (iblk1 V c 0 t) (iblk1 V c 1 t) (iblk1 V c 2 t) (iblk1 V c 3 t) (prev1_0 V c t)) := by
  obtain ⟨n, hn⟩ := t
  cases n with
  | zero => exact absurd rfl h0
  | succ n => exact (dif_pos h1).trans rfl

/-! ## The invariant between points -/

/-- The scoped buffers that are neither a staging buffer of this region nor its running total (the other region's
    staging buffers and accumulators), each whole at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant with the running total owned as a memref at some contents. -/
theorem PhiA1_eq (c : Dev nD) :
    (Pipeline.ΦA spec1 c : sProp 𝕄)
      = iprop(iprop(rest1 (F := F) c ∗ (∃ d, owns (c : Thread nD τ) scM1_0 fullShare d)) ∗ (∃ r, prngReg c r)) := by
  unfold Pipeline.ΦA rest1; rw [scopedRest1_eq]; simp only [scM1_0, owns_whole]
  refine equiv_iff.mp ⟨?_, ?_⟩
  · show (_ : sProp 𝕄) ⊢ (_ : sProp 𝕄)
    iintro ⟨⟨R1, R2, R3, R4, R5, R6, R7, R8, R9, R10, R11, R12, HS⟩, Hg⟩
    isplitl [R1 R2 R3 R4 R5 R6 R7 R8 R9 R10 R11 R12 HS]
    · isplitl [R1 R2 R3 R4 R5 R6 R7 R8 R9 R10 R11 R12]
      · isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [R11]; · iexact R11
        iexact R12
      iexact HS
    iexact Hg
  · show (_ : sProp 𝕄) ⊢ (_ : sProp 𝕄)
    iintro ⟨⟨⟨R1, R2, R3, R4, R5, R6, R7, R8, R9, R10, R11, R12⟩, HS⟩, Hg⟩
    isplitl [R1 R2 R3 R4 R5 R6 R7 R8 R9 R10 R11 R12 HS]
    · isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      iexact HS
    iexact Hg

/-- Before point `n`: at the start the class invariant; afterwards the running total at what point `n - 1` left. -/
def PhiS1 (c : Dev nD) : (n : ℕ) → n ≤ cfg1.N → sProp 𝕄
  | 0, _ => Pipeline.ΦA spec1 c
  | n + 1, hn => iprop(iprop(rest1 (F := F) c ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(rest1 (F := F) c ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop(rest1 (F := F) c ∗ owns (c : Thread nD τ) scM1_0 fullShare ((outsAt1 V c (n - 1) (by omega)).2)) ∗ (∃ r, prngReg c r)) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

end

end Cert.KernelIdeal.Fr

end
-- ==== Proof.KI.Body1.lean ====
/- Region 1 (the reconstruction): the body's obligation at every grid point. The point is the first (the running total
   comes at anything and leaves at the first tile's sum), a middle one (it comes at what the point before left), or the
   last (it is also copied into the result window); the result window is idle except at the last point. -/
import proofs.«149681_j46213848105408_1_alg».proof.Proof.KI.Data1

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`: the invariant, the core's dues, each window's current buffer. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- And what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' buffers hold their blocks; which case the point is in is decided by its
    position; the invariant hands the body the running total (at anything at the first point, at what the point
    before left afterwards) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  by_cases hz : t.val = 0
  · have hl : ¬t.val = 15 := by omega
    rw [Dat.leavesExact_idle (dat1 V c) 4 t (idle1_4 t (fun h => hl ((last1_iff t).mp h))) (noFlush1_4 t (fun h => hl ((last1_iff t).mp h)))]
    rw [outsAt1_A V c t hz hl]
    unfold sout1_A_0; (try dsimp only)
    rw [PhiS1_castSucc V c t, PhiS1_zero V c _ _ hz, PhiA1_eq]
    iintro ⟨⟨⟨Hrest, HS0⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((first1_iff t).mpr hz) (fun h => hl ((last1_iff t).mp h)) (iblk1 V c 0 t) (iblk1 V c 1 t) (iblk1 V c 2 t) (iblk1 V c 3 t)).2 _ Set.univ _)
    isplitl [H0]; · iexact H0
    isplitl [H1]; · iexact H1
    isplitl [H2]; · iexact H2
    isplitl [H3]; · iexact H3
    isplitl [H4]; · iexact H4
    isplitl [HS0]; · iexact HS0
    iintro ⟨H0, H1, H2, H3, H4, ⟨%es0, HS0⟩⟩
    isplitl [HS0 Hrest Hg]
    · isplitl [HS0 Hrest]
      · isplitl [Hrest]; · iexact Hrest
        unfold owns; iexists _; isplitr
        swap; · iexact HS0
        ipureintro; exact View.read_writes_of_cover _ _ _ _ _ (scover1_A_0 c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases hl : t.val = 15
    · rw [show (dat1 V c).leavesExact 4 t = owns (c : Thread nD τ) (ms1_4 t) fullShare ((dat1 V c).after 4 t) from by
        unfold Dat.leavesExact; rw [live1_4 t ((last1_iff t).mpr hl)], after1_4]
      rw [outsAt1_C V c t hz hl]
      unfold out1_C_4 sout1_C_0; (try dsimp only)
      rw [PhiS1_castSucc V c t, PhiS1_pos V c _ _ hz]
      iintro ⟨⟨⟨Hrest, HS0⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => hz ((first1_iff t).mp h)) ((last1_iff t).mpr hl) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hrest Hg]
      · isplitl [HS0 Hrest]
        · isplitl [Hrest]; · iexact Hrest
          unfold owns; iexists _; isplitr
          swap; · iexact HS0
          ipureintro; exact View.read_writes_of_cover _ _ _ _ _ (scover1_C_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idle1_4 t (fun h => hl ((last1_iff t).mp h))) (noFlush1_4 t (fun h => hl ((last1_iff t).mp h)))]
      rw [outsAt1_B V c t hz hl]
      unfold sout1_B_0; (try dsimp only)
      rw [PhiS1_castSucc V c t, PhiS1_pos V c _ _ hz]
      iintro ⟨⟨⟨Hrest, HS0⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => hz ((first1_iff t).mp h)) (fun h => hl ((last1_iff t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hrest Hg]
      · isplitl [HS0 Hrest]
        · isplitl [Hrest]; · iexact Hrest
          unfold owns; iexists _; isplitr
          swap; · iexact HS0
          ipureintro; exact View.read_writes_of_cover _ _ _ _ _ (scover1_B_0 c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem Phi1_first (c : Dev nD) : (dat1 V c).Φ 0 = Pipeline.ΦA spec1 c := rfl

/-- After the last point the invariant gives the class invariant back: what the running total holds is forgotten. -/
theorem Phi1_last (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 16 := N_1; omega), PhiA1_eq]
  iintro ⟨⟨Hrest, HS0⟩, Hg⟩
  isplitl [HS0 Hrest]
  · isplitl [Hrest]; · iexact Hrest
    iexists _; iexact HS0
  iexact Hg

end

end Cert.KernelIdeal.Fr

end
-- ==== Proof.KI.Launch.lean ====
/- The launch. @main is four stretches in order: three reshapes of the arguments, the projection region, the
   reconstruction region (entered straight from the projection's exit), and the closing host operations that read the
   one-cell result as a scalar and divide it by a constant. The unscoped buffers' contents at each boundary are a fold
   from the launch memory; each region is entered with its arrays split out of the unscoped buffers and left with them
   put back at what its write-backs leave; at the end every unscoped buffer is read against the final state. -/
import proofs.«149681_j46213848105408_1_alg».proof.Proof.KI.Body0
import proofs.«149681_j46213848105408_1_alg».proof.Proof.KI.Body1
import proofs.«149681_j46213848105408_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the unscoped buffers hold between the four stretches of @main -/

/-- Core `c`'s buffers at launch. -/
abbrev W0 : Dev nD → Valuation τ sig (Elt F) := fun c b => m (c, b)
/-- After the three reshapes: what the projection region is entered from. -/
abbrev W1 : Dev nD → Valuation τ sig (Elt F) := fun c => StableHlo.after hostOps0 (W0 m c)
/-- The same, read at the TensorCore's references. -/
abbrev V1 : (c : Dev nD) → (b : Ref sig .tc) → Buf (Elt F) ((c : Thread nD τ).loc b) := fun c b => W1 m c b
/-- After the projection region: its six arrays at what the write-backs leave (the four inputs as entered, the two
    results written at the last point), every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same, read at the TensorCore's references: what the reconstruction region is entered from (no host
    operation stands between the two regions). -/
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the reconstruction region: its five arrays at what the write-backs leave (the one-cell result written at the
    last point), every other buffer as entered. -/
def W3 (c : Dev nD) : Valuation τ sig (Elt F) :=
  Pipeline.withArrays spec1 c (W2 m c) fun w => (dat1 (V2 m) c).arrAt w cfg1.N
theorem W3_arr (c : Dev nD) (w : Fin cfg1.W) :
    W3 m c (Proc.devRef .tc (Pipeline.arrRef spec1 w)) = (dat1 (V2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
abbrev V3 : (c : Dev nD) → (b : Ref sig .tc) → Buf (Elt F) ((c : Thread nD τ).loc b) := fun c b => W3 m c b
theorem hF1 (c : Dev nD) (w : Fin cfg1.W) : (dat1 (V2 m) c).arrAt w cfg1.N = V3 m c (Pipeline.arrRef spec1 w) :=
  (W3_arr m c w).symm
theorem hrest1 (c : Dev nD) : ∀ b, b ∉ Finset.univ.image (Pipeline.arrRef spec1) → V3 m c b = V2 m c b :=
  fun b hb => W3_of_ne m c b fun w e => hb (Finset.mem_image.mpr ⟨w, Finset.mem_univ _, e⟩)
/-- After the closing host operations (the reshape to a scalar, the constant, the division): what @main returns from. -/
abbrev W4 : Dev nD → Valuation τ sig (Elt F) := fun c => StableHlo.after hostOps2 (W3 m c)

/-! ## Single buffers read back through the fold -/

/-- The three reshaped operands hold the arguments' contents under the row-major reading of the flat shape. -/
theorem V1_main_v0 (c : Dev nD) : V1 m c main_v0 = shapeCast S64x65536 (m ((c : Thread nD τ).loc main_arg0)) shapeCasts_S8x8x256x256_S64x65536 := by
  show StableHlo.after hostOps0 (fun b => m (c, b)) (Proc.devRef .tc main_v0) = _
  after_results; rfl
theorem V1_main_v1 (c : Dev nD) : V1 m c main_v1 = shapeCast S64x65536 (m ((c : Thread nD τ).loc main_arg1)) shapeCasts_S8x8x256x256_S64x65536 := by
  show StableHlo.after hostOps0 (fun b => m (c, b)) (Proc.devRef .tc main_v1) = _
  after_results; rfl
theorem V1_main_v2 (c : Dev nD) : V1 m c main_v2 = shapeCast S64x65536 (m ((c : Thread nD τ).loc main_arg2)) shapeCasts_S8x8x256x256_S64x65536 := by
  show StableHlo.after hostOps0 (fun b => m (c, b)) (Proc.devRef .tc main_v2) = _
  after_results; rfl
/-- No reshape writes the table the projection reads. -/
theorem V1_main_arg4 (c : Dev nD) : V1 m c main_arg4 = m ((c : Thread nD τ).loc main_arg4) :=
  StableHlo.after_of_writes_sub hostOps0 _ hostOps0_writes (by decide)

/-- The reconstruction region finds the projection's two results at what its write-backs left, -/
theorem V2_main_v3_0 (c : Dev nD) : V2 m c main_v3_0 = (dat0 (V1 m) c).arrAt 4 cfg0.N := W2_arr m c 4
theorem V2_main_v3_1 (c : Dev nD) : V2 m c main_v3_1 = (dat0 (V1 m) c).arrAt 5 cfg0.N := W2_arr m c 5
/-- the reshaped integer operand as the projection found it (an input window's array is never written), -/
theorem V2_main_v2 (c : Dev nD) : V2 m c main_v2 = V1 m c main_v2 :=
  (W2_arr m c 3).trans (((dat0 (V1 m) c).arrAt_in 3 rfl _).trans (A_eq0 (V1 m) c 3))
/-- and the second table as launched (no array of the projection, no reshape's result). -/
theorem V2_main_arg3 (c : Dev nD) : V2 m c main_arg3 = m ((c : Thread nD τ).loc main_arg3) :=
  (W2_of_ne m c main_arg3 (by decide)).trans (StableHlo.after_of_writes_sub hostOps0 _ hostOps0_writes (by decide))

/-! ### The arguments end as launched: no host operation writes one, and a region either reads it through an input
    window or does not touch it -/

theorem W4_main_arg0 (c : Dev nD) : W4 m c (Proc.devRef .tc main_arg0) = m ((c : Thread nD τ).loc main_arg0) :=
  calc W4 m c (Proc.devRef .tc main_arg0)
    _ = W3 m c (Proc.devRef .tc main_arg0) := StableHlo.after_of_writes_sub hostOps2 _ hostOps2_writes (by decide)
    _ = W2 m c (Proc.devRef .tc main_arg0) := W3_of_ne m c main_arg0 (by decide)
    _ = W1 m c (Proc.devRef .tc main_arg0) := W2_of_ne m c main_arg0 (by decide)
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W3 m c (Proc.devRef .tc main_arg1) := StableHlo.after_of_writes_sub hostOps2 _ hostOps2_writes (by decide)
    _ = W2 m c (Proc.devRef .tc main_arg1) := W3_of_ne m c main_arg1 (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W3 m c (Proc.devRef .tc main_arg2) := StableHlo.after_of_writes_sub hostOps2 _ hostOps2_writes (by decide)
    _ = W2 m c (Proc.devRef .tc main_arg2) := W3_of_ne m c main_arg2 (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W3 m c (Proc.devRef .tc main_arg3) := StableHlo.after_of_writes_sub hostOps2 _ hostOps2_writes (by decide)
    _ = W2 m c (Proc.devRef .tc main_arg3) := (W3_arr m c 2).trans (((dat1 (V2 m) c).arrAt_in 2 rfl _).trans (A_eq1 (V2 m) c 2))
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl
theorem W4_main_arg4 (c : Dev nD) : W4 m c (Proc.devRef .tc main_arg4) = m ((c : Thread nD τ).loc main_arg4) :=
  calc W4 m c (Proc.devRef .tc main_arg4)
    _ = W3 m c (Proc.devRef .tc main_arg4) := StableHlo.after_of_writes_sub hostOps2 _ hostOps2_writes (by decide)
    _ = W2 m c (Proc.devRef .tc main_arg4) := W3_of_ne m c main_arg4 (by decide)
    _ = W1 m c (Proc.devRef .tc main_arg4) := (W2_arr m c 0).trans (((dat0 (V1 m) c).arrAt_in 0 rfl _).trans (A_eq0 (V1 m) c 0))
    _ = W0 m c (Proc.devRef .tc main_arg4) := StableHlo.after_of_writes_sub hostOps0 _ hostOps0_writes (by decide)
    _ = m ((c : Thread nD τ).loc main_arg4) := rfl

/-- The returned scalar: the reconstruction's one-cell result read as a scalar, divided by the constant. -/
theorem W4_main_v6 (c : Dev nD) : W4 m c (Proc.devRef .tc main_v6)
    = Host.divf (shapeCast S_ ((dat1 (V2 m) c).arrAt 4 cfg1.N) shapeCasts_S1x1_S_) (constant S_ .f32 0x4A800000#32) := by
  have e : W4 m c (Proc.devRef .tc main_v6)
      = Host.divf (shapeCast S_ (W3 m c (Proc.devRef .tc main_v4)) shapeCasts_S1x1_S_) (constant S_ .f32 0x4A800000#32) := by
    show StableHlo.after hostOps2 (W3 m c) (Proc.devRef .tc main_v6) = _
    after_results; rfl
  rw [e, show W3 m c (Proc.devRef .tc main_v4) = (dat1 (V2 m) c).arrAt 4 cfg1.N from W3_arr m c 4]

/-! ## The proof data family and the thread state -/

/-- Both pipelines' proof data, each at the contents its region is entered from: a literal `match`, so that the data
    at a numeral reduce to the printed configuration's. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every stretch: the core's generator register at some state and its dues, at
    nothing. -/
abbrev R (c : Dev nD) : sProp 𝕄 := iprop((∃ r, prngReg c r) ∗ ∃ W, owes (c : Thread nD τ) (0 : CellTallies nD τ sig Unit) W)
/-- A stretch of host operations over the unscoped references from the contents `W`, `R` riding along: it leaves them
    at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some
    state. -/
abbrev Tₙ (c : Dev nD) : sProp 𝕄 := iprop(StableHlo.held (c : Thread nD τ) (Pipeline.ucRefs τ sig) (W4 m c) ∗ ∃ r, prngReg c r)

/-! ## The regions as segments -/

-- a library lemma stated over a pinned configuration unifies with the printed one only when unification may unfold
-- plain definitions in a metavariable's type
set_option backward.isDefEq.respectTransparency.types false in
/-- REGION 0 over the thread state: entered from every unscoped buffer at `W1`, left at `W2`. Its arrays are split
    out of the unscoped buffers and put back at the exit contents; the generator register goes into the invariant and
    comes back; what the accumulators hold at the end is forgotten (the invariant after the last point gives the class
    invariant back); nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from Phi0_first (V1 m) c]; unfold Pipeline.ΦA
    iintro ⟨Hp, -, Hr⟩
    isplitl [Hr]; · iexact Hr
    iexact Hp
  hout c := by
    rw [Pipeline.ownSems0_none]
    have hlast : (pdats m 0 c).Φ (Fin.last _) ⊢ (Pipeline.ΦA spec0 c : sProp 𝕄) := Phi0_last (V1 m) c
    refine hlast.trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over a pinned configuration unifies with the printed one only when unification may unfold
-- plain definitions in a metavariable's type
set_option backward.isDefEq.respectTransparency.types false in
/-- REGION 1 over the thread state: entered from every unscoped buffer at `W2`, left at `W3`. Its arrays are split
    out of the unscoped buffers and put back at the exit contents; the generator register goes into the invariant and
    comes back; what the accumulators hold at the end is forgotten (the invariant after the last point gives the class
    invariant back); nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (V2 m) c]; unfold Pipeline.ΦA
    iintro ⟨Hp, -, Hr⟩
    isplitl [Hr]; · iexact Hr
    iexact Hp
  hout c := by
    rw [Pipeline.ownSems0_none]
    have hlast : (pdats m 1 c).Φ (Fin.last _) ⊢ (Pipeline.ΦA spec1 c : sProp 𝕄) := Phi1_last (V2 m) c
    refine hlast.trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order: the reshapes, the projection, the reconstruction, the closing host operations. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
/-- @main is the run of the segments. -/
theorem main_run (c : Dev nD) : main (F := F) c = Pipeline.Seg.run (segs m) := (main_chain c).trans (by chain_rfl)

-- the launch theorem's implicit arguments are found by unifying its conclusion with this one, which takes unfolding
-- plain definitions in a metavariable's type
set_option backward.isDefEq.respectTransparency.types false in
/-- THE RUN: from any memory with zero counters, every weakly fair execution of @main on the TensorCores terminates, and
    in every final state each unscoped buffer holds what the fold through the four segments says (`W4`). -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ (∃ r, prngReg c r)
        ∗ ∃ W, owes (c : Thread nD τ) (0 : CellTallies nD τ sig Unit) W) ⊢ (_ : sProp 𝕄)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Fr

end
-- ==== Proof.Spec.lean ====
/- The mathematics both programs compute, over the extended reals, stated once over plain index types.

   The five inputs: two signals y_pred and y and an integer mask, each over 8·8 rows of 256·256 pixels; a basis A
   (pixel × coefficient) and its pseudo-inverse (coefficient × pixel). With M the mask read as numbers:
     coefficients   x[r,k]  = ∑ₙ (signal[r,n] · M[r,n]) · pinv[k,n]
     reconstruction b[r,n]  = (∑ₖ x[r,k] · A[n,k]) · M[r,n]
     the result             = (∑ᵣ ∑ₙ (b_pred[r,n] − b_y[r,n])²) / 4194304.
   The kernel visits the pixels in 16 tiles of 4096 and keeps running totals; the reference sums them in one go.
   Addition on the extended reals is commutative and associative, so the two groupings agree: the regrouping
   lemmas below say so, for a sum over pixels cut into tiles, for a running total started at zero, and for the
   three-axis index set of the reference. No finiteness is needed anywhere. -/
import Idealize.ShloMosaic.PureOps.Ideal.Laws
import Idealize.ShloMosaic.Lib.ValueIdx

noncomputable section

open scoped BigOperators

namespace Cert.Spec

open Idealize.ShloMosaic Idealize.ShloMosaic.ValueIdx

/-- The signals' and the mask's four-axis shape, the basis's and the pseudo-inverse's. -/
abbrev S4 : Shape := ⟨4, ![8, 8, 256, 256]⟩
abbrev SA : Shape := ⟨2, ![65536, 110]⟩
abbrev SP : Shape := ⟨2, ![110, 65536]⟩

/-- Row `r` of 64 = 8·8 and pixel `n` of 65536 = 256·256, in the four-axis layout: (r / 8, r % 8, n / 256, n % 256). -/
def src (r : Fin 64) (n : Fin 65536) : S4.Idx :=
  ix4 (⟨r.val / 8, by have := r.isLt; omega⟩ : Fin 8) (⟨r.val % 8, by omega⟩ : Fin 8)
    (⟨n.val / 256, by have := n.isLt; omega⟩ : Fin 256) (⟨n.val % 256, by omega⟩ : Fin 256)

variable (x0 x1 : S4.Idx → EReal) (x2 : S4.Idx → BitVec 32) (x3 : SA.Idx → EReal) (x4 : SP.Idx → EReal)

/-- The mask at (r, n), as a number: the integer word read signed. -/
def msk (r : Fin 64) (n : Fin 65536) : EReal := (((x2 (src r n)).toInt : ℝ) : EReal)

/-- Coefficient `k` of row `r` of the masked signal `x`. -/
def coef (x : S4.Idx → EReal) (r : Fin 64) (k : Fin 110) : EReal :=
  ∑ n : Fin 65536, (x (src r n) * msk x2 r n) * x4 (ix2 k n)

/-- The masked reconstruction of row `r` at pixel `n` from the coefficients `xc`. -/
def recon (xc : Fin 64 → Fin 110 → EReal) (r : Fin 64) (n : Fin 65536) : EReal :=
  (∑ k : Fin 110, xc r k * x3 (ix2 n k)) * msk x2 r n

/-- The squared difference of the two reconstructions at (r, n). -/
def sqd (r : Fin 64) (n : Fin 65536) : EReal :=
  (recon x2 x3 (coef x2 x4 x0) r n - recon x2 x3 (coef x2 x4 x1) r n)
    * (recon x2 x3 (coef x2 x4 x0) r n - recon x2 x3 (coef x2 x4 x1) r n)

/-- The sum of squared differences over all rows and pixels. -/
def sse : EReal := ∑ r : Fin 64, ∑ n : Fin 65536, sqd x0 x1 x2 x3 x4 r n

/-! ## Regrouping sums -/

/-- Pixel `q` of tile `t`. -/
def tix (t : Fin 16) (q : Fin 4096) : Fin 65536 := ⟨4096 * t.val + q.val, by have := t.isLt; have := q.isLt; omega⟩

/-- The pixels are the pairs (tile, pixel inside the tile): n = 4096 t + q. -/
def tileEquiv : Fin 16 × Fin 4096 ≃ Fin 65536 where
  toFun p := tix p.1 p.2
  invFun n := (⟨n.val / 4096, by have := n.isLt; omega⟩, ⟨n.val % 4096, by omega⟩)
  left_inv p := by
    obtain ⟨t, q⟩ := p
    have ht := t.isLt
    have hq := q.isLt
    refine Prod.ext (Fin.ext ?_) (Fin.ext ?_)
    · show (4096 * t.val + q.val) / 4096 = t.val
      omega
    · show (4096 * t.val + q.val) % 4096 = q.val
      omega
  right_inv n := by
    refine Fin.ext ?_
    show 4096 * (n.val / 4096) + n.val % 4096 = n.val
    omega

/-- The 64 rows are the pairs (b, c) of 8 × 8: r = 8 b + c. -/
def rowEquiv : Fin 64 ≃ Fin 8 × Fin 8 where
  toFun r := (⟨r.val / 8, by have := r.isLt; omega⟩, ⟨r.val % 8, by omega⟩)
  invFun p := ⟨8 * p.1.val + p.2.val, by have := p.1.isLt; have := p.2.isLt; omega⟩
  left_inv r := Fin.ext (by
    show 8 * (r.val / 8) + r.val % 8 = r.val
    omega)
  right_inv p := by
    obtain ⟨b, c⟩ := p
    have hb := b.isLt
    have hc := c.isLt
    refine Prod.ext (Fin.ext ?_) (Fin.ext ?_)
    · show (8 * b.val + c.val) / 8 = b.val
      omega
    · show (8 * b.val + c.val) % 8 = c.val
      omega

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A sum over the pixels is the sum over the tiles of the sums inside each tile. -/
theorem sum_tiles (f : Fin 65536 → EReal) : ∑ t : Fin 16, ∑ q : Fin 4096, f (tix t q) = ∑ n : Fin 65536, f n :=
  (Fintype.sum_prod_type (fun p : Fin 16 × Fin 4096 => f (tix p.1 p.2))).symm.trans (Equiv.sum_comp tileEquiv f)

/-- A running total over the 16 tiles that starts at `0 + g 0` and adds `g (n+1)` at step `n+1` ends at `∑ₜ g t`. -/
theorem running_total (acc : (n : ℕ) → n < 16 → EReal) (g : Fin 16 → EReal)
    (h0 : acc 0 (by omega) = 0 + g ⟨0, by omega⟩)
    (hs : ∀ (n : ℕ) (h : n + 1 < 16), acc (n + 1) h = acc n (by omega) + g ⟨n + 1, h⟩) :
    acc 15 (by omega) = ∑ t : Fin 16, g t := by
  -- after step n the total is the sum of the first n + 1 terms
  have key : ∀ (n : ℕ) (h : n < 16),
      acc n h = ∑ t ∈ Finset.range (n + 1), (if h' : t < 16 then g ⟨t, h'⟩ else 0) := by
    intro n
    induction n with
    | zero =>
      intro h
      rw [h0, Finset.sum_range_succ, Finset.sum_range_zero, dif_pos h]
    | succ k ih =>
      intro h
      rw [hs k h, ih (by omega), Finset.sum_range_succ _ (k + 1), dif_pos h]
  rw [key 15 (by omega), ← Fin.sum_univ_eq_sum_range (fun t => if h' : t < 16 then g ⟨t, h'⟩ else 0) 16]
  exact Finset.sum_congr rfl fun t _ => dif_pos t.isLt

/-- Tiles outermost, then rows, then the pixels of the tile: the same total as rows then pixels. -/
theorem sum_tiles_rows (f : Fin 64 → Fin 65536 → EReal) :
    ∑ t : Fin 16, ∑ r : Fin 64, ∑ q : Fin 4096, f r (tix t q) = ∑ r : Fin 64, ∑ n : Fin 65536, f r n :=
  Finset.sum_comm.trans (Finset.sum_congr rfl fun r _ => sum_tiles (f r))

/-- A sum over the three-axis index set (8, 8, 65536) is the sum over the 64 rows r = 8b + c and the pixels. -/
theorem sum_rows3 (f : (⟨3, ![8, 8, 65536]⟩ : Shape).Idx → EReal) :
    ∑ j : (⟨3, ![8, 8, 65536]⟩ : Shape).Idx, f j
      = ∑ r : Fin 64, ∑ n : Fin 65536, f (ix3 (⟨r.val / 8, by have := r.isLt; omega⟩ : Fin 8) (⟨r.val % 8, by omega⟩ : Fin 8) n) := by
  -- the three coordinates, then the first two paired, then the pairs counted as rows
  have h1 := sum_idx3 f
  have h2 := Fintype.sum_prod_type (fun p : Fin 8 × Fin 8 => ∑ n : Fin 65536, f (ix3 p.1 p.2 n))
  have h3 := Equiv.sum_comp rowEquiv (fun p : Fin 8 × Fin 8 => ∑ n : Fin 65536, f (ix3 p.1 p.2 n))
  exact h1.trans (h2.symm.trans h3.symm)

end Cert.Spec

end
-- ==== Proof.KI.Value0.lean ====
/- Region 0 (the projection), read as values over the extended reals: what its two result arrays hold when it ends.
   At every grid point t the body adds to each of two accumulators the product of this tile's masked signal
   (signal × mask, the mask read as a number) with this tile's columns of the pseudo-inverse; the first point starts
   both from zero and the last point copies them into the two result windows, which are written back once, whole.
   So entry (r, k) of each result array is the running total over the 16 tiles of
     ∑_q (signal[r, 4096 t + q] · mask[r, 4096 t + q]) · pinv[k, 4096 t + q],
   which is the sum over all 65536 pixels. The steps: each case's stores read back as the body's arithmetic; that
   arithmetic at an index (r, k); each window's block as tile t of its array; the running total by induction on the
   point; the one write-back covering the whole array. -/
import proofs.«149681_j46213848105408_1_alg».proof.Proof.KI.Data0
import proofs.«149681_j46213848105408_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val0

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen Cert.KernelIdeal.Fr

/-! ## What each case's run leaves, as the body's payloads -/

section Pieces
variable {F : FTy → Type} [FloatOps F]

/-- The zero offsets every load and store of the body uses. -/
theorem hz : (![0, 0] : Fin 2 → Nat) = fun _ => 0 := funext fun a => by fin_cases a <;> rfl

theorem piece_A_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : first0 i) (hc1 : ¬last0 i) (x0 : Vec F S110x4096 .f32) (x1 : Vec F S64x4096 .f32) (x2 : Vec F S64x4096 .f32) (x3 : Vec F S64x4096 .i32) :
    sout0_A_0 c i arg1 harg1 arg2 harg2 arg3 harg3 arg4 harg4 arg5 harg5 arg6 harg6 arg7 harg7 arg8 harg8 hc0 hc1 x0 x1 x2 x3 = k0_pay5 x3 x1 x0 (k0_pay1 (F := F)) := by
  unfold sout0_A_0
  rw [View.read_writes_eq_canon _ _ _ (scover0_A_0 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S64x110) hz, View.readCov_unit_zero (S := S64x110) _ hz]
  simp only [View.readAt_eq_ld, harg1.read_unread, harg2.read_unread, harg3.read_unread, harg4.read_unread, harg7.read_unread, harg8.read_unread, View.ld_unit_zero (S := S64x4096) hz, View.ld_unit_zero (S := S110x4096) hz, View.ld_unit_zero (S := S64x110) hz, View.readCov_unit_zero (S := S64x110) _ hz]

theorem piece_A_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : first0 i) (hc1 : ¬last0 i) (x0 : Vec F S110x4096 .f32) (x1 : Vec F S64x4096 .f32) (x2 : Vec F S64x4096 .f32) (x3 : Vec F S64x4096 .i32) :
    sout0_A_1 c i arg1 harg1 arg2 harg2 arg3 harg3 arg4 harg4 arg5 harg5 arg6 harg6 arg7 harg7 arg8 harg8 hc0 hc1 x0 x1 x2 x3 = k0_pay6 x3 x2 x0 (k0_pay2 (F := F)) := by
  unfold sout0_A_1
  rw [View.read_writes_eq_canon _ _ _ (scover0_A_1 c i arg1 harg1 arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S64x110) hz, View.readCov_unit_zero (S := S64x110) _ hz]
  simp only [View.readAt_eq_ld, harg1.read_unread, harg2.read_unread, harg3.read_unread, harg4.read_unread, harg7.read_unread, harg8.read_unread, View.ld_unit_zero (S := S64x4096) hz, View.ld_unit_zero (S := S110x4096) hz, View.ld_unit_zero (S := S64x110) hz, View.readCov_unit_zero (S := S64x110) _ hz]

theorem piece_B_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : ¬last0 i) (x0 : Vec F S110x4096 .f32) (x1 : Vec F S64x4096 .f32) (x2 : Vec F S64x4096 .f32) (x3 : Vec F S64x4096 .i32) (xs0 xs1 : Vec F S64x110 .f32) :
    sout0_B_0 c i arg1 harg1 arg2 harg2 arg3 harg3 arg4 harg4 arg5 harg5 arg6 harg6 arg7 harg7 arg8 harg8 hc0 hc1 x0 x1 x2 x3 xs0 xs1 = k0_pay5 x3 x1 x0 xs0 := by
  unfold sout0_B_0
  rw [View.read_writes_eq_canon _ _ _ (scover0_B_0 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg1.read_unread, harg2.read_unread, harg3.read_unread, harg4.read_unread, harg7.read_unread, harg8.read_unread, View.ld_unit_zero (S := S64x4096) hz, View.ld_unit_zero (S := S110x4096) hz, View.ld_unit_zero (S := S64x110) hz, View.readCov_unit_zero (S := S64x110) _ hz]

theorem piece_B_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : ¬last0 i) (x0 : Vec F S110x4096 .f32) (x1 : Vec F S64x4096 .f32) (x2 : Vec F S64x4096 .f32) (x3 : Vec F S64x4096 .i32) (xs0 xs1 : Vec F S64x110 .f32) :
    sout0_B_1 c i arg1 harg1 arg2 harg2 arg3 harg3 arg4 harg4 arg5 harg5 arg6 harg6 arg7 harg7 arg8 harg8 hc0 hc1 x0 x1 x2 x3 xs0 xs1 = k0_pay6 x3 x2 x0 xs1 := by
  unfold sout0_B_1
  rw [View.read_writes_eq_canon _ _ _ (scover0_B_1 c i arg1 harg1 arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero hz]
  simp only [View.readAt_eq_ld, harg1.read_unread, harg2.read_unread, harg3.read_unread, harg4.read_unread, harg7.read_unread, harg8.read_unread, View.ld_unit_zero (S := S64x4096) hz, View.ld_unit_zero (S := S110x4096) hz, View.ld_unit_zero (S := S64x110) hz, View.readCov_unit_zero (S := S64x110) _ hz]

theorem piece_C_4 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) :
    out0_C_4 c i arg1 harg1 arg2 harg2 arg3 harg3 arg4 harg4 arg5 harg5 arg6 harg6 arg7 harg7 arg8 harg8 hc0 hc1 x0 x1 x2 x3 xs0 xs1 = k0_pay5 x3 x1 x0 xs0 := by
  unfold out0_C_4
  rw [View.read_writes_eq_canon _ _ _ (cover0_C_4 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg7.read_unread, harg8.read_unread, View.ld_unit_zero (S := S64x4096) hz, View.ld_unit_zero (S := S110x4096) hz, View.ld_unit_zero (S := S64x110) hz, View.readCov_unit_zero (S := S64x110) _ hz]

theorem piece_C_5 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) :
    out0_C_5 c i arg1 harg1 arg2 harg2 arg3 harg3 arg4 harg4 arg5 harg5 arg6 harg6 arg7 harg7 arg8 harg8 hc0 hc1 x0 x1 x2 x3 xs0 xs1 = k0_pay6 x3 x2 x0 xs1 := by
  unfold out0_C_5
  rw [View.read_writes_eq_canon _ _ _ (cover0_C_5 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg7.read_unread, harg8.read_unread, View.ld_unit_zero (S := S64x4096) hz, View.ld_unit_zero (S := S110x4096) hz, View.ld_unit_zero (S := S64x110) hz, View.readCov_unit_zero (S := S64x110) _ hz]

theorem piece_C_0 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) :
    sout0_C_0 c i arg1 harg1 arg2 harg2 arg3 harg3 arg4 harg4 arg5 harg5 arg6 harg6 arg7 harg7 arg8 harg8 hc0 hc1 x0 x1 x2 x3 xs0 xs1 = k0_pay5 x3 x1 x0 xs0 := by
  unfold sout0_C_0
  rw [View.read_writes_eq_canon _ _ _ (scover0_C_0 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg7.read_unread, harg8.read_unread, View.ld_unit_zero (S := S64x4096) hz, View.ld_unit_zero (S := S110x4096) hz, View.ld_unit_zero (S := S64x110) hz, View.readCov_unit_zero (S := S64x110) _ hz]

theorem piece_C_1 (c : Dev nD) (i : grid0.Coords) (arg1 : Memref sig .tc .vmem S110x4096 .f32) (harg1 : arg1.IsWhole) (arg2 : Memref sig .tc .vmem S64x4096 .f32) (harg2 : arg2.IsWhole) (arg3 : Memref sig .tc .vmem S64x4096 .f32) (harg3 : arg3.IsWhole) (arg4 : Memref sig .tc .vmem S64x4096 .i32) (harg4 : arg4.IsWhole) (arg5 : Memref sig .tc .vmem S64x110 .f32) (harg5 : arg5.IsWhole) (arg6 : Memref sig .tc .vmem S64x110 .f32) (harg6 : arg6.IsWhole) (arg7 : Memref sig .tc .vmem S64x110 .f32) (harg7 : arg7.IsWhole) (arg8 : Memref sig .tc .vmem S64x110 .f32) (harg8 : arg8.IsWhole) (hc0 : ¬first0 i) (hc1 : last0 i) (x0 : Vec F S110x4096 .f32) (x1 : Vec F S64x4096 .f32) (x2 : Vec F S64x4096 .f32) (x3 : Vec F S64x4096 .i32) (xs0 xs1 : Vec F S64x110 .f32) :
    sout0_C_1 c i arg1 harg1 arg2 harg2 arg3 harg3 arg4 harg4 arg5 harg5 arg6 harg6 arg7 harg7 arg8 harg8 hc0 hc1 x0 x1 x2 x3 xs0 xs1 = k0_pay6 x3 x2 x0 xs1 := by
  unfold sout0_C_1
  rw [View.read_writes_eq_canon _ _ _ (scover0_C_1 c i arg1 harg1 arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero hz]
  simp only [View.readAt_eq_ld, harg1.read_unread, harg2.read_unread, harg3.read_unread, harg4.read_unread, harg7.read_unread, harg8.read_unread, View.ld_unit_zero (S := S64x4096) hz, View.ld_unit_zero (S := S110x4096) hz, View.ld_unit_zero (S := S64x110) hz, View.readCov_unit_zero (S := S64x110) _ hz]

end Pieces

/-! ## The payloads at an index, over the extended reals -/

section Payload

theorem lhs_dot_0 (j : S64x110.Idx) (q : dot_S64x4096_S110x4096_S64x110_1_1_0_0_n_n.contr.Idx) :
    (dot_S64x4096_S110x4096_S64x110_1_1_0_0_n_n.lhsIdx j q 0).val = (j 0).val := by
  unfold DotDims.lhsIdx
  rw [dif_neg (show ¬(0 : Fin S64x4096.rank) ∈ dot_S64x4096_S110x4096_S64x110_1_1_0_0_n_n.lhsBatch by decide), dif_pos (show (0 : Fin S64x4096.rank) ∈ dot_S64x4096_S110x4096_S64x110_1_1_0_0_n_n.lhsNonContracting by decide)]
  rfl
theorem lhs_dot_1 (j : S64x110.Idx) (q : dot_S64x4096_S110x4096_S64x110_1_1_0_0_n_n.contr.Idx) :
    (dot_S64x4096_S110x4096_S64x110_1_1_0_0_n_n.lhsIdx j q 1).val = (q ⟨0, by decide⟩).val :=
  dot_S64x4096_S110x4096_S64x110_1_1_0_0_n_n.lhsIdx_val_of_single rfl j q
theorem rhs_dot_0 (j : S64x110.Idx) (q : dot_S64x4096_S110x4096_S64x110_1_1_0_0_n_n.contr.Idx) :
    (dot_S64x4096_S110x4096_S64x110_1_1_0_0_n_n.rhsIdx j q 0).val = (j 1).val := by
  unfold DotDims.rhsIdx
  rw [dif_neg (show ¬(0 : Fin S110x4096.rank) ∈ dot_S64x4096_S110x4096_S64x110_1_1_0_0_n_n.rhsBatch by decide), dif_pos (show (0 : Fin S110x4096.rank) ∈ dot_S64x4096_S110x4096_S64x110_1_1_0_0_n_n.rhsNonContracting by decide)]
  rfl
theorem rhs_dot_1 (j : S64x110.Idx) (q : dot_S64x4096_S110x4096_S64x110_1_1_0_0_n_n.contr.Idx) :
    (dot_S64x4096_S110x4096_S64x110_1_1_0_0_n_n.rhsIdx j q 1).val = (q ⟨0, by decide⟩).val :=
  dot_S64x4096_S110x4096_S64x110_1_1_0_0_n_n.rhsIdx_val_of_single rfl j q

/-- The body's product into the zero splat, at (r, k): the sum over the tile's 4096 pixels of the left operand at
    (r, q) times the right at (k, q). -/
theorem dot_apply (l : FVec Ideal S64x4096 .bf16) (rr : FVec Ideal S110x4096 .bf16) (r : Fin 64) (k : Fin 110) :
    matmul dot_S64x4096_S110x4096_S64x110_1_1_0_0_n_n none l rr (constant (F := Ideal) S64x110 .f32 0x00000000#32) (ix2 r k)
      = ∑ q : Fin 4096, l (ix2 r q) * rr (ix2 k q) := by
  refine (Ideal.matmul_constant_zero_apply dot_S64x4096_S110x4096_S64x110_1_1_0_0_n_n none l rr (ix2 r k)).trans ?_
  rw [← Equiv.sum_comp (contrEquiv1 dot_S64x4096_S110x4096_S64x110_1_1_0_0_n_n 4096 rfl rfl).symm]
  refine Finset.sum_congr rfl fun q _ => ?_
  have hq := contrEquiv1_symm_val dot_S64x4096_S110x4096_S64x110_1_1_0_0_n_n 4096 rfl rfl q
  have el : dot_S64x4096_S110x4096_S64x110_1_1_0_0_n_n.lhsIdx (ix2 r k) ((contrEquiv1 dot_S64x4096_S110x4096_S64x110_1_1_0_0_n_n 4096 rfl rfl).symm q) = ix2 r q := funext fun a => Fin.ext (by
    match a with
    | ⟨0, _⟩ => exact lhs_dot_0 _ _
    | ⟨1, _⟩ => exact (lhs_dot_1 _ _).trans hq)
  have er : dot_S64x4096_S110x4096_S64x110_1_1_0_0_n_n.rhsIdx (ix2 r k) ((contrEquiv1 dot_S64x4096_S110x4096_S64x110_1_1_0_0_n_n 4096 rfl rfl).symm q) = ix2 k q := funext fun a => Fin.ext (by
    match a with
    | ⟨0, _⟩ => exact rhs_dot_0 _ _
    | ⟨1, _⟩ => exact (rhs_dot_1 _ _).trans hq)
  rw [el, er]

/-- The first accumulator's update at (r, k): what it held plus this tile's masked signal against the tile's
    columns of the pseudo-inverse. -/
theorem pay5_apply (msk : Vec Ideal S64x4096 .i32) (y : Vec Ideal S64x4096 .f32) (ap : Vec Ideal S110x4096 .f32)
    (acc : Vec Ideal S64x110 .f32) (r : Fin 64) (k : Fin 110) :
    k0_pay5 (F := Ideal) msk y ap acc (ix2 r k)
      = (acc (ix2 r k) : EReal) + ∑ q : Fin 4096, ((y (ix2 r q) : EReal) * ((((msk (ix2 r q) : BitVec 32)).toInt : ℝ) : EReal)) * (ap (ix2 k q) : EReal) := by
  unfold k0_pay5 k0_pay3 k0_pay4
  simp only [shapeCast_self]
  refine (addf_apply _ _ (ix2 r k)).trans ?_
  refine congrArg (fun z : EReal => (acc (ix2 r k) : EReal) + z) ?_
  refine (dot_apply _ _ r k).trans ?_
  rfl

/-- The second accumulator's update: the same with the other signal. -/
theorem pay6_apply (msk : Vec Ideal S64x4096 .i32) (y : Vec Ideal S64x4096 .f32) (ap : Vec Ideal S110x4096 .f32)
    (acc : Vec Ideal S64x110 .f32) (r : Fin 64) (k : Fin 110) :
    k0_pay6 (F := Ideal) msk y ap acc (ix2 r k)
      = (acc (ix2 r k) : EReal) + ∑ q : Fin 4096, ((y (ix2 r q) : EReal) * ((((msk (ix2 r q) : BitVec 32)).toInt : ℝ) : EReal)) * (ap (ix2 k q) : EReal) := by
  unfold k0_pay6 k0_pay3 k0_pay4
  simp only [shapeCast_self]
  refine (addf_apply _ _ (ix2 r k)).trans ?_
  refine congrArg (fun z : EReal => (acc (ix2 r k) : EReal) + z) ?_
  refine (dot_apply _ _ r k).trans ?_
  rfl

/-- The reset value is zero everywhere. -/
theorem pay1_apply (j : S64x110.Idx) : (k0_pay1 (F := Ideal)) j = (0 : EReal) := by
  unfold k0_pay1
  simp only [shapeCast_self]
  exact Ideal.ofBits_zero_f32
theorem pay2_apply (j : S64x110.Idx) : (k0_pay2 (F := Ideal)) j = (0 : EReal) := by
  unfold k0_pay2
  simp only [shapeCast_self]
  exact Ideal.ofBits_zero_f32

end Payload

/-! ## The windows' blocks: tile `t` of each array -/

section Blocks
variable {F : FTy → Type} [FloatOps F]
variable (V : (c : Dev nD) → (b : Ref sig .tc) → Buf (Elt F) ((c : Thread nD τ).loc b))

/-- A grid point of the projection as a tile number. -/
def tile (t : Fin cfg0.N) : Fin 16 := ⟨t.val, Nat.lt_of_lt_of_eq t.isLt N_0⟩

/-- A tile number is a point of the grid. -/
theorem lt16 {n : ℕ} (h : n < 16) : n < cfg0.N := Nat.lt_of_lt_of_eq h N_0.symm

/-- The four input windows' index maps: block (0, t) at point t. -/
theorem index0_0 : ∀ t : Fin cfg0.N, win0_0.index t 0 = 0 ∧ win0_0.index t 1 = t.val :=
  (by decide +kernel : ∀ t : Fin grid0.N, win0_0.index t 0 = 0 ∧ win0_0.index t 1 = t.val)
theorem index0_1 : ∀ t : Fin cfg0.N, win0_1.index t 0 = 0 ∧ win0_1.index t 1 = t.val :=
  (by decide +kernel : ∀ t : Fin grid0.N, win0_1.index t 0 = 0 ∧ win0_1.index t 1 = t.val)
theorem index0_2 : ∀ t : Fin cfg0.N, win0_2.index t 0 = 0 ∧ win0_2.index t 1 = t.val :=
  (by decide +kernel : ∀ t : Fin grid0.N, win0_2.index t 0 = 0 ∧ win0_2.index t 1 = t.val)
theorem index0_3 : ∀ t : Fin cfg0.N, win0_3.index t 0 = 0 ∧ win0_3.index t 1 = t.val :=
  (by decide +kernel : ∀ t : Fin grid0.N, win0_3.index t 0 = 0 ∧ win0_3.index t 1 = t.val)

/-- Window 0's block at point `t` is columns 4096 t … of the pseudo-inverse. -/
theorem blk0_apply (c : Dev nD) (t : Fin cfg0.N) (k : Fin 110) (q : Fin 4096) :
    (iblk0 V c 0 t : Vec F S110x4096 .f32) (ix2 k q) = (V c main_arg4 : Vec F S110x65536 .f32) (ix2 k (Cert.Spec.tix (tile t) q)) := by
  unfold iblk0
  rw [View.read_apply]
  show V c main_arg4 _ = V c main_arg4 _
  congr 1
  funext a
  apply Fin.ext
  match a with
  | ⟨0, _⟩ => show win0_0.index t 0 * 110 + 1 * k.val = k.val; rw [(index0_0 t).1]; omega
  | ⟨1, _⟩ => show win0_0.index t 1 * 4096 + 1 * q.val = 4096 * t.val + q.val; rw [(index0_0 t).2]; omega

/-- Window 1's block at point `t` is columns 4096 t … of the first signal. -/
theorem blk1_apply (c : Dev nD) (t : Fin cfg0.N) (r : Fin 64) (q : Fin 4096) :
    (iblk0 V c 1 t : Vec F S64x4096 .f32) (ix2 r q) = (V c main_v0 : Vec F S64x65536 .f32) (ix2 r (Cert.Spec.tix (tile t) q)) := by
  unfold iblk0
  rw [View.read_apply]
  show V c main_v0 _ = V c main_v0 _
  congr 1
  funext a
  apply Fin.ext
  match a with
  | ⟨0, _⟩ => show win0_1.index t 0 * 64 + 1 * r.val = r.val; rw [(index0_1 t).1]; omega
  | ⟨1, _⟩ => show win0_1.index t 1 * 4096 + 1 * q.val = 4096 * t.val + q.val; rw [(index0_1 t).2]; omega

/-- Window 2's, of the second signal. -/
theorem blk2_apply (c : Dev nD) (t : Fin cfg0.N) (r : Fin 64) (q : Fin 4096) :
    (iblk0 V c 2 t : Vec F S64x4096 .f32) (ix2 r q) = (V c main_v1 : Vec F S64x65536 .f32) (ix2 r (Cert.Spec.tix (tile t) q)) := by
  unfold iblk0
  rw [View.read_apply]
  show V c main_v1 _ = V c main_v1 _
  congr 1
  funext a
  apply Fin.ext
  match a with
  | ⟨0, _⟩ => show win0_2.index t 0 * 64 + 1 * r.val = r.val; rw [(index0_2 t).1]; omega
  | ⟨1, _⟩ => show win0_2.index t 1 * 4096 + 1 * q.val = 4096 * t.val + q.val; rw [(index0_2 t).2]; omega

/-- Window 3's, of the mask. -/
theorem blk3_apply (c : Dev nD) (t : Fin cfg0.N) (r : Fin 64) (q : Fin 4096) :
    (iblk0 V c 3 t : Vec F S64x4096 .i32) (ix2 r q) = (V c main_v2 : Vec F S64x65536 .i32) (ix2 r (Cert.Spec.tix (tile t) q)) := by
  unfold iblk0
  rw [View.read_apply]
  show V c main_v2 _ = V c main_v2 _
  congr 1
  funext a
  apply Fin.ext
  match a with
  | ⟨0, _⟩ => show win0_3.index t 0 * 64 + 1 * r.val = r.val; rw [(index0_3 t).1]; omega
  | ⟨1, _⟩ => show win0_3.index t 1 * 4096 + 1 * q.val = 4096 * t.val + q.val; rw [(index0_3 t).2]; omega

end Blocks

/-! ## What each point leaves, as a payload of the blocks and of what the point before left -/

section Points
variable {F : FTy → Type} [FloatOps F]
variable (V : (c : Dev nD) → (b : Ref sig .tc) → Buf (Elt F) ((c : Thread nD τ).loc b))

/-- After the first point each accumulator is its update of the reset value. -/
theorem acc0_first (c : Dev nD) (t : Fin cfg0.N) (h0 : t.val = 0) (h1 : ¬t.val = 15) :
    (outsAt0 V c t.val t.isLt).2.2.1 = k0_pay5 (iblk0 V c 3 t) (iblk0 V c 1 t) (iblk0 V c 0 t) (k0_pay1 (F := F)) := by
  rw [outsAt0_A V c t h0 h1]
  dsimp only
  exact piece_A_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((first0_iff t).mpr h0) (fun h => h1 ((last0_iff t).mp h)) (iblk0 V c 0 t) (iblk0 V c 1 t) (iblk0 V c 2 t) (iblk0 V c 3 t)
theorem acc1_first (c : Dev nD) (t : Fin cfg0.N) (h0 : t.val = 0) (h1 : ¬t.val = 15) :
    (outsAt0 V c t.val t.isLt).2.2.2 = k0_pay6 (iblk0 V c 3 t) (iblk0 V c 2 t) (iblk0 V c 0 t) (k0_pay2 (F := F)) := by
  rw [outsAt0_A V c t h0 h1]
  dsimp only
  exact piece_A_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) ((first0_iff t).mpr h0) (fun h => h1 ((last0_iff t).mp h)) (iblk0 V c 0 t) (iblk0 V c 1 t) (iblk0 V c 2 t) (iblk0 V c 3 t)

/-- After a middle point each accumulator is its update of what the point before left. -/
theorem acc0_mid (c : Dev nD) (t : Fin cfg0.N) (h0 : ¬t.val = 0) (h1 : ¬t.val = 15) :
    (outsAt0 V c t.val t.isLt).2.2.1 = k0_pay5 (iblk0 V c 3 t) (iblk0 V c 1 t) (iblk0 V c 0 t) (prev0_0 V c t) := by
  rw [outsAt0_B V c t h0 h1]
  dsimp only
  exact piece_B_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) (fun h => h1 ((last0_iff t).mp h)) (iblk0 V c 0 t) (iblk0 V c 1 t) (iblk0 V c 2 t) (iblk0 V c 3 t) (prev0_0 V c t) (prev0_1 V c t)
theorem acc1_mid (c : Dev nD) (t : Fin cfg0.N) (h0 : ¬t.val = 0) (h1 : ¬t.val = 15) :
    (outsAt0 V c t.val t.isLt).2.2.2 = k0_pay6 (iblk0 V c 3 t) (iblk0 V c 2 t) (iblk0 V c 0 t) (prev0_1 V c t) := by
  rw [outsAt0_B V c t h0 h1]
  dsimp only
  exact piece_B_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) (fun h => h1 ((last0_iff t).mp h)) (iblk0 V c 0 t) (iblk0 V c 1 t) (iblk0 V c 2 t) (iblk0 V c 3 t) (prev0_0 V c t) (prev0_1 V c t)

/-- After the last point likewise, and the two result windows' buffers hold the same two updates. -/
theorem acc0_last (c : Dev nD) (t : Fin cfg0.N) (h0 : ¬t.val = 0) (h1 : t.val = 15) :
    (outsAt0 V c t.val t.isLt).2.2.1 = k0_pay5 (iblk0 V c 3 t) (iblk0 V c 1 t) (iblk0 V c 0 t) (prev0_0 V c t) := by
  rw [outsAt0_C V c t h0 h1]
  dsimp only
  exact piece_C_0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) ((last0_iff t).mpr h1) (iblk0 V c 0 t) (iblk0 V c 1 t) (iblk0 V c 2 t) (iblk0 V c 3 t) (prev0_0 V c t) (prev0_1 V c t)
theorem acc1_last (c : Dev nD) (t : Fin cfg0.N) (h0 : ¬t.val = 0) (h1 : t.val = 15) :
    (outsAt0 V c t.val t.isLt).2.2.2 = k0_pay6 (iblk0 V c 3 t) (iblk0 V c 2 t) (iblk0 V c 0 t) (prev0_1 V c t) := by
  rw [outsAt0_C V c t h0 h1]
  dsimp only
  exact piece_C_1 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) ((last0_iff t).mpr h1) (iblk0 V c 0 t) (iblk0 V c 1 t) (iblk0 V c 2 t) (iblk0 V c 3 t) (prev0_0 V c t) (prev0_1 V c t)
theorem out4_last (c : Dev nD) (t : Fin cfg0.N) (h0 : ¬t.val = 0) (h1 : t.val = 15) :
    (outsAt0 V c t.val t.isLt).1 = k0_pay5 (iblk0 V c 3 t) (iblk0 V c 1 t) (iblk0 V c 0 t) (prev0_0 V c t) := by
  rw [outsAt0_C V c t h0 h1]
  dsimp only
  exact piece_C_4 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) ((last0_iff t).mpr h1) (iblk0 V c 0 t) (iblk0 V c 1 t) (iblk0 V c 2 t) (iblk0 V c 3 t) (prev0_0 V c t) (prev0_1 V c t)
theorem out5_last (c : Dev nD) (t : Fin cfg0.N) (h0 : ¬t.val = 0) (h1 : t.val = 15) :
    (outsAt0 V c t.val t.isLt).2.1 = k0_pay6 (iblk0 V c 3 t) (iblk0 V c 2 t) (iblk0 V c 0 t) (prev0_1 V c t) := by
  rw [outsAt0_C V c t h0 h1]
  dsimp only
  exact piece_C_5 (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (fun h => h0 ((first0_iff t).mp h)) ((last0_iff t).mpr h1) (iblk0 V c 0 t) (iblk0 V c 1 t) (iblk0 V c 2 t) (iblk0 V c 3 t) (prev0_0 V c t) (prev0_1 V c t)

end Points

/-! ## The running totals over the tiles, and the result arrays -/

section Totals
variable (V : (c : Dev nD) → (b : Ref sig .tc) → Buf (Elt Ideal) ((c : Thread nD τ).loc b))

/-- The term of coefficient (r, k) at pixel n: the signal times the mask read as a number, times the pseudo-inverse. -/
def term (x : Vec Ideal S64x65536 .f32) (m : Vec Ideal S64x65536 .i32) (p : Vec Ideal S110x65536 .f32)
    (r : Fin 64) (k : Fin 110) (n : Fin 65536) : EReal :=
  ((x (ix2 r n) : EReal) * ((((m (ix2 r n) : BitVec 32)).toInt : ℝ) : EReal)) * (p (ix2 k n) : EReal)

/-- Tile t's share of coefficient (r, k). -/
def part (x : Vec Ideal S64x65536 .f32) (m : Vec Ideal S64x65536 .i32) (p : Vec Ideal S110x65536 .f32)
    (r : Fin 64) (k : Fin 110) (t : Fin 16) : EReal :=
  ∑ q : Fin 4096, term x m p r k (Cert.Spec.tix t q)

/-- The first accumulator's update at point t, over the arrays: what it held plus tile t's share. -/
theorem upd0_apply (c : Dev nD) (t : Fin cfg0.N) (acc : Vec Ideal S64x110 .f32) (r : Fin 64) (k : Fin 110) :
    k0_pay5 (F := Ideal) (iblk0 V c 3 t) (iblk0 V c 1 t) (iblk0 V c 0 t) acc (ix2 r k)
      = (acc (ix2 r k) : EReal) + part (V c main_v0) (V c main_v2) (V c main_arg4) r k (tile t) := by
  refine (pay5_apply (iblk0 V c 3 t) (iblk0 V c 1 t) (iblk0 V c 0 t) acc r k).trans ?_
  refine congrArg (fun z : EReal => (acc (ix2 r k) : EReal) + z) ?_
  refine Finset.sum_congr rfl fun q _ => ?_
  rw [blk1_apply V c t r q, blk3_apply V c t r q, blk0_apply V c t k q]
  rfl
/-- The second accumulator's, with the other signal. -/
theorem upd1_apply (c : Dev nD) (t : Fin cfg0.N) (acc : Vec Ideal S64x110 .f32) (r : Fin 64) (k : Fin 110) :
    k0_pay6 (F := Ideal) (iblk0 V c 3 t) (iblk0 V c 2 t) (iblk0 V c 0 t) acc (ix2 r k)
      = (acc (ix2 r k) : EReal) + part (V c main_v1) (V c main_v2) (V c main_arg4) r k (tile t) := by
  refine (pay6_apply (iblk0 V c 3 t) (iblk0 V c 2 t) (iblk0 V c 0 t) acc r k).trans ?_
  refine congrArg (fun z : EReal => (acc (ix2 r k) : EReal) + z) ?_
  refine Finset.sum_congr rfl fun q _ => ?_
  rw [blk2_apply V c t r q, blk3_apply V c t r q, blk0_apply V c t k q]
  rfl

/-- The two accumulators at (r, k) after point n. -/
def acc0At (c : Dev nD) (r : Fin 64) (k : Fin 110) (n : ℕ) (h : n < 16) : EReal :=
  ((outsAt0 V c n (lt16 h)).2.2.1 (ix2 r k) : EReal)
def acc1At (c : Dev nD) (r : Fin 64) (k : Fin 110) (n : ℕ) (h : n < 16) : EReal :=
  ((outsAt0 V c n (lt16 h)).2.2.2 (ix2 r k) : EReal)

theorem acc0At_zero (c : Dev nD) (r : Fin 64) (k : Fin 110) :
    acc0At V c r k 0 (by omega) = 0 + part (V c main_v0) (V c main_v2) (V c main_arg4) r k ⟨0, by omega⟩ := by
  unfold acc0At
  refine (congrFun (acc0_first V c ⟨0, lt16 (by omega)⟩ rfl (by decide)) (ix2 r k)).trans ?_
  refine (upd0_apply V c ⟨0, lt16 (by omega)⟩ (k0_pay1 (F := Ideal)) r k).trans ?_
  rw [pay1_apply]
  rfl
theorem acc1At_zero (c : Dev nD) (r : Fin 64) (k : Fin 110) :
    acc1At V c r k 0 (by omega) = 0 + part (V c main_v1) (V c main_v2) (V c main_arg4) r k ⟨0, by omega⟩ := by
  unfold acc1At
  refine (congrFun (acc1_first V c ⟨0, lt16 (by omega)⟩ rfl (by decide)) (ix2 r k)).trans ?_
  refine (upd1_apply V c ⟨0, lt16 (by omega)⟩ (k0_pay2 (F := Ideal)) r k).trans ?_
  rw [pay2_apply]
  rfl

theorem acc0At_succ (c : Dev nD) (r : Fin 64) (k : Fin 110) (n : ℕ) (h : n + 1 < 16) :
    acc0At V c r k (n + 1) h = acc0At V c r k n (by omega) + part (V c main_v0) (V c main_v2) (V c main_arg4) r k ⟨n + 1, h⟩ := by
  unfold acc0At
  by_cases h1 : n + 1 = 15
  · refine (congrFun (acc0_last V c ⟨n + 1, lt16 h⟩ (Nat.succ_ne_zero n) h1) (ix2 r k)).trans ?_
    exact upd0_apply V c ⟨n + 1, lt16 h⟩ (prev0_0 V c ⟨n + 1, lt16 h⟩) r k
  · refine (congrFun (acc0_mid V c ⟨n + 1, lt16 h⟩ (Nat.succ_ne_zero n) h1) (ix2 r k)).trans ?_
    exact upd0_apply V c ⟨n + 1, lt16 h⟩ (prev0_0 V c ⟨n + 1, lt16 h⟩) r k
theorem acc1At_succ (c : Dev nD) (r : Fin 64) (k : Fin 110) (n : ℕ) (h : n + 1 < 16) :
    acc1At V c r k (n + 1) h = acc1At V c r k n (by omega) + part (V c main_v1) (V c main_v2) (V c main_arg4) r k ⟨n + 1, h⟩ := by
  unfold acc1At
  by_cases h1 : n + 1 = 15
  · refine (congrFun (acc1_last V c ⟨n + 1, lt16 h⟩ (Nat.succ_ne_zero n) h1) (ix2 r k)).trans ?_
    exact upd1_apply V c ⟨n + 1, lt16 h⟩ (prev0_1 V c ⟨n + 1, lt16 h⟩) r k
  · refine (congrFun (acc1_mid V c ⟨n + 1, lt16 h⟩ (Nat.succ_ne_zero n) h1) (ix2 r k)).trans ?_
    exact upd1_apply V c ⟨n + 1, lt16 h⟩ (prev0_1 V c ⟨n + 1, lt16 h⟩) r k

/-- After the last point each accumulator holds the whole sum over the pixels. -/
theorem acc0At_last (c : Dev nD) (r : Fin 64) (k : Fin 110) :
    acc0At V c r k 15 (by omega) = ∑ n : Fin 65536, term (V c main_v0) (V c main_v2) (V c main_arg4) r k n :=
  (Cert.Spec.running_total (acc0At V c r k) (part (V c main_v0) (V c main_v2) (V c main_arg4) r k)
      (acc0At_zero V c r k) (acc0At_succ V c r k)).trans
    (Cert.Spec.sum_tiles (term (V c main_v0) (V c main_v2) (V c main_arg4) r k))
theorem acc1At_last (c : Dev nD) (r : Fin 64) (k : Fin 110) :
    acc1At V c r k 15 (by omega) = ∑ n : Fin 65536, term (V c main_v1) (V c main_v2) (V c main_arg4) r k n :=
  (Cert.Spec.running_total (acc1At V c r k) (part (V c main_v1) (V c main_v2) (V c main_arg4) r k)
      (acc1At_zero V c r k) (acc1At_succ V c r k)).trans
    (Cert.Spec.sum_tiles (term (V c main_v1) (V c main_v2) (V c main_arg4) r k))

end Totals

/-! ## The result arrays: written back once, after the last point, whole -/

section Results
variable {F : FTy → Type} [FloatOps F]
variable (V : (c : Dev nD) → (b : Ref sig .tc) → Buf (Elt F) ((c : Thread nD τ).loc b))

/-- The last point copies each accumulator, as just updated, into its result window. -/
theorem out4_eq_acc (c : Dev nD) (t : Fin cfg0.N) (h1 : t.val = 15) :
    (outsAt0 V c t.val t.isLt).1 = (outsAt0 V c t.val t.isLt).2.2.1 :=
  (out4_last V c t (by omega) h1).trans (acc0_last V c t (by omega) h1).symm
theorem out5_eq_acc (c : Dev nD) (t : Fin cfg0.N) (h1 : t.val = 15) :
    (outsAt0 V c t.val t.isLt).2.1 = (outsAt0 V c t.val t.isLt).2.2.2 :=
  (out5_last V c t (by omega) h1).trans (acc1_last V c t (by omega) h1).symm

/-- The contents after a point depend on the point's number only. -/
theorem outsAt0_congr (c : Dev nD) {n m : ℕ} (e : n = m) (hn : n < cfg0.N) (hm : m < cfg0.N) :
    outsAt0 V c n hn = outsAt0 V c m hm := by
  subst e; rfl

/-- Point 15 is a point of the grid. -/
theorem p15 : 15 < cfg0.N := lt16 (by omega)

/-- What the two result arrays end holding: the accumulators after point 15. -/
def res4 (c : Dev nD) : Vec F S64x110 .f32 := (outsAt0 V c 15 p15).2.2.1
def res5 (c : Dev nD) : Vec F S64x110 .f32 := (outsAt0 V c 15 p15).2.2.2

/-- The result windows' one block is the whole array: block index (0, 0), of the array's own extents, at every point. -/
theorem whole0_4 : ∀ t : Fin cfg0.N, (win0_4.index t 0 = 0 ∧ win0_4.index t 1 = 0)
      ∧ (win0_4.xsize (grid0.coords t) 0 = 64 ∧ win0_4.xsize (grid0.coords t) 1 = 110) :=
  (by decide +kernel : ∀ t : Fin grid0.N, (win0_4.index t 0 = 0 ∧ win0_4.index t 1 = 0)
      ∧ (win0_4.xsize (grid0.coords t) 0 = 64 ∧ win0_4.xsize (grid0.coords t) 1 = 110))
theorem whole0_5 : ∀ t : Fin cfg0.N, (win0_5.index t 0 = 0 ∧ win0_5.index t 1 = 0)
      ∧ (win0_5.xsize (grid0.coords t) 0 = 64 ∧ win0_5.xsize (grid0.coords t) 1 = 110) :=
  (by decide +kernel : ∀ t : Fin grid0.N, (win0_5.index t 0 = 0 ∧ win0_5.index t 1 = 0)
      ∧ (win0_5.xsize (grid0.coords t) 0 = 64 ∧ win0_5.xsize (grid0.coords t) 1 = 110))

/-- After point 15 window 4's buffer holds the first accumulator's final contents. -/
theorem after4_last (c : Dev nD) (t : Fin cfg0.N) (h15 : t.val = 15) : (dat0 V c).after 4 t = res4 V c := by
  rw [after0_4, out4_eq_acc V c t h15, outsAt0_congr V c h15 t.isLt p15]
  unfold res4
  rfl
theorem after5_last (c : Dev nD) (t : Fin cfg0.N) (h15 : t.val = 15) : (dat0 V c).after 5 t = res5 V c := by
  rw [after0_5, out5_eq_acc V c t h15, outsAt0_congr V c h15 t.isLt p15]
  unfold res5
  rfl

/-- The write-back of window 4 happens at point 15 and writes the first accumulator's final contents, read through the
    window's block, which sits at offset (0, 0). -/
theorem flushed4 (c : Dev nD) (t : Fin cfg0.N) (hf : (cfg0.win 4).flush t = true) :
    (dat0 V c).flushed 4 t = ((cfg0.win 4).blk t).view.read (Elt F) (res4 V c) := by
  have h15 : t.val = 15 := by
    have h := (flush0_4 t).mp hf
    have hlt : t.val < 16 := Nat.lt_of_lt_of_eq t.isLt N_0
    omega
  funext y
  rw [View.read_apply]
  show (dat0 V c).after 4 t ((cfg0.win 4).xinj (grid0.coords t) y) = res4 V c (((cfg0.win 4).blk t).view.emb y)
  rw [after4_last V c t h15]
  congr 1
  funext a
  apply Fin.ext
  match a with
  | ⟨0, _⟩ => show (y 0).val = win0_4.index t 0 * 64 + 1 * (y 0).val; rw [(whole0_4 t).1.1]; omega
  | ⟨1, _⟩ => show (y 1).val = win0_4.index t 1 * 110 + 1 * (y 1).val; rw [(whole0_4 t).1.2]; omega
theorem flushed5 (c : Dev nD) (t : Fin cfg0.N) (hf : (cfg0.win 5).flush t = true) :
    (dat0 V c).flushed 5 t = ((cfg0.win 5).blk t).view.read (Elt F) (res5 V c) := by
  have h15 : t.val = 15 := by
    have h := (flush0_5 t).mp hf
    have hlt : t.val < 16 := Nat.lt_of_lt_of_eq t.isLt N_0
    omega
  funext y
  rw [View.read_apply]
  show (dat0 V c).after 5 t ((cfg0.win 5).xinj (grid0.coords t) y) = res5 V c (((cfg0.win 5).blk t).view.emb y)
  rw [after5_last V c t h15]
  congr 1
  funext a
  apply Fin.ext
  match a with
  | ⟨0, _⟩ => show (y 0).val = win0_5.index t 0 * 64 + 1 * (y 0).val; rw [(whole0_5 t).1.1]; omega
  | ⟨1, _⟩ => show (y 1).val = win0_5.index t 1 * 110 + 1 * (y 1).val; rw [(whole0_5 t).1.2]; omega

/-- So each result array ends holding its accumulator's final contents: point 15's block is the whole array. -/
theorem arr4_eq (c : Dev nD) : (dat0 V c).arrAt 4 cfg0.N = res4 V c :=
  (dat0 V c).arrAt_eq_of_cover 4 (res4 V c) (flushed4 V c) fun i =>
    ⟨⟨15, p15⟩, (flush0_4 ⟨15, p15⟩).mpr rfl, by
      show i ∈ ((View.whole main_v3_0).slice (win0_4.rect ⟨15, p15⟩)).set
      rw [View.set_slice_whole, Rect.mem_set_unit]
      have hw := whole0_4 ⟨15, p15⟩
      have b0 : (i 0 : Nat) < 64 := (i 0).isLt
      have b1 : (i 1 : Nat) < 110 := (i 1).isLt
      intro a
      match a with
      | ⟨0, _⟩ =>
        show win0_4.index ⟨15, p15⟩ 0 * 64 ≤ (i 0 : Nat) ∧ (i 0 : Nat) < win0_4.index ⟨15, p15⟩ 0 * 64 + win0_4.xsize (grid0.coords ⟨15, p15⟩) 0
        rw [hw.1.1, hw.2.1]; omega
      | ⟨1, _⟩ =>
        show win0_4.index ⟨15, p15⟩ 1 * 110 ≤ (i 1 : Nat) ∧ (i 1 : Nat) < win0_4.index ⟨15, p15⟩ 1 * 110 + win0_4.xsize (grid0.coords ⟨15, p15⟩) 1
        rw [hw.1.2, hw.2.2]; omega⟩
theorem arr5_eq (c : Dev nD) : (dat0 V c).arrAt 5 cfg0.N = res5 V c :=
  (dat0 V c).arrAt_eq_of_cover 5 (res5 V c) (flushed5 V c) fun i =>
    ⟨⟨15, p15⟩, (flush0_5 ⟨15, p15⟩).mpr rfl, by
      show i ∈ ((View.whole main_v3_1).slice (win0_5.rect ⟨15, p15⟩)).set
      rw [View.set_slice_whole, Rect.mem_set_unit]
      have hw := whole0_5 ⟨15, p15⟩
      have b0 : (i 0 : Nat) < 64 := (i 0).isLt
      have b1 : (i 1 : Nat) < 110 := (i 1).isLt
      intro a
      match a with
      | ⟨0, _⟩ =>
        show win0_5.index ⟨15, p15⟩ 0 * 64 ≤ (i 0 : Nat) ∧ (i 0 : Nat) < win0_5.index ⟨15, p15⟩ 0 * 64 + win0_5.xsize (grid0.coords ⟨15, p15⟩) 0
        rw [hw.1.1, hw.2.1]; omega
      | ⟨1, _⟩ =>
        show win0_5.index ⟨15, p15⟩ 1 * 110 ≤ (i 1 : Nat) ∧ (i 1 : Nat) < win0_5.index ⟨15, p15⟩ 1 * 110 + win0_5.xsize (grid0.coords ⟨15, p15⟩) 1
        rw [hw.1.2, hw.2.2]; omega⟩

end Results

/-! ## The projection's two results -/

section Final
variable (V : (c : Dev nD) → (b : Ref sig .tc) → Buf (Elt Ideal) ((c : Thread nD τ).loc b))

/-- The arrays the projection reads and the two it writes, at their literal shapes (each is the contents `V` of, or
    the region's final contents of, the array named). -/
abbrev sigA (c : Dev nD) : Vec Ideal S64x65536 .f32 := V c main_v0
abbrev sigB (c : Dev nD) : Vec Ideal S64x65536 .f32 := V c main_v1
abbrev maskA (c : Dev nD) : Vec Ideal S64x65536 .i32 := V c main_v2
abbrev pinvA (c : Dev nD) : Vec Ideal S110x65536 .f32 := V c main_arg4
abbrev coefA (c : Dev nD) : Vec Ideal S64x110 .f32 := (dat0 (F := Ideal) V c).arrAt 4 cfg0.N
abbrev coefB (c : Dev nD) : Vec Ideal S64x110 .f32 := (dat0 (F := Ideal) V c).arrAt 5 cfg0.N

theorem res4_apply (c : Dev nD) (r : Fin 64) (k : Fin 110) (h : 15 < 16) :
    (res4 V c (ix2 r k) : EReal) = acc0At V c r k 15 h := by
  unfold res4 acc0At
  rw [outsAt0_congr V c rfl p15 (lt16 h)]
theorem res5_apply (c : Dev nD) (r : Fin 64) (k : Fin 110) (h : 15 < 16) :
    (res5 V c (ix2 r k) : EReal) = acc1At V c r k 15 h := by
  unfold res5 acc1At
  rw [outsAt0_congr V c rfl p15 (lt16 h)]

/-- The first result array at (r, k): coefficient k of row r of the first masked signal, the sum over all pixels. -/
theorem final0_4 (c : Dev nD) (r : Fin 64) (k : Fin 110) :
    coefA V c (ix2 r k)
      = ∑ n : Fin 65536, (sigA V c (ix2 r n) * ((((maskA V c (ix2 r n) : BitVec 32).toInt : ℝ)) : EReal)) * pinvA V c (ix2 k n) :=
  (congrFun (arr4_eq V c) (ix2 r k)).trans ((res4_apply V c r k (by decide)).trans (acc0At_last V c r k))

/-- The second result array likewise, of the second signal. -/
theorem final0_5 (c : Dev nD) (r : Fin 64) (k : Fin 110) :
    coefB V c (ix2 r k)
      = ∑ n : Fin 65536, (sigB V c (ix2 r n) * ((((maskA V c (ix2 r n) : BitVec 32).toInt : ℝ)) : EReal)) * pinvA V c (ix2 k n) :=
  (congrFun (arr5_eq V c) (ix2 r k)).trans ((res5_apply V c r k (by decide)).trans (acc1At_last V c r k))

end Final

end Cert.KernelIdeal.Val0

end
-- ==== Proof.LibColumns.lean ====
/-
  Column forms of the layout operations, and a row sum, read at an index.

  A sum along the second axis of an `[a, b]` array that keeps the axis gives an `[a, 1]` column; taking it off the
  array again broadcasts the column back to `[a, b]`. Here: the cast `[a] → [a, 1]` reads entry `p` at `(p, u)`
  whatever the unit coordinate `u`; the broadcast `[a, 1] → [a, b]` reads the column's entry `(p, 0)` at every
  `(p, c)`; and a lane sum of an `[n, b]` array over its second axis is, at row `r`, the sum over `k` of the
  entries `(r, k)`. All for arbitrary extents.
-/
import Idealize.ShloMosaic.Lib.ValueIdx
import Idealize.ShloMosaic.Lib.Pipeline.Value
import Idealize.ShloMosaic.PureOps.Ideal.Laws

noncomputable section

open scoped BigOperators

namespace Cert.Columns

open Idealize.ShloMosaic Idealize.ShloMosaic.ValueIdx

variable {α : Type}

/-- An `[a]` array cast to the column `[a, 1]` reads, at `(p, u)`, the operand at `p`: the row-major position of
    `(p, u)` in `[a, 1]` is `p · 1 + u` with `u = 0`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum over the second axis of an `[n, b]` array of extended reals, from the zero word, is at row `r` the sum
    of that row's entries. -/
theorem rowSum_apply {n b : ℕ} {φ : FTy} (src : FVec Ideal ⟨2, ![n, b]⟩ φ) (acc : BitVec φ.bits)
    (h : (⟨2, ![n, b]⟩ : Shape).Reduces [1] ⟨1, ![n]⟩) (hφ : FKind.Formats φ) (hacc : acc = FKind.add.neutral φ hφ) (r : Fin n) :
    multiReduction .add [1] ⟨1, ![n]⟩ src acc h hφ hacc (ix1 r) = ∑ k : Fin b, src (ix2 r k) := by
  refine (Ideal.multiReduction_add_single src acc h hφ hacc (ix1 r)).trans ?_
  refine Finset.sum_congr rfl fun k _ => congrArg src ?_
  funext ax
  apply Fin.ext
  match ax with
  | ⟨0, _⟩ => rfl
  | ⟨1, _⟩ => rfl

end Cert.Columns

end
-- ==== Proof.KI.Value1.lean ====
/- The value of region 1 (the reconstruction): what its 1x1 result array holds after the region, at the extended reals.

   Per grid point the body forms, for its tile of 4096 pixels, the two masked reconstructions
     b[r,q] = (∑ₖ x[r,k] · A[q,k]) · M[r,q]        (x the predicted or the true coefficients, M the mask as numbers),
   squares their difference, sums over the 64 rows and the tile's pixels, and adds that to a running total which the
   first point resets to zero; the last point also copies the total into the result window, which is written back
   once. So: each case's stored pieces are the body's arithmetic of the blocks it read; that arithmetic at its one
   index is the total read plus the tile's double sum; the blocks are the arrays read at tile t; the running total
   after the last point is, by induction on the point and regrouping the sum over tiles, the sum over all rows and
   pixels; and the last point's block covers the result array. -/
import proofs.«149681_j46213848105408_1_alg».proof.Proof.KI.Data1
import proofs.«149681_j46213848105408_1_alg».proof.Proof.Spec
import proofs.«149681_j46213848105408_1_alg».proof.Proof.LibColumns
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Val1

open Idealize.ShloMosaic Idealize.ShloMosaic.TcCoe Idealize.ShloMosaic.Tactic Idealize.ShloMosaic.ValueIdx
open Idealize.SL.Sem
open Idealize.ShloMosaic.Pipeline (Dat)
open Cert.KernelIdeal Cert.KernelIdeal.Gen Cert.KernelIdeal.Fr

section Pieces
variable {F : FTy → Type} [FloatOps F]

theorem offs_zero : (![0, 0] : Fin 2 → Nat) = fun _ => 0 := funext fun a => by fin_cases a <;> rfl

/-- A middle point leaves, in the running total entered at `xs0`, the total plus this tile's sum of squares. -/
theorem sout1_B_0_eq (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : ¬last1 i) (x0 : Vec F S64x110 .f32) (x1 : Vec F S64x110 .f32) (x2 : Vec F S4096x110 .f32) (x3 : Vec F S64x4096 .i32) (xs0 : Vec F S1x1 .f32) :
    sout1_B_0 c i arg1 harg1 arg2 harg2 arg3 harg3 arg4 harg4 arg5 harg5 arg6 harg6 hc0 hc1 x0 x1 x2 x3 xs0 = k1_pay2 x3 x2 x0 x1 xs0 := by
  unfold sout1_B_0
  rw [View.read_writes_eq_canon _ _ _ (scover1_B_0 c i arg1 harg1 arg2 harg2 arg3 harg3 arg4 harg4 arg5 harg5 arg6 harg6 hc0 hc1 x0 x1 x2 x3 xs0)]
  unfold kernelRun1_B
  dsimp only
  sl_unfold_words
  rw [View.canon_unit_zero offs_zero]
  simp only [View.readAt_eq_ld, harg1.read_unread, harg2.read_unread, harg3.read_unread, harg4.read_unread, harg5.read_unread, harg6.read_unread, View.ld_unit_zero (S := S64x110) offs_zero, View.ld_unit_zero (S := S4096x110) offs_zero, View.ld_unit_zero (S := S64x4096) offs_zero, View.ld_unit_zero (S := S1x1) offs_zero, View.readCov_unit_zero (S := S1x1) _ offs_zero]

/-- The first point resets the total to the zero block, reads it back, and leaves zero plus the first tile's sum. -/
theorem sout1_A_0_eq (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : first1 i) (hc1 : ¬last1 i) (x0 : Vec F S64x110 .f32) (x1 : Vec F S64x110 .f32) (x2 : Vec F S4096x110 .f32) (x3 : Vec F S64x4096 .i32) :
    sout1_A_0 c i arg1 harg1 arg2 harg2 arg3 harg3 arg4 harg4 arg5 harg5 arg6 harg6 hc0 hc1 x0 x1 x2 x3 = k1_pay2 x3 x2 x0 x1 (k1_pay1 (F := F)) := by
  unfold sout1_A_0
  rw [View.read_writes_eq_canon _ _ _ (scover1_A_0 c i arg1 harg1 arg2 harg2 arg3 harg3 arg4 harg4 arg5 harg5 arg6 harg6 hc0 hc1 x0 x1 x2 x3)]
  unfold kernelRun1_A
  dsimp only
  sl_unfold_words
  rw [View.canon_cons_unit_zero (S := S1x1) offs_zero]
  simp only [View.readAt_eq_ld, harg1.read_unread, harg2.read_unread, harg3.read_unread, harg4.read_unread, harg5.read_unread, harg6.read_unread, View.ld_unit_zero (S := S64x110) offs_zero, View.ld_unit_zero (S := S4096x110) offs_zero, View.ld_unit_zero (S := S64x4096) offs_zero, View.ld_unit_zero (S := S1x1) offs_zero, View.readCov_unit_zero (S := S1x1) _ offs_zero]

/-- The last point leaves the same in the running total as a middle point does. -/
theorem sout1_C_0_eq (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : last1 i) (x0 : Vec F S64x110 .f32) (x1 : Vec F S64x110 .f32) (x2 : Vec F S4096x110 .f32) (x3 : Vec F S64x4096 .i32) (xs0 : Vec F S1x1 .f32) :
    sout1_C_0 c i arg1 harg1 arg2 harg2 arg3 harg3 arg4 harg4 arg5 harg5 arg6 harg6 hc0 hc1 x0 x1 x2 x3 xs0 = k1_pay2 x3 x2 x0 x1 xs0 := by
  unfold sout1_C_0
  rw [View.read_writes_eq_canon _ _ _ (scover1_C_0 c i arg1 harg1 arg2 harg2 arg3 harg3 arg4 harg4 arg5 harg5 arg6 harg6 hc0 hc1 x0 x1 x2 x3 xs0)]
  unfold kernelRun1_C
  dsimp only
  sl_unfold_words
  rw [View.canon_unit_zero offs_zero]
  simp only [View.readAt_eq_ld, harg1.read_unread, harg2.read_unread, harg3.read_unread, harg4.read_unread, harg5.read_unread, harg6.read_unread, View.ld_unit_zero (S := S64x110) offs_zero, View.ld_unit_zero (S := S4096x110) offs_zero, View.ld_unit_zero (S := S64x4096) offs_zero, View.ld_unit_zero (S := S1x1) offs_zero, View.readCov_unit_zero (S := S1x1) _ offs_zero]

/-- The last point copies the total it has just stored into the result window's buffer. -/
theorem out1_C_4_eq (c : Dev nD) (i : grid1.Coords) (arg1 : Memref sig .tc .vmem S64x110 .f32) (harg1 : arg1.IsWhole) (arg2 : Memref sig .tc .vmem S64x110 .f32) (harg2 : arg2.IsWhole) (arg3 : Memref sig .tc .vmem S4096x110 .f32) (harg3 : arg3.IsWhole) (arg4 : Memref sig .tc .vmem S64x4096 .i32) (harg4 : arg4.IsWhole) (arg5 : Memref sig .tc .vmem S1x1 .f32) (harg5 : arg5.IsWhole) (arg6 : Memref sig .tc .vmem S1x1 .f32) (harg6 : arg6.IsWhole) (hc0 : ¬first1 i) (hc1 : last1 i) (x0 : Vec F S64x110 .f32) (x1 : Vec F S64x110 .f32) (x2 : Vec F S4096x110 .f32) (x3 : Vec F S64x4096 .i32) (xs0 : Vec F S1x1 .f32) :
    out1_C_4 c i arg1 harg1 arg2 harg2 arg3 harg3 arg4 harg4 arg5 harg5 arg6 harg6 hc0 hc1 x0 x1 x2 x3 xs0 = k1_pay2 x3 x2 x0 x1 xs0 := by
  unfold out1_C_4
  rw [View.read_writes_eq_canon _ _ _ (cover1_C_4 c i arg1 harg1 arg2 harg2 arg3 harg3 arg4 harg4 arg5 harg5 arg6 harg6 hc0 hc1 x0 x1 x2 x3 xs0)]
  unfold kernelRun1_C
  dsimp only
  sl_unfold_words
  rw [View.canon_unit_zero offs_zero]
  simp only [View.readAt_eq_ld, harg1.read_unread, harg2.read_unread, harg3.read_unread, harg4.read_unread, harg5.read_unread, harg6.read_unread, View.ld_unit_zero (S := S64x110) offs_zero, View.ld_unit_zero (S := S4096x110) offs_zero, View.ld_unit_zero (S := S64x4096) offs_zero, View.ld_unit_zero (S := S1x1) offs_zero, View.readCov_unit_zero (S := S1x1) _ offs_zero]

end Pieces

section Payload

/-- A sum over the first axis of an `[n, b]` array of extended reals, from the zero word, is at column `k` the sum
    of that column's entries. -/
theorem colSum_apply {n b : ℕ} {φ : FTy} (src : FVec Ideal ⟨2, ![n, b]⟩ φ) (acc : BitVec φ.bits)
    (h : (⟨2, ![n, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ r : Fin n, src (ix2 r k) := by
  refine (Ideal.multiReduction_add_single src acc h hφ hacc (ix1 k)).trans ?_
  refine Finset.sum_congr rfl fun r _ => congrArg src ?_
  funext ax
  apply Fin.ext
  match ax with
  | ⟨0, _⟩ => rfl
  | ⟨1, _⟩ => rfl

/-! The product's operand indices at output index (r, q) and contraction index k: (r, k) on the left, (q, k) on the right. -/

theorem lhs_dot_0 (i : S64x4096.Idx) (q : dot_S64x110_S4096x110_S64x4096_1_1_0_0_n_n.contr.Idx) :
    (dot_S64x110_S4096x110_S64x4096_1_1_0_0_n_n.lhsIdx i q 0).val = (i 0).val := by
  unfold DotDims.lhsIdx
  rw [dif_neg (show ¬(0 : Fin S64x110.rank) ∈ dot_S64x110_S4096x110_S64x4096_1_1_0_0_n_n.lhsBatch by decide), dif_pos (show (0 : Fin S64x110.rank) ∈ dot_S64x110_S4096x110_S64x4096_1_1_0_0_n_n.lhsNonContracting by decide)]
  rfl
theorem lhs_dot_1 (i : S64x4096.Idx) (q : dot_S64x110_S4096x110_S64x4096_1_1_0_0_n_n.contr.Idx) :
    (dot_S64x110_S4096x110_S64x4096_1_1_0_0_n_n.lhsIdx i q 1).val = (q ⟨0, by decide⟩).val :=
  dot_S64x110_S4096x110_S64x4096_1_1_0_0_n_n.lhsIdx_val_of_single rfl i q
theorem rhs_dot_0 (i : S64x4096.Idx) (q : dot_S64x110_S4096x110_S64x4096_1_1_0_0_n_n.contr.Idx) :
    (dot_S64x110_S4096x110_S64x4096_1_1_0_0_n_n.rhsIdx i q 0).val = (i 1).val := by
  unfold DotDims.rhsIdx
  rw [dif_neg (show ¬(0 : Fin S4096x110.rank) ∈ dot_S64x110_S4096x110_S64x4096_1_1_0_0_n_n.rhsBatch by decide), dif_pos (show (0 : Fin S4096x110.rank) ∈ dot_S64x110_S4096x110_S64x4096_1_1_0_0_n_n.rhsNonContracting by decide)]
  rfl
theorem rhs_dot_1 (i : S64x4096.Idx) (q : dot_S64x110_S4096x110_S64x4096_1_1_0_0_n_n.contr.Idx) :
    (dot_S64x110_S4096x110_S64x4096_1_1_0_0_n_n.rhsIdx i q 1).val = (q ⟨0, by decide⟩).val :=
  dot_S64x110_S4096x110_S64x4096_1_1_0_0_n_n.rhsIdx_val_of_single rfl i q

/-- The product into the zero block, at (r, q): row r of the left operand against row q of the right. -/
theorem matmul_rq {φ₁ φ₂ : FTy} (x : FVec Ideal S64x110 φ₁) (a : FVec Ideal S4096x110 φ₂) (r : Fin 64) (q : Fin 4096) :
    matmul dot_S64x110_S4096x110_S64x4096_1_1_0_0_n_n none x a (constant (F := Ideal) S64x4096 .f32 0x00000000#32) (ix2 r q)
      = ∑ k : Fin 110, x (ix2 r k) * a (ix2 q k) := by
  refine (Ideal.matmul_constant_zero_apply dot_S64x110_S4096x110_S64x4096_1_1_0_0_n_n none x a (ix2 r q)).trans ?_
  rw [← Equiv.sum_comp (contrEquiv1 dot_S64x110_S4096x110_S64x4096_1_1_0_0_n_n 110 rfl rfl).symm]
  refine Finset.sum_congr rfl fun k _ => ?_
  have hk := contrEquiv1_symm_val dot_S64x110_S4096x110_S64x4096_1_1_0_0_n_n 110 rfl rfl k
  have el : dot_S64x110_S4096x110_S64x4096_1_1_0_0_n_n.lhsIdx (ix2 r q) ((contrEquiv1 dot_S64x110_S4096x110_S64x4096_1_1_0_0_n_n 110 rfl rfl).symm k) = ix2 r k := funext fun ax => Fin.ext (by
    match ax with
    | ⟨0, _⟩ => exact lhs_dot_0 _ _
    | ⟨1, _⟩ => exact (lhs_dot_1 _ _).trans hk)
  have er : dot_S64x110_S4096x110_S64x4096_1_1_0_0_n_n.rhsIdx (ix2 r q) ((contrEquiv1 dot_S64x110_S4096x110_S64x4096_1_1_0_0_n_n 110 rfl rfl).symm k) = ix2 q k := funext fun ax => Fin.ext (by
    match ax with
    | ⟨0, _⟩ => exact rhs_dot_0 _ _
    | ⟨1, _⟩ => exact (rhs_dot_1 _ _).trans hk)
  rw [el, er]

/-- One masked reconstruction at (r, q): the coefficients' row r against the basis's row q, times the mask read as a number. -/
theorem mrecon_apply (msk : Vec Ideal S64x4096 .i32) (a : Vec Ideal S4096x110 .f32) (x : Vec Ideal S64x110 .f32) (r : Fin 64) (q : Fin 4096) :
    mulf (matmul dot_S64x110_S4096x110_S64x4096_1_1_0_0_n_n none (truncf .bf16 (shapeCast S64x110 x shapeCasts_S64x110_S64x110) bitsLt_bf16_f32) (truncf .bf16 a bitsLt_bf16_f32) (constant (F := Ideal) S64x4096 .f32 0x00000000#32))
        (sitofp .f32 (shapeCast S64x4096 msk shapeCasts_S64x4096_S64x4096)) (ix2 r q)
      = (∑ k : Fin 110, x (ix2 r k) * a (ix2 q k)) * ((((msk (ix2 r q)).toInt : ℝ)) : EReal) := by
  rw [shapeCast_self x, shapeCast_self msk]
  refine (mulf_apply _ _ _).trans ?_
  refine congrArg₂ (· * ·) ?_ ?_
  · exact matmul_rq _ _ r q
  · rfl

/-- The squared difference of the two masked reconstructions at row `r` and pixel `q` of a block. -/
def sqd (msk : Vec Ideal S64x4096 .i32) (a : Vec Ideal S4096x110 .f32) (xp xt : Vec Ideal S64x110 .f32) (r : Fin 64) (q : Fin 4096) : EReal :=
  ((∑ k : Fin 110, xp (ix2 r k) * a (ix2 q k)) * ((((msk (ix2 r q)).toInt : ℝ)) : EReal)
      - (∑ k : Fin 110, xt (ix2 r k) * a (ix2 q k)) * ((((msk (ix2 r q)).toInt : ℝ)) : EReal))
    * ((∑ k : Fin 110, xp (ix2 r k) * a (ix2 q k)) * ((((msk (ix2 r q)).toInt : ℝ)) : EReal)
      - (∑ k : Fin 110, xt (ix2 r k) * a (ix2 q k)) * ((((msk (ix2 r q)).toInt : ℝ)) : EReal))

/-- The body's stored total at its one index: the total it read plus the block's sum of squared differences. -/
theorem pay2_apply (msk : Vec Ideal S64x4096 .i32) (a : Vec Ideal S4096x110 .f32) (xp xt : Vec Ideal S64x110 .f32) (tot : Vec Ideal S1x1 .f32) :
    k1_pay2 (F := Ideal) msk a xp xt tot (ix2 (0 : Fin 1) (0 : Fin 1))
      = tot (ix2 (0 : Fin 1) (0 : Fin 1)) + ∑ r : Fin 64, ∑ q : Fin 4096, sqd msk a xp xt r q := by
  unfold sqd k1_pay2
  refine (congrFun (shapeCast_self _ _) _).trans ?_
  refine (addf_apply _ _ _).trans ?_
  refine congrArg (tot (ix2 (0 : Fin 1) (0 : Fin 1)) + ·) ?_
  refine (Cert.Columns.shapeCast_a_a1_apply _ _ (0 : Fin 1) (0 : Fin 1)).trans ?_
  refine (colSum_apply _ _ _ _ _ (0 : Fin 1)).trans ?_
  refine Finset.sum_congr rfl fun r _ => ?_
  refine (Cert.Columns.shapeCast_a_a1_apply _ _ r (0 : Fin 1)).trans ?_
  refine (Cert.Columns.rowSum_apply _ _ _ _ _ r).trans ?_
  refine Finset.sum_congr rfl fun q _ => ?_
  refine (mulf_apply _ _ _).trans ?_
  refine congrArg₂ (· * ·) ?_ ?_ <;>
    exact (subf_apply _ _ _).trans (congrArg₂ (· - ·) (mrecon_apply msk a xp r q) (mrecon_apply msk a xt r q))

/-- The zero block the reset stores reads zero. -/
theorem pay1_apply : k1_pay1 (F := Ideal) (ix2 (0 : Fin 1) (0 : Fin 1)) = 0 := by
  unfold k1_pay1
  refine (congrFun (shapeCast_self _ _) _).trans ?_
  exact Ideal.ofBits_zero_f32

end Payload

section Blocks
variable {F : FTy → Type} [FloatOps F]
variable (V : (c : Dev nD) → (b : Ref sig .tc) → Buf (Elt F) ((c : Thread nD τ).loc b))

/-- The four arrays the region reads, as the region finds them: the two coefficient arrays, the basis, the mask. -/
abbrev xpA (c : Dev nD) : Vec F S64x110 .f32 := V c main_v3_0
abbrev xtA (c : Dev nD) : Vec F S64x110 .f32 := V c main_v3_1
abbrev bsA (c : Dev nD) : Vec F S65536x110 .f32 := V c main_arg3
abbrev mkA (c : Dev nD) : Vec F S64x65536 .i32 := V c main_v2

theorem lt16 (t : Fin cfg1.N) : t.val < 16 := by
  have h := t.isLt
  have e : cfg1.N = 16 := N_1
  omega

/-- Point `t` of the grid as a tile number. -/
abbrev tile (t : Fin cfg1.N) : Fin 16 := ⟨t.val, lt16 t⟩

/-- Where each window's block sits at point `t`: the two coefficient arrays whole, the basis's rows and the mask's
    columns at tile `t`. -/
theorem idx_facts1 : ∀ t : Fin cfg1.N,
    (win1_0.index t 0 = 0 ∧ win1_0.index t 1 = 0) ∧ (win1_1.index t 0 = 0 ∧ win1_1.index t 1 = 0)
      ∧ (win1_2.index t 0 = t.val ∧ win1_2.index t 1 = 0) ∧ (win1_3.index t 0 = 0 ∧ win1_3.index t 1 = t.val) :=
  (by decide +kernel : ∀ t : Fin grid1.N,
    (win1_0.index t 0 = 0 ∧ win1_0.index t 1 = 0) ∧ (win1_1.index t 0 = 0 ∧ win1_1.index t 1 = 0)
      ∧ (win1_2.index t 0 = t.val ∧ win1_2.index t 1 = 0) ∧ (win1_3.index t 0 = 0 ∧ win1_3.index t 1 = t.val))

theorem iblk1_0_apply (c : Dev nD) (t : Fin cfg1.N) (r : Fin 64) (k : Fin 110) :
    (iblk1 V c 0 t : Vec F S64x110 .f32) (ix2 r k) = xpA V c (ix2 r k) := by
  have hi := (idx_facts1 t).1
  unfold iblk1
  rw [View.read_apply]
  show V c main_v3_0 _ = V c main_v3_0 _
  congr 1
  funext a
  apply Fin.ext
  match a with
  | ⟨0, _⟩ => show win1_0.index t 0 * 64 + 1 * r.val = r.val; rw [hi.1]; omega
  | ⟨1, _⟩ => show win1_0.index t 1 * 110 + 1 * k.val = k.val; rw [hi.2]; omega

theorem iblk1_1_apply (c : Dev nD) (t : Fin cfg1.N) (r : Fin 64) (k : Fin 110) :
    (iblk1 V c 1 t : Vec F S64x110 .f32) (ix2 r k) = xtA V c (ix2 r k) := by
  have hi := (idx_facts1 t).2.1
  unfold iblk1
  rw [View.read_apply]
  show V c main_v3_1 _ = V c main_v3_1 _
  congr 1
  funext a
  apply Fin.ext
  match a with
  | ⟨0, _⟩ => show win1_1.index t 0 * 64 + 1 * r.val = r.val; rw [hi.1]; omega
  | ⟨1, _⟩ => show win1_1.index t 1 * 110 + 1 * k.val = k.val; rw [hi.2]; omega

theorem iblk1_2_apply (c : Dev nD) (t : Fin cfg1.N) (q : Fin 4096) (k : Fin 110) :
    (iblk1 V c 2 t : Vec F S4096x110 .f32) (ix2 q k) = bsA V c (ix2 (Cert.Spec.tix (tile t) q) k) := by
  have hi := (idx_facts1 t).2.2.1
  unfold iblk1
  rw [View.read_apply]
  show V c main_arg3 _ = V c main_arg3 _
  congr 1
  funext a
  apply Fin.ext
  match a with
  | ⟨0, _⟩ => show win1_2.index t 0 * 4096 + 1 * q.val = 4096 * t.val + q.val; rw [hi.1]; omega
  | ⟨1, _⟩ => show win1_2.index t 1 * 110 + 1 * k.val = k.val; rw [hi.2]; omega

theorem iblk1_3_apply (c : Dev nD) (t : Fin cfg1.N) (r : Fin 64) (q : Fin 4096) :
    (iblk1 V c 3 t : Vec F S64x4096 .i32) (ix2 r q) = mkA V c (ix2 r (Cert.Spec.tix (tile t) q)) := by
  have hi := (idx_facts1 t).2.2.2
  unfold iblk1
  rw [View.read_apply]
  show V c main_v2 _ = V c main_v2 _
  congr 1
  funext a
  apply Fin.ext
  match a with
  | ⟨0, _⟩ => show win1_3.index t 0 * 64 + 1 * r.val = r.val; rw [hi.1]; omega
  | ⟨1, _⟩ => show win1_3.index t 1 * 4096 + 1 * q.val = 4096 * t.val + q.val; rw [hi.2]; omega

end Blocks

section Total
variable (V : (c : Dev nD) → (b : Ref sig .tc) → Buf (Elt Ideal) ((c : Thread nD τ).loc b))

/-- The squared difference of the two masked reconstructions at row `r` and pixel `n`, over the whole arrays. -/
def sqA (c : Dev nD) (r : Fin 64) (n : Fin 65536) : EReal :=
  ((∑ k : Fin 110, xpA V c (ix2 r k) * bsA V c (ix2 n k)) * ((((mkA V c (ix2 r n)).toInt : ℝ)) : EReal)
      - (∑ k : Fin 110, xtA V c (ix2 r k) * bsA V c (ix2 n k)) * ((((mkA V c (ix2 r n)).toInt : ℝ)) : EReal))
    * ((∑ k : Fin 110, xpA V c (ix2 r k) * bsA V c (ix2 n k)) * ((((mkA V c (ix2 r n)).toInt : ℝ)) : EReal)
      - (∑ k : Fin 110, xtA V c (ix2 r k) * bsA V c (ix2 n k)) * ((((mkA V c (ix2 r n)).toInt : ℝ)) : EReal))

/-- Over the blocks of point `t` the squared difference at (r, q) is the arrays' at (r, pixel q of tile t). -/
theorem sqd_blocks (c : Dev nD) (t : Fin cfg1.N) (r : Fin 64) (q : Fin 4096) :
    sqd (iblk1 V c 3 t) (iblk1 V c 2 t) (iblk1 V c 0 t) (iblk1 V c 1 t) r q = sqA V c r (Cert.Spec.tix (tile t) q) := by
  unfold sqd sqA
  simp only [iblk1_0_apply V c t, iblk1_1_apply V c t, iblk1_2_apply V c t, iblk1_3_apply V c t]

/-- Tile `t`'s share of the sum of squared differences. -/
def tileSum (c : Dev nD) (t : Fin 16) : EReal := ∑ r : Fin 64, ∑ q : Fin 4096, sqA V c r (Cert.Spec.tix t q)

theorem pay2_blocks (c : Dev nD) (t : Fin cfg1.N) (tot : Vec Ideal S1x1 .f32) :
    k1_pay2 (F := Ideal) (iblk1 V c 3 t) (iblk1 V c 2 t) (iblk1 V c 0 t) (iblk1 V c 1 t) tot (ix2 (0 : Fin 1) (0 : Fin 1)) = tot (ix2 (0 : Fin 1) (0 : Fin 1)) + tileSum V c (tile t) := by
  refine (pay2_apply (iblk1 V c 3 t) (iblk1 V c 2 t) (iblk1 V c 0 t) (iblk1 V c 1 t) tot).trans ?_
  unfold tileSum
  exact congrArg (tot (ix2 (0 : Fin 1) (0 : Fin 1)) + ·) (Finset.sum_congr rfl fun r _ => Finset.sum_congr rfl fun q _ => sqd_blocks V c t r q)

/-- After the first point the total is zero plus the first tile's share. -/
theorem tot_A (c : Dev nD) (t : Fin cfg1.N) (h0 : t.val = 0) (h1 : ¬t.val = 15) :
    (outsAt1 V c t.val t.isLt).2 (ix2 (0 : Fin 1) (0 : Fin 1)) = 0 + tileSum V c (tile t) := by
  rw [outsAt1_A V c t h0 h1]
  dsimp only
  refine (congrFun (sout1_A_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) ((first1_iff t).mpr h0) (fun h => h1 ((last1_iff t).mp h)) (iblk1 V c 0 t) (iblk1 V c 1 t) (iblk1 V c 2 t) (iblk1 V c 3 t)) (ix2 (0 : Fin 1) (0 : Fin 1))).trans ?_
  refine (pay2_blocks V c t (k1_pay1 (F := Ideal))).trans ?_
  exact congrArg (· + tileSum V c (tile t)) pay1_apply

/-- After a middle point the total is what the point before left plus this tile's share. -/
theorem tot_B (c : Dev nD) (t : Fin cfg1.N) (h0 : ¬t.val = 0) (h1 : ¬t.val = 15) :
    (outsAt1 V c t.val t.isLt).2 (ix2 (0 : Fin 1) (0 : Fin 1)) = prev1_0 V c t (ix2 (0 : Fin 1) (0 : Fin 1)) + tileSum V c (tile t) := by
  rw [outsAt1_B V c t h0 h1]
  dsimp only
  refine (congrFun (sout1_B_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((first1_iff t).mp h)) (fun h => h1 ((last1_iff t).mp h)) (iblk1 V c 0 t) (iblk1 V c 1 t) (iblk1 V c 2 t) (iblk1 V c 3 t) (prev1_0 V c t)) (ix2 (0 : Fin 1) (0 : Fin 1))).trans ?_
  exact pay2_blocks V c t (prev1_0 V c t)

/-- After the last point, the same; -/
theorem tot_C (c : Dev nD) (t : Fin cfg1.N) (h0 : ¬t.val = 0) (h1 : t.val = 15) :
    (outsAt1 V c t.val t.isLt).2 (ix2 (0 : Fin 1) (0 : Fin 1)) = prev1_0 V c t (ix2 (0 : Fin 1) (0 : Fin 1)) + tileSum V c (tile t) := by
  rw [outsAt1_C V c t h0 h1]
  dsimp only
  refine (congrFun (sout1_C_0_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((first1_iff t).mp h)) ((last1_iff t).mpr h1) (iblk1 V c 0 t) (iblk1 V c 1 t) (iblk1 V c 2 t) (iblk1 V c 3 t) (prev1_0 V c t)) (ix2 (0 : Fin 1) (0 : Fin 1))).trans ?_
  exact pay2_blocks V c t (prev1_0 V c t)

/-- and the result window's buffer holds the same as the total. -/
theorem res_C (c : Dev nD) (t : Fin cfg1.N) (h0 : ¬t.val = 0) (h1 : t.val = 15) :
    (outsAt1 V c t.val t.isLt).1 (ix2 (0 : Fin 1) (0 : Fin 1)) = prev1_0 V c t (ix2 (0 : Fin 1) (0 : Fin 1)) + tileSum V c (tile t) := by
  rw [outsAt1_C V c t h0 h1]
  dsimp only
  refine (congrFun (out1_C_4_eq (F := Ideal) c (grid1.coords t) (ms1_0 t) (hs1_0 t) (ms1_1 t) (hs1_1 t) (ms1_2 t) (hs1_2 t) (ms1_3 t) (hs1_3 t) (ms1_4 t) (hs1_4 t) scM1_0 (Memref.isWhole_whole _) (fun h => h0 ((first1_iff t).mp h)) ((last1_iff t).mpr h1) (iblk1 V c 0 t) (iblk1 V c 1 t) (iblk1 V c 2 t) (iblk1 V c 3 t) (prev1_0 V c t)) (ix2 (0 : Fin 1) (0 : Fin 1))).trans ?_
  exact pay2_blocks V c t (prev1_0 V c t)

/-- The running total after point `n`, at its one index. -/
def accAt (c : Dev nD) (n : ℕ) (h : n < 16) : EReal :=
  (outsAt1 V c n (show n < cfg1.N from h)).2 (ix2 (0 : Fin 1) (0 : Fin 1))

theorem acc_zero (c : Dev nD) : accAt V c 0 (by omega) = 0 + tileSum V c ⟨0, by omega⟩ :=
  tot_A V c ⟨0, (show 0 < cfg1.N from (by omega : 0 < 16))⟩ rfl (by decide)

theorem acc_succ (c : Dev nD) (n : ℕ) (h : n + 1 < 16) :
    accAt V c (n + 1) h = accAt V c n (by omega) + tileSum V c ⟨n + 1, h⟩ := by
  by_cases h15 : n + 1 = 15
  · exact tot_C V c ⟨n + 1, (show n + 1 < cfg1.N from h)⟩ (Nat.succ_ne_zero n) h15
  · exact tot_B V c ⟨n + 1, (show n + 1 < cfg1.N from h)⟩ (Nat.succ_ne_zero n) h15

/-- After the last point the running total is the whole sum of squared differences. -/
theorem total_eq (c : Dev nD) : accAt V c 15 (by omega) = ∑ r : Fin 64, ∑ n : Fin 65536, sqA V c r n :=
  (Cert.Spec.running_total (accAt V c) (tileSum V c) (acc_zero V c) (acc_succ V c)).trans
    (Cert.Spec.sum_tiles_rows (sqA V c))

end Total

section Result
variable {F : FTy → Type} [FloatOps F]
variable (V : (c : Dev nD) → (b : Ref sig .tc) → Buf (Elt F) ((c : Thread nD τ).loc b))

theorem lt15 : 15 < cfg1.N := by
  have e : cfg1.N = 16 := N_1
  omega

/-- What the last point leaves in the result window's buffer, as contents of the result array (its one block is the
    whole 1x1 array). -/
abbrev result1 (c : Dev nD) : Buf (Elt F) ((c : Thread nD τ).loc main_v4) := (outsAt1 V c 15 lt15).1

/-- The one write-back, at the last point, writes it. -/
theorem flushed1_4_eq (c : Dev nD) (t : Fin cfg1.N) (hf : (cfg1.win 4).flush t = true) :
    (dat1 V c).flushed 4 t = ((cfg1.win 4).blk t).view.read (Elt F) (result1 V c) := by
  have h15 : t.val = 15 := by
    have h := (flush1_4 t).mp hf
    have hl := lt16 t
    omega
  obtain rfl : t = t1_15 := Fin.ext h15
  show (cfg1.win 4).cut (grid1.coords t1_15) ((dat1 V c).after 4 t1_15) = _
  rw [after1_4]
  have hoff : (fun a => win1_4.index t1_15 a * main_v4.ty.shape.size a) = fun _ => 0 :=
    funext fun a => by fin_cases a <;> decide
  exact (Memref.read_access_unit_zero (Elt F) main_v4 hoff (fun a => by rw [congrFun hoff a]; simp) (result1 V c)).symm

/-- The result window's block at the last point: offset 0 and extent 1 on both axes. -/
theorem last_block :
    (win1_4.index t1_15 0 * win1_4.size 0 = 0 ∧ win1_4.xsize (grid1.coords t1_15) 0 = 1)
      ∧ (win1_4.index t1_15 1 * win1_4.size 1 = 0 ∧ win1_4.xsize (grid1.coords t1_15) 1 = 1) := by decide +kernel

/-- The last point's block covers the result array, so the array ends holding what that point left. -/
theorem arrAt1_4 (c : Dev nD) : (dat1 V c).arrAt 4 cfg1.N = result1 V c :=
  (dat1 V c).arrAt_eq_of_cover 4 (result1 V c) (flushed1_4_eq V c) fun i =>
    ⟨t1_15, (flush1_4 t1_15).mpr rfl, by
      show i ∈ ((View.whole main_v4).slice (win1_4.rect t1_15)).set
      rw [View.set_slice_whole, Rect.mem_set_unit]
      intro a
      -- both coordinates of an index of the 1x1 array are 0, and the block starts at 0 with extent 1 on both axes
      match a with
      | ⟨0, _⟩ =>
        have hi : (i 0 : Nat) < 1 := (i 0).isLt
        show win1_4.index t1_15 0 * win1_4.size 0 ≤ (i 0 : Nat) ∧ (i 0 : Nat) < win1_4.index t1_15 0 * win1_4.size 0 + win1_4.xsize (grid1.coords t1_15) 0
        rw [last_block.1.1, last_block.1.2]
        omega
      | ⟨1, _⟩ =>
        have hi : (i 1 : Nat) < 1 := (i 1).isLt
        show win1_4.index t1_15 1 * win1_4.size 1 ≤ (i 1 : Nat) ∧ (i 1 : Nat) < win1_4.index t1_15 1 * win1_4.size 1 + win1_4.xsize (grid1.coords t1_15) 1
        rw [last_block.2.1, last_block.2.2]
        omega⟩

end Result

section Final
variable (V : (c : Dev nD) → (b : Ref sig .tc) → Buf (Elt Ideal) ((c : Thread nD τ).loc b))

/-- The region's result: its 1x1 array ends holding the sum, over all rows and pixels, of the squared difference of
    the two masked reconstructions. -/
theorem final1_4 (c : Dev nD) :
    (dat1 (F := Ideal) V c).arrAt 4 cfg1.N (ix2 (0 : Fin 1) (0 : Fin 1))
      = ∑ r : Fin 64, ∑ n : Fin 65536,
          ((∑ k : Fin 110, xpA V c (ix2 r k) * bsA V c (ix2 n k)) * ((((mkA V c (ix2 r n)).toInt : ℝ)) : EReal)
      - (∑ k : Fin 110, xtA V c (ix2 r k) * bsA V c (ix2 n k)) * ((((mkA V c (ix2 r n)).toInt : ℝ)) : EReal))
          * ((∑ k : Fin 110, xpA V c (ix2 r k) * bsA V c (ix2 n k)) * ((((mkA V c (ix2 r n)).toInt : ℝ)) : EReal)
      - (∑ k : Fin 110, xtA V c (ix2 r k) * bsA V c (ix2 n k)) * ((((mkA V c (ix2 r n)).toInt : ℝ)) : EReal)) := by
  refine (congrFun (arrAt1_4 V c) (ix2 (0 : Fin 1) (0 : Fin 1))).trans ?_
  refine ((res_C V c ⟨15, lt15⟩ (by decide) rfl).trans (tot_C V c ⟨15, lt15⟩ (by decide) rfl).symm).trans ?_
  exact total_eq V c

end Final

end Cert.KernelIdeal.Val1

end
-- ==== Proof.KI.Final.lean ====
/- What the idealized kernel's program leaves in its result: the specification.

   Region 0 leaves the two coefficient arrays (the signals' reshape to 64 rows of 65536 pixels, times the mask, contracted
   against the pseudo-inverse); region 1, entered with those arrays, leaves the sum over rows and pixels of the squared
   difference of the two masked reconstructions; the program's last lines read that 1×1 array as a scalar and divide it
   by 4194304. Each array a region reads is traced back to the launch memory: a reshape read at (row, pixel) is the
   four-axis array at (row / 8, row % 8, pixel / 256, pixel % 256). -/
import proofs.«149681_j46213848105408_1_alg».proof.Proof.KI.Launch
import proofs.«149681_j46213848105408_1_alg».proof.Proof.KI.Value0
import proofs.«149681_j46213848105408_1_alg».proof.Proof.KI.Value1
import proofs.«149681_j46213848105408_1_alg».proof.Proof.Spec

noncomputable section

open scoped BigOperators

namespace Cert.KernelIdeal.Final

open Idealize.ShloMosaic Idealize.ShloMosaic.TcCoe Idealize.SL.Sem Idealize.ShloMosaic.ValueIdx
open Cert.KernelIdeal Cert.KernelIdeal.Gen Cert.KernelIdeal.Fr

/-- The reshape of a four-axis array to 64 rows of 65536 pixels, read at (row, pixel): the two have the same
    row-major position. -/
theorem reshape_at {α : Type} (x : S8x8x256x256.Idx → α) (r : Fin 64) (n : Fin 65536) :
    shapeCast S64x65536 x shapeCasts_S8x8x256x256_S64x65536 (ix2 r n) = x (Cert.Spec.src r n) :=
  shapeCast_apply x shapeCasts_S8x8x256x256_S64x65536 _ _ (by
    have hr := r.isLt
    have hn := n.isLt
    rw [Shape.rowMajor_val_four, Shape.rowMajor_val_two]
    show ((r.val / 8 * 8 + r.val % 8) * 256 + n.val / 256) * 256 + n.val % 256 = r.val * 65536 + n.val
    omega)

/-- The 1×1 array read as a scalar is its one entry. -/
theorem scalar_at {α : Type} (x : S1x1.Idx → α) (i : S_.Idx) :
    shapeCast S_ x shapeCasts_S1x1_S_ i = x (ix2 (0 : Fin 1) (0 : Fin 1)) :=
  shapeCast_apply x shapeCasts_S1x1_S_ i (ix2 (0 : Fin 1) (0 : Fin 1)) (by
    rw [Shape.rowMajor_val_two]
    have h := (S_.rowMajor i).isLt
    have h1 : S_.numel = 1 := rfl
    show 0 * 1 + 0 = _
    omega)

variable (m : (ℓ : Loc nD τ sig) → Buf (Elt Ideal) ℓ)

/-! ## What region 0 reads, traced to the launch memory -/

theorem sigA_at (c : Dev nD) (r : Fin 64) (n : Fin 65536) :
    Val0.sigA (V1 m) c (ix2 r n) = (m ((c : Thread nD τ).loc main_arg0)) (Cert.Spec.src r n) :=
  (congrFun (V1_main_v0 m c) (ix2 r n)).trans (reshape_at _ r n)

theorem sigB_at (c : Dev nD) (r : Fin 64) (n : Fin 65536) :
    Val0.sigB (V1 m) c (ix2 r n) = (m ((c : Thread nD τ).loc main_arg1)) (Cert.Spec.src r n) :=
  (congrFun (V1_main_v1 m c) (ix2 r n)).trans (reshape_at _ r n)

theorem maskA_at (c : Dev nD) (r : Fin 64) (n : Fin 65536) :
    Val0.maskA (V1 m) c (ix2 r n) = (m ((c : Thread nD τ).loc main_arg2)) (Cert.Spec.src r n) :=
  (congrFun (V1_main_v2 m c) (ix2 r n)).trans (reshape_at _ r n)

theorem pinvA_at (c : Dev nD) (k : Fin 110) (n : Fin 65536) :
    Val0.pinvA (V1 m) c (ix2 k n) = (m ((c : Thread nD τ).loc main_arg4)) (ix2 k n) :=
  congrFun (V1_main_arg4 m c) (ix2 k n)

/-! ## What region 1 reads -/

/-- Region 0's first result array, as region 1 finds it, is the coefficients of the first signal. -/
theorem xp_eq (c : Dev nD) (r : Fin 64) (k : Fin 110) :
    Val1.xpA (V2 m) c (ix2 r k) = Cert.Spec.coef (m ((c : Thread nD τ).loc main_arg2)) (m ((c : Thread nD τ).loc main_arg4)) (m ((c : Thread nD τ).loc main_arg0)) r k := by
  refine (congrFun (V2_main_v3_0 m c) (ix2 r k)).trans ?_
  refine (Val0.final0_4 (V1 m) c r k).trans ?_
  unfold Cert.Spec.coef Cert.Spec.msk
  refine Finset.sum_congr rfl fun n _ => ?_
  rw [sigA_at, maskA_at, pinvA_at]

/-- Region 0's second result array is the coefficients of the second signal. -/
theorem xt_eq (c : Dev nD) (r : Fin 64) (k : Fin 110) :
    Val1.xtA (V2 m) c (ix2 r k) = Cert.Spec.coef (m ((c : Thread nD τ).loc main_arg2)) (m ((c : Thread nD τ).loc main_arg4)) (m ((c : Thread nD τ).loc main_arg1)) r k := by
  refine (congrFun (V2_main_v3_1 m c) (ix2 r k)).trans ?_
  refine (Val0.final0_5 (V1 m) c r k).trans ?_
  unfold Cert.Spec.coef Cert.Spec.msk
  refine Finset.sum_congr rfl fun n _ => ?_
  rw [sigB_at, maskA_at, pinvA_at]

/-- The basis is the argument, untouched by region 0. -/
theorem bs_eq (c : Dev nD) (n : Fin 65536) (k : Fin 110) :
    Val1.bsA (V2 m) c (ix2 n k) = (m ((c : Thread nD τ).loc main_arg3)) (ix2 n k) :=
  congrFun (V2_main_arg3 m c) (ix2 n k)

/-- The mask's reshape is read by both regions; region 0 leaves it as it found it. -/
theorem mk_eq (c : Dev nD) (r : Fin 64) (n : Fin 65536) :
    Val1.mkA (V2 m) c (ix2 r n) = (m ((c : Thread nD τ).loc main_arg2)) (Cert.Spec.src r n) :=
  (congrFun (V2_main_v2 m c) (ix2 r n)).trans (maskA_at m c r n)

/-- The program's result buffer ends at the specification's value: the sum of squared differences over 4194304. -/
theorem kernel_result (c : Dev nD) :
    W4 m c (Proc.devRef .tc main_v6)
      = fun _ => FloatOps.hostDivf (F := Ideal)
          (Cert.Spec.sse (m ((c : Thread nD τ).loc main_arg0)) (m ((c : Thread nD τ).loc main_arg1)) (m ((c : Thread nD τ).loc main_arg2))
            (m ((c : Thread nD τ).loc main_arg3)) (m ((c : Thread nD τ).loc main_arg4)))
          (FloatOps.ofBits .f32 0x4A800000#32) := by
  rw [W4_main_v6]
  funext i
  show FloatOps.hostDivf (F := Ideal) (shapeCast S_ ((dat1 (F := Ideal) (V2 m) c).arrAt 4 cfg1.N : Vec Ideal S1x1 .f32) shapeCasts_S1x1_S_ i) (FloatOps.ofBits .f32 0x4A800000#32) = _
  refine congrArg (fun z => FloatOps.hostDivf (F := Ideal) z (FloatOps.ofBits .f32 0x4A800000#32)) ?_
  rw [scalar_at, Val1.final1_4]
  unfold Cert.Spec.sse Cert.Spec.sqd Cert.Spec.recon Cert.Spec.msk
  refine Finset.sum_congr rfl fun r _ => Finset.sum_congr rfl fun n _ => ?_
  have hp : ∀ k : Fin 110, Val1.xpA (V2 m) c (ix2 r k) * Val1.bsA (V2 m) c (ix2 n k)
      = Cert.Spec.coef (m ((c : Thread nD τ).loc main_arg2)) (m ((c : Thread nD τ).loc main_arg4)) (m ((c : Thread nD τ).loc main_arg0)) r k * (m ((c : Thread nD τ).loc main_arg3)) (ix2 n k) :=
    fun k => by rw [xp_eq, bs_eq]
  have ht : ∀ k : Fin 110, Val1.xtA (V2 m) c (ix2 r k) * Val1.bsA (V2 m) c (ix2 n k)
      = Cert.Spec.coef (m ((c : Thread nD τ).loc main_arg2)) (m ((c : Thread nD τ).loc main_arg4)) (m ((c : Thread nD τ).loc main_arg1)) r k * (m ((c : Thread nD τ).loc main_arg3)) (ix2 n k) :=
    fun k => by rw [xt_eq, bs_eq]
  rw [Finset.sum_congr rfl fun k _ => hp k, Finset.sum_congr rfl fun k _ => ht k, mk_eq]

end Cert.KernelIdeal.Final

end
-- ==== Proof.Ref.Value.lean ====
/- The reference program computes the specification.

   Read one operation at a time, the reference program flattens the last two axes of the two signals and of the mask
   (pixel n = 256 u + v of row (b, c)), multiplies each signal by the mask read as a number, contracts the pixels
   against the pseudo-inverse (the coefficients), contracts the coefficients against the basis and multiplies by the
   mask again (the masked reconstruction), squares the difference of the two reconstructions, sums over all three axes
   starting from zero, and divides by the number of entries. Each stage is identified with the specification's term of
   the same name at row r = 8 b + c; the final sum over the three-axis index set is the sum over rows and pixels. -/
import proofs.«149681_j46213848105408_1_alg».proof.Proof.Gen.ReferenceIdeal.Read
import proofs.«149681_j46213848105408_1_alg».proof.Proof.Spec

noncomputable section

open scoped BigOperators

namespace Cert.RefValue

open Cert.ReferenceIdeal Cert.ReferenceIdeal.Gen Cert.ReferenceIdeal.Read Idealize.ShloMosaic Idealize.ShloMosaic.ValueIdx

/-- Pixel `n` of row `r = 8 b + c` in the three-axis layout (b, c, n). -/
abbrev pix (r : Fin 64) (n : Fin 65536) : S8x8x65536.Idx :=
  ix3 (⟨r.val / 8, by have := r.isLt; omega⟩ : Fin 8) (⟨r.val % 8, by omega⟩ : Fin 8) n

/-- Coefficient `k` of row `r = 8 b + c` in the three-axis layout (b, c, k). -/
abbrev cix (r : Fin 64) (k : Fin 110) : S8x8x110.Idx :=
  ix3 (⟨r.val / 8, by have := r.isLt; omega⟩ : Fin 8) (⟨r.val % 8, by omega⟩ : Fin 8) k

/-! ## The index functions of the reference, at a row and a pixel -/

/-- Flattening the last two axes: entry (b, c, n) of the flat array is entry (b, c, n / 256, n % 256) of the
    four-axis one, because the row-major position ((8 b + c) · 65536 + n) splits that way. -/
theorem src_v0 (r : Fin 64) (n : Fin 65536) : idx_main_v0 (pix r n) = Cert.Spec.src r n := by
  have hr := r.isLt
  have hn := n.isLt
  funext a
  refine Fin.ext ?_
  match a with
  | ⟨0, _⟩ =>
    show ((r.val / 8 * 8 + r.val % 8) * 65536 + n.val) / 524288 = r.val / 8
    omega
  | ⟨1, _⟩ =>
    show ((r.val / 8 * 8 + r.val % 8) * 65536 + n.val) / 65536 % 8 = r.val % 8
    omega
  | ⟨2, _⟩ =>
    show ((r.val / 8 * 8 + r.val % 8) * 65536 + n.val) / 256 % 256 = n.val / 256
    omega
  | ⟨3, _⟩ =>
    show ((r.val / 8 * 8 + r.val % 8) * 65536 + n.val) % 256 = n.val % 256
    omega

theorem src_v2 (r : Fin 64) (n : Fin 65536) : idx_main_v2 (pix r n) = Cert.Spec.src r n := src_v0 r n

theorem src_v4 (r : Fin 64) (n : Fin 65536) : idx_main_v4 (pix r n) = Cert.Spec.src r n := src_v0 r n

/-- The first contraction reads the masked signal at (row, pixel) … -/
theorem lidx_v6 (r : Fin 64) (k : Fin 110) (n : Fin 65536) : lidx_main_v6 (cix r k) n = pix r n := by
  funext a
  match a with
  | ⟨0, _⟩ => rfl
  | ⟨1, _⟩ => rfl
  | ⟨2, _⟩ => rfl

/-- … and the pseudo-inverse at (coefficient, pixel). -/
theorem ridx_v6 (r : Fin 64) (k : Fin 110) (n : Fin 65536) : ridx_main_v6 (cix r k) n = ix2 k n := by
  funext a
  match a with
  | ⟨0, _⟩ => rfl
  | ⟨1, _⟩ => rfl

theorem lidx_v7 (r : Fin 64) (k : Fin 110) (n : Fin 65536) : lidx_main_v7 (cix r k) n = pix r n := lidx_v6 r k n

theorem ridx_v7 (r : Fin 64) (k : Fin 110) (n : Fin 65536) : ridx_main_v7 (cix r k) n = ix2 k n := ridx_v6 r k n

/-- The second contraction reads the coefficients at (row, coefficient) … -/
theorem lidx_v8 (r : Fin 64) (n : Fin 65536) (k : Fin 110) : lidx_main_v8 (pix r n) k = cix r k := by
  funext a
  match a with
  | ⟨0, _⟩ => rfl
  | ⟨1, _⟩ => rfl
  | ⟨2, _⟩ => rfl

/-- … and the basis at (pixel, coefficient). -/
theorem ridx_v8 (r : Fin 64) (n : Fin 65536) (k : Fin 110) : ridx_main_v8 (pix r n) k = ix2 n k := by
  funext a
  match a with
  | ⟨0, _⟩ => rfl
  | ⟨1, _⟩ => rfl

theorem lidx_v10 (r : Fin 64) (n : Fin 65536) (k : Fin 110) : lidx_main_v10 (pix r n) k = cix r k := lidx_v8 r n k

theorem ridx_v10 (r : Fin 64) (n : Fin 65536) (k : Fin 110) : ridx_main_v10 (pix r n) k = ix2 n k := ridx_v8 r n k

/-! ## The stages of the reference, at a row and a pixel (or a coefficient) -/

variable (x0 x1 : (⟨S8x8x256x256, .f32⟩ : BufTy).Contents (Elt Ideal))
  (x2 : (⟨S8x8x256x256, .i32⟩ : BufTy).Contents (Elt Ideal))
  (x3 : (⟨S65536x110, .f32⟩ : BufTy).Contents (Elt Ideal))
  (x4 : (⟨S110x65536, .f32⟩ : BufTy).Contents (Elt Ideal))

/-- The converted mask is the mask word read signed, as a number. -/
theorem v1_at (r : Fin 64) (n : Fin 65536) :
    val_main_v1 (F := Ideal) x2 (pix r n) = Cert.Spec.msk x2 r n := by
  rw [val_main_v1_apply, val_main_v0_apply, src_v0]
  rfl

/-- The masked first signal. -/
theorem v3_at (r : Fin 64) (n : Fin 65536) :
    val_main_v3 (F := Ideal) x0 x2 (pix r n) = x0 (Cert.Spec.src r n) * Cert.Spec.msk x2 r n := by
  rw [val_main_v3_apply, val_main_v2_apply, src_v2, v1_at]
  rfl

/-- The masked second signal. -/
theorem v5_at (r : Fin 64) (n : Fin 65536) :
    val_main_v5 (F := Ideal) x1 x2 (pix r n) = x1 (Cert.Spec.src r n) * Cert.Spec.msk x2 r n := by
  rw [val_main_v5_apply, val_main_v4_apply, src_v4, v1_at]
  rfl

/-- The coefficients of the first signal. -/
theorem v6_at (r : Fin 64) (k : Fin 110) :
    val_main_v6 (F := Ideal) x0 x2 x4 (cix r k) = Cert.Spec.coef x2 x4 x0 r k := by
  rw [val_main_v6_apply]
  unfold Cert.Spec.coef
  refine Finset.sum_congr rfl fun n _ => ?_
  rw [lidx_v6, ridx_v6, v3_at]

/-- The coefficients of the second signal. -/
theorem v7_at (r : Fin 64) (k : Fin 110) :
    val_main_v7 (F := Ideal) x1 x2 x4 (cix r k) = Cert.Spec.coef x2 x4 x1 r k := by
  rw [val_main_v7_apply]
  unfold Cert.Spec.coef
  refine Finset.sum_congr rfl fun n _ => ?_
  rw [lidx_v7, ridx_v7, v5_at]

/-- The masked reconstruction of the first signal. -/
theorem v9_at (r : Fin 64) (n : Fin 65536) :
    val_main_v9 (F := Ideal) x0 x2 x3 x4 (pix r n)
      = Cert.Spec.recon x2 x3 (Cert.Spec.coef x2 x4 x0) r n := by
  rw [val_main_v9_apply, val_main_v8_apply, v1_at]
  unfold Cert.Spec.recon
  have h : ∑ k : Fin 110, val_main_v6 (F := Ideal) x0 x2 x4 (lidx_main_v8 (pix r n) k) * x3 (ridx_main_v8 (pix r n) k)
      = ∑ k : Fin 110, Cert.Spec.coef x2 x4 x0 r k * x3 (ix2 n k) :=
    Finset.sum_congr rfl fun k _ => by rw [lidx_v8, ridx_v8, v6_at]
  rw [h]
  rfl

/-- The masked reconstruction of the second signal. -/
theorem v11_at (r : Fin 64) (n : Fin 65536) :
    val_main_v11 (F := Ideal) x1 x2 x3 x4 (pix r n)
      = Cert.Spec.recon x2 x3 (Cert.Spec.coef x2 x4 x1) r n := by
  rw [val_main_v11_apply, val_main_v10_apply, v1_at]
  unfold Cert.Spec.recon
  have h : ∑ k : Fin 110, val_main_v7 (F := Ideal) x1 x2 x4 (lidx_main_v10 (pix r n) k) * x3 (ridx_main_v10 (pix r n) k)
      = ∑ k : Fin 110, Cert.Spec.coef x2 x4 x1 r k * x3 (ix2 n k) :=
    Finset.sum_congr rfl fun k _ => by rw [lidx_v10, ridx_v10, v7_at]
  rw [h]
  rfl

/-- The squared difference of the two reconstructions. -/
theorem v13_at (r : Fin 64) (n : Fin 65536) :
    val_main_v13 (F := Ideal) x0 x1 x2 x3 x4 (pix r n) = Cert.Spec.sqd x0 x1 x2 x3 x4 r n := by
  rw [val_main_v13_apply, val_main_v12_apply, v9_at, v11_at]
  rfl

/-! ## The result -/

/-- The sum over the three-axis index set is the specification's sum over rows and pixels. -/
theorem sum_v13 :
    ∑ j : S8x8x65536.Idx, val_main_v13 (F := Ideal) x0 x1 x2 x3 x4 j = Cert.Spec.sse x0 x1 x2 x3 x4 := by
  refine (Cert.Spec.sum_rows3 _).trans ?_
  unfold Cert.Spec.sse
  exact Finset.sum_congr rfl fun r _ => Finset.sum_congr rfl fun n _ => v13_at x0 x1 x2 x3 x4 r n

/-- The reference's result: the sum of squared differences divided by the number of entries. -/
theorem ref_result : Cert.ReferenceIdeal.Read.val_main_v15 (F := Ideal) x0 x1 x2 x3 x4
    = fun _ => FloatOps.hostDivf (F := Ideal) (Cert.Spec.sse x0 x1 x2 x3 x4) (FloatOps.ofBits .f32 0x4A800000#32) := by
  funext i
  have hz : (val_main_cst (F := Ideal)) (Shape.Idx.first h_S_) = 0 := Ideal.ofBits_zero_f32
  rw [val_main_v15_apply, val_main_v14_apply, hz, zero_add, sum_v13, val_main_cst_0_apply]

end Cert.RefValue

end
-- ==== Proof.lean ====
/- The certificate: the kernel (a projection onto 110 coefficients by a pseudo-inverse, a masked reconstruction from
   them, and the mean squared difference of two such reconstructions, computed in two passes over 16 tiles of 4096
   pixels with running totals) against its one-pass reference.

   Frames. The kernel's program is two pipelined regions between host lines. Each region's body is run once per case
   of its two branches (first point: reset the running totals; last point: copy them out), the totals are carried from
   point to point by the region's invariant, and the two regions are composed with the host lines by the library's
   several-regions launch; its post reads every unscoped buffer at the end, so the arguments are found unchanged. The
   same proof serves the word-level program and its idealization (the two are one text). The reference's frame is its
   run with the result dropped.

   Values. At the ideal instance every format change is the identity and a matmul into a zero accumulator is a plain
   sum, so region 0 leaves x[r,k] = ∑ₙ (signal[r,n]·M[r,n])·pinv[k,n] (the 16 tiles' partial sums added up from zero)
   and region 1 leaves ∑ᵣ ∑ₙ ((∑ₖ x_pred[r,k]·A[n,k])·M[r,n] − (∑ₖ x_y[r,k]·A[n,k])·M[r,n])², again tile by tile; the
   reference computes the same sums in one go. Addition of extended reals is commutative and associative, so the two
   groupings agree with no appeal to finiteness; both programs then divide by the same constant 4194304. The ideal pass
   rewrote nothing, so the idealization is the program's own text and `preserves` is trivial. -/
import proofs.«149681_j46213848105408_1_alg».proof.Defs
import proofs.«149681_j46213848105408_1_alg».proof.Proof.Gen.Kernel
import proofs.«149681_j46213848105408_1_alg».proof.Proof.Gen.KernelIdeal
import proofs.«149681_j46213848105408_1_alg».proof.Proof.Gen.ReferenceIdeal
import proofs.«149681_j46213848105408_1_alg».proof.Proof.Gen.Pre_finite_inputs
import proofs.«149681_j46213848105408_1_alg».proof.Proof.K.Launch
import proofs.«149681_j46213848105408_1_alg».proof.Proof.KI.Final
import proofs.«149681_j46213848105408_1_alg».proof.Proof.Ref.Value
import Idealize.ShloMosaic.Adequacy
import Idealize.ShloMosaic.Init

noncomputable section

namespace Cert.Proof

open Idealize.ShloMosaic Idealize.SL.Sem

/-- The word-level program runs to the end and leaves its five arguments as launched. -/
theorem frame_p : Cert.frame_Kernel := fun m ρ _ =>
  (θ_run Cert.Kernel.defs _ _).mono (fun _ h c =>
    ⟨(h c _ (Cert.Kernel.Fr.mem_uc Cert.Kernel.main_arg0 (by decide))).trans (Cert.Kernel.Fr.W4_main_arg0 m c),
      (h c _ (Cert.Kernel.Fr.mem_uc Cert.Kernel.main_arg1 (by decide))).trans (Cert.Kernel.Fr.W4_main_arg1 m c),
      (h c _ (Cert.Kernel.Fr.mem_uc Cert.Kernel.main_arg2 (by decide))).trans (Cert.Kernel.Fr.W4_main_arg2 m c),
      (h c _ (Cert.Kernel.Fr.mem_uc Cert.Kernel.main_arg3 (by decide))).trans (Cert.Kernel.Fr.W4_main_arg3 m c),
      (h c _ (Cert.Kernel.Fr.mem_uc Cert.Kernel.main_arg4 (by decide))).trans (Cert.Kernel.Fr.W4_main_arg4 m c)⟩)
    (Cert.Kernel.Fr.run_all (F := Bits) m ρ)

/-- So does its idealization. -/
theorem frame_pi : Cert.frame_KernelIdeal := fun m ρ _ =>
  (θ_run Cert.KernelIdeal.defs _ _).mono (fun _ h c =>
    ⟨(h c _ (Cert.KernelIdeal.Fr.mem_uc Cert.KernelIdeal.main_arg0 (by decide))).trans (Cert.KernelIdeal.Fr.W4_main_arg0 m c),
      (h c _ (Cert.KernelIdeal.Fr.mem_uc Cert.KernelIdeal.main_arg1 (by decide))).trans (Cert.KernelIdeal.Fr.W4_main_arg1 m c),
      (h c _ (Cert.KernelIdeal.Fr.mem_uc Cert.KernelIdeal.main_arg2 (by decide))).trans (Cert.KernelIdeal.Fr.W4_main_arg2 m c),
      (h c _ (Cert.KernelIdeal.Fr.mem_uc Cert.KernelIdeal.main_arg3 (by decide))).trans (Cert.KernelIdeal.Fr.W4_main_arg3 m c),
      (h c _ (Cert.KernelIdeal.Fr.mem_uc Cert.KernelIdeal.main_arg4 (by decide))).trans (Cert.KernelIdeal.Fr.W4_main_arg4 m c)⟩)
    (Cert.KernelIdeal.Fr.run_all (F := Ideal) m ρ)

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- At the ideal instance both programs end with the sum of squared differences of the two masked reconstructions,
    divided by 4194304, of arguments that agree. -/
theorem algebraic : Cert.algebraic_KernelIdeal_ReferenceIdeal := by
  intro m ρ m' ρ' _ hagree
  refine ⟨fun c => fun _ => FloatOps.hostDivf (F := Ideal)
      (Cert.Spec.sse (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (FloatOps.ofBits .f32 0x4A800000#32), ?_, ?_⟩
  · exact (θ_run Cert.KernelIdeal.defs _ _).mono (fun _ h c =>
      ⟨(h c _ (Cert.KernelIdeal.Fr.mem_uc Cert.KernelIdeal.main_v6 (by decide))).trans (Cert.KernelIdeal.Final.kernel_result m c),
      (h c _ (Cert.KernelIdeal.Fr.mem_uc Cert.KernelIdeal.main_arg0 (by decide))).trans (Cert.KernelIdeal.Fr.W4_main_arg0 m c),
      (h c _ (Cert.KernelIdeal.Fr.mem_uc Cert.KernelIdeal.main_arg1 (by decide))).trans (Cert.KernelIdeal.Fr.W4_main_arg1 m c),
      (h c _ (Cert.KernelIdeal.Fr.mem_uc Cert.KernelIdeal.main_arg2 (by decide))).trans (Cert.KernelIdeal.Fr.W4_main_arg2 m c),
      (h c _ (Cert.KernelIdeal.Fr.mem_uc Cert.KernelIdeal.main_arg3 (by decide))).trans (Cert.KernelIdeal.Fr.W4_main_arg3 m c),
      (h c _ (Cert.KernelIdeal.Fr.mem_uc Cert.KernelIdeal.main_arg4 (by decide))).trans (Cert.KernelIdeal.Fr.W4_main_arg4 m c)⟩)
      (Cert.KernelIdeal.Fr.run_all (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v15_eq, Cert.RefValue.ref_result, (hagree c).1, (hagree c).2.1, (hagree c).2.2.1,
      (hagree c).2.2.2.1, (hagree c).2.2.2.2]
    rfl

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
